-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x800000 : Shape := ⟨2, ![2, 800000]⟩
abbrev S800000 : Shape := ⟨1, ![800000]⟩
abbrev S30x64 : Shape := ⟨2, ![30, 64]⟩
abbrev S64x64 : Shape := ⟨2, ![64, 64]⟩
abbrev S64 : Shape := ⟨1, ![64]⟩
abbrev S_ : Shape := ⟨0, ![]⟩

class Facts : Prop where
  bcast_S_S800000 : S_.BroadcastsInDim S800000 (![] : Fin 0 → Fin S800000.rank)
  reducesTo_S800000_S_d0 : S800000.ReducesTo [0] S_
  h_S_ : 0 < S_.numel
  bcast_S_S30x64 : S_.BroadcastsInDim S30x64 (![] : Fin 0 → Fin S30x64.rank)
  reducesTo_S30x64_S_d0_1 : S30x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg0 : IVec S50000 32) (main_arg10 : FVec F S64 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_c_14 : IVec S_ 32 := constantI S_ 32 0#32
  let main_v39 : IVec S50000 32 := broadcastInDim S50000 ![] bcast_S_S50000 main_c_14
  let main_v40 : IVec S50000 1 := cmpi .sge main_arg0 main_v39
  let main_c_15 : IVec S_ 32 := constantI S_ 32 30#32
  let main_v41 : IVec S50000 32 := broadcastInDim S50000 ![] bcast_S_S50000 main_c_15
  let main_v42 : IVec S50000 1 := cmpi .slt main_arg0 main_v41
  let main_v43 : IVec S50000 1 := andi main_v40 main_v42
  let main_c_16 : IVec S_ 1 := constantI S_ 1 1#1
  let main_v44 : IVec S_ 1 := (fun x v => Host.reduce IntOp.andi x v reducesTo_S50000_S_d0 h_S_) main_v43 main_c_16
  let main_v45 : IVec S_ 1 := andi main_v38 main_v44
  main_v45

def fn_part1 {F : FTy → Type} [FloatOps F] (main_arg0 : IVec S50000 32) (main_arg7 : FVec F S64x64 .f32) (main_arg8 : FVec F S64 .f32) (main_arg9 : FVec F S64x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg9
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg0 main_arg10 main_v33

def fn {F : FTy → Type} [FloatOps F] (main_arg0 : IVec S50000 32) (main_arg1 : IVec S2x800000 32) (main_arg2 : FVec F S800000 .f32) (main_arg3 : IVec S50000 32) (main_arg4 : FVec F S30x64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) : IVec S_ 1 :=
  let main_v0 : FVec F S800000 .f32 := Host.absf main_arg2
  let main_cst : FVec F S_ .f32 := constant S_ .f32 0x7F800000#32
  let main_v1 : FVec F S800000 .f32 := broadcastInDim S800000 ![] bcast_S_S800000 main_cst
  let main_v2 : IVec S800000 1 := cmpf .olt main_v0 main_v1
  let main_c : IVec S_ 1 := constantI S_ 1 1#1
  let main_v3 : IVec S_ 1 := (fun x v => Host.reduce IntOp.andi x v reducesTo_S800000_S_d0 h_S_) main_v2 main_c
  let main_v4 : FVec F S30x64 .f32 := Host.absf main_arg4
  let main_cst_0 : FVec F S_ .f32 := constant S_ .f32 0x7F800000#32
  let main_v5 : FVec F S30x64 .f32 := broadcastInDim S30x64 ![] bcast_S_S30x64 main_cst_0
  let main_v6 : IVec S30x64 1 := cmpf .olt main_v4 main_v5
  let main_c_1 : IVec S_ 1 := constantI S_ 1 1#1
  let main_v7 : IVec S_ 1 := (fun x v => Host.reduce IntOp.andi x v reducesTo_S30x64_S_d0_1 h_S_) main_v6 main_c_1
  let main_v8 : IVec S_ 1 := andi main_v3 main_v7
  let main_v9 : FVec F S64x64 .f32 := Host.absf main_arg5
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg7 main_arg8 main_arg9 main_arg10 main_v13 main_v16
-- ==== Kernel.lean ====
abbrev S50000 : Shape := ⟨1, ![50000]⟩
abbrev S2x800000 : Shape := ⟨2, ![2, 800000]⟩
abbrev S800000 : Shape := ⟨1, ![800000]⟩
abbrev S30x64 : Shape := ⟨2, ![30, 64]⟩
abbrev S64x64 : Shape := ⟨2, ![64, 64]⟩
abbrev S64 : Shape := ⟨1, ![64]⟩
abbrev S1x800000 : Shape := ⟨2, ![1, 800000]⟩
abbrev S_ : Shape := ⟨0, ![]⟩
abbrev S800000x1 : Shape := ⟨2, ![800000, 1]⟩
abbrev S50000x1 : Shape := ⟨2, ![50000, 1]⟩
abbrev S30 : Shape := ⟨1, ![30]⟩
abbrev S1x30 : Shape := ⟨2, ![1, 30]⟩
abbrev S50000x30 : Shape := ⟨2, ![50000, 30]⟩
abbrev S50000x64 : Shape := ⟨2, ![50000, 64]⟩
abbrev S5000x30 : Shape := ⟨2, ![5000, 30]⟩
abbrev S5000x64 : Shape := ⟨2, ![5000, 64]⟩
abbrev S800000x64 : Shape := ⟨2, ![800000, 64]⟩
abbrev S5000x1 : Shape := ⟨2, ![5000, 1]⟩
abbrev S1x64 : Shape := ⟨2, ![1, 64]⟩
abbrev S64x1 : Shape := ⟨2, ![64, 1]⟩

abbrev nBuf : Space → Nat
  | .hbm => 126
  | .vmem => 37
  | .smem => 0
  | _ => 0

abbrev bufTy : (tb : Table) → Fin (tcTables nBuf tb) → BufTy
  | .hbm, ⟨0, _⟩ => ⟨S50000, .i32⟩
  | .hbm, ⟨1, _⟩ => ⟨S2x800000, .i32⟩
  | .hbm, ⟨2, _⟩ => ⟨S800000, .f32⟩
  | .hbm, ⟨3, _⟩ => ⟨S50000, .i32⟩
  | .hbm, ⟨4, _⟩ => ⟨S30x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000, .f32⟩
  | .hbm, ⟨34, _⟩ => ⟨S800000, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000, .f32⟩
  | .hbm, ⟨44, _⟩ => ⟨S800000, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S50000x1, .f32⟩
  | .hbm, ⟨49, _⟩ => ⟨S50000x1, .i32⟩
  | .hbm, ⟨50, _⟩ => ⟨S30, .i32⟩
  | .hbm, ⟨51, _⟩ => ⟨S1x30, .i32⟩
  | .hbm, ⟨52, _⟩ => ⟨S50000x30, .i32⟩
  | .hbm, ⟨53, _⟩ => ⟨S50000x30, .i32⟩
  | .hbm, ⟨54, _⟩ => ⟨S50000x30, .i1⟩
  | .hbm, ⟨55, _⟩ => ⟨S50000x30, .bf16⟩
  | .hbm, ⟨56, _⟩ => ⟨S30x64, .f32⟩
  | .hbm, ⟨57, _⟩ => ⟨S50000x64, .bf16⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x64, .bf16⟩
  | .hbm, ⟨67, _⟩ => ⟨S800000x64, .f32⟩
  | .hbm, ⟨68, _⟩ => ⟨S800000x1, .f32⟩
  | .hbm, ⟨69, _⟩ => ⟨S800000x64, .f32⟩
  | .hbm, ⟨70, _⟩ => ⟨S800000x64, .f32⟩
  | .hbm, ⟨71, _⟩ => ⟨S_, .f32⟩
  | .hbm, ⟨72, _⟩ => ⟨S50000x64, .f32⟩
  | .hbm, ⟨73, _⟩ => ⟨S800000x1, .i32⟩
  | .hbm, ⟨74, _⟩ => ⟨S50000x64, .f32⟩
  | .hbm, ⟨75, _⟩ => ⟨S50000x64, .bf16⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x64, .bf16⟩
  | .hbm, ⟨85, _⟩ => ⟨S800000x64, .f32⟩
  | .hbm, ⟨86, _⟩ => ⟨S800000x1, .f32⟩
  | .hbm, ⟨87, _⟩ => ⟨S800000x64, .f32⟩
  | .hbm, ⟨88, _⟩ => ⟨S800000x64, .f32⟩
  | .hbm, ⟨89, _⟩ => ⟨S_, .f32⟩
  | .hbm, ⟨90, _⟩ => ⟨S50000x64, .f32⟩
  | .hbm, ⟨91, _⟩ => ⟨S800000x1, .i32⟩
  | .hbm, ⟨92, _⟩ => ⟨S50000x64, .f32⟩
  | .hbm, ⟨93, _⟩ => ⟨S50000x64, .bf16⟩
  | .hbm, ⟨94, _⟩ => ⟨S_, .i32⟩
  | .hbm, ⟨95, _⟩ => ⟨S800000, .i32⟩
  | .hbm, ⟨96, _⟩ => ⟨S800000, .i1⟩
  | .hbm, ⟨97, _⟩ => ⟨S_, .i32⟩
  | .hbm, ⟨98, _⟩ => ⟨S800000, .i32⟩
  | .hbm, ⟨99, _⟩ => ⟨S800000, .i32⟩
  | .hbm, ⟨100, _⟩ => ⟨S800000, .i32⟩
  | .hbm, ⟨101, _⟩ => ⟨S800000x1, .i32⟩
  | .hbm, ⟨102, _⟩ => ⟨S800000x64, .bf16⟩
  | .hbm, ⟨103, _⟩ => ⟨S800000x64, .f32⟩
  | .hbm, ⟨104, _⟩ => ⟨S800000x1, .f32⟩
  | .hbm, ⟨105, _⟩ => ⟨S800000x64, .f32⟩
  | .hbm, ⟨106, _⟩ => ⟨S800000x64, .f32⟩
  | .hbm, ⟨107, _⟩ => ⟨S_, .f32⟩
  | .hbm, ⟨108, _⟩ => ⟨S50000x64, .f32⟩
  | .hbm, ⟨109, _⟩ => ⟨S800000x1, .i32⟩
  | .hbm, ⟨110, _⟩ => ⟨S50000x64, .f32⟩
  | .hbm, ⟨111, _⟩ => ⟨S50000x1, .i32⟩
  | .hbm, ⟨112, _⟩ => ⟨S64, .i32⟩
  | .hbm, ⟨113, _⟩ => ⟨S1x64, .i32⟩
  | .hbm, ⟨114, _⟩ => ⟨S50000x64, .i32⟩
  | .hbm, ⟨115, _⟩ => ⟨S50000x64, .i32⟩
  | .hbm, ⟨116, _⟩ => ⟨S50000x64, .i1⟩
  | .hbm, ⟨117, _⟩ => ⟨S50000x64, .bf16⟩
  | .hbm, ⟨118, _⟩ => ⟨S_, .f32⟩
  | .hbm, ⟨119, _⟩ => ⟨S50000, .f32⟩
  | .hbm, ⟨120, _⟩ => ⟨S_, .f32⟩
  | .hbm, ⟨121, _⟩ => ⟨S64, .f32⟩
  | .hbm, ⟨122, _⟩ => ⟨S50000x1, .i32⟩
  | .hbm, ⟨123, _⟩ => ⟨S64, .f32⟩
  | .hbm, ⟨124, _⟩ => ⟨S64x1, .f32⟩
  | .hbm, ⟨125, _⟩ => ⟨S64x64, .f32⟩
  | .local _ .vmem, ⟨0, _⟩ => ⟨S5000x30, .bf16⟩
  | .local _ .vmem, ⟨1, _⟩ => ⟨S5000x30, .bf16⟩
  | .local _ .vmem, ⟨2, _⟩ => ⟨S30x64, .f32⟩
  | .local _ .vmem, ⟨3, _⟩ => ⟨S5000x64, .bf16⟩
  | .local _ .vmem, ⟨4, _⟩ => ⟨S5000x64, .bf16⟩
  | .local _ .vmem, ⟨5, _⟩ => ⟨S5000x64, .f32⟩
  | .local _ .vmem, ⟨6, _⟩ => ⟨S5000x64, .f32⟩
  | .local _ .vmem, ⟨7, _⟩ => ⟨S5000x64, .bf16⟩
  | .local _ .vmem, ⟨8, _⟩ => ⟨S5000x64, .bf16⟩
  | .local _ .vmem, ⟨9, _⟩ => ⟨S64, .f32⟩
  | .local _ .vmem, ⟨10, _⟩ => ⟨S5000x1, .f32⟩
  | .local _ .vmem, ⟨11, _⟩ => ⟨S5000x1, .f32⟩
  | .local _ .vmem, ⟨12, _⟩ => ⟨S64x64, .f32⟩
  | .local _ .vmem, ⟨13, _⟩ => ⟨S5000x64, .bf16⟩
  | .local _ .vmem, ⟨14, _⟩ => ⟨S5000x64, .bf16⟩
  | .local _ .vmem, ⟨15, _⟩ => ⟨S5000x64, .f32⟩
  | .local _ .vmem, ⟨16, _⟩ => ⟨S5000x64, .f32⟩
  | .local _ .vmem, ⟨17, _⟩ => ⟨S5000x64, .bf16⟩
  | .local _ .vmem, ⟨18, _⟩ => ⟨S5000x64, .bf16⟩
  | .local _ .vmem, ⟨19, _⟩ => ⟨S64, .f32⟩
  | .local _ .vmem, ⟨20, _⟩ => ⟨S5000x1, .f32⟩
  | .local _ .vmem, ⟨21, _⟩ => ⟨S5000x1, .f32⟩
  | .local _ .vmem, ⟨22, _⟩ => ⟨S64x64, .f32⟩
  | .local _ .vmem, ⟨23, _⟩ => ⟨S5000x64, .bf16⟩
  | .local _ .vmem, ⟨24, _⟩ => ⟨S5000x64, .bf16⟩
  | .local _ .vmem, ⟨25, _⟩ => ⟨S5000x64, .f32⟩
  | .local _ .vmem, ⟨26, _⟩ => ⟨S5000x64, .f32⟩
  | .local _ .vmem, ⟨27, _⟩ => ⟨S5000x64, .bf16⟩
  | .local _ .vmem, ⟨28, _⟩ => ⟨S5000x64, .bf16⟩
  | .local _ .vmem, ⟨29, _⟩ => ⟨S64, .f32⟩
  | .local _ .vmem, ⟨30, _⟩ => ⟨S5000x1, .f32⟩
  | .local _ .vmem, ⟨31, _⟩ => ⟨S5000x1, .f32⟩
  | .local _ .vmem, ⟨32, _⟩ => ⟨S5000x64, .bf16⟩
  | .local _ .vmem, ⟨33, _⟩ => ⟨S5000x64, .bf16⟩
  | .local _ .vmem, ⟨34, _⟩ => ⟨S64x1, .f32⟩
  | .local _ .vmem, ⟨35, _⟩ => ⟨S64x64, .f32⟩
  | .local _ .vmem, ⟨36, _⟩ => ⟨S64x64, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_6 : Ref sig .tc := ⟨.hbm, 58, rfl⟩
abbrev main_v39 : Ref sig .tc := ⟨.hbm, 59, rfl⟩
abbrev main_v40 : Ref sig .tc := ⟨.hbm, 60, rfl⟩
abbrev main_c_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_9 : Ref sig .tc := ⟨.hbm, 76, rfl⟩
abbrev main_v54 : Ref sig .tc := ⟨.hbm, 77, rfl⟩
abbrev main_v55 : Ref sig .tc := ⟨.hbm, 78, rfl⟩
abbrev main_c_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_11 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_12 : Ref sig .tc := ⟨.hbm, 94, rfl⟩
abbrev main_v69 : Ref sig .tc := ⟨.hbm, 95, rfl⟩
abbrev main_v70 : Ref sig .tc := ⟨.hbm, 96, rfl⟩
abbrev main_c_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_14 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_15 : Ref sig .tc := ⟨.hbm, 118, rfl⟩
abbrev main_v90 : Ref sig .tc := ⟨.hbm, 119, rfl⟩
abbrev main_cst_16 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg6_0 : Ref sig .tc := ⟨.vmem, 35, rfl⟩
abbrev cc3_scratch0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem3_1 : DmaSem sig := 31
abbrev cc3_sem4_0 : DmaSem sig := 32
abbrev cc3_sem4_1 : DmaSem sig := 33
abbrev cc3_sem5_0 : DmaSem sig := 34
abbrev cc3_sem6_0 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x30 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S30x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v26 : BitVec 1 := Scalar.cmpi .eq arg0 c9_i32
  let v27 : BitVec 32 := Scalar.extui v26
  let c0_i32_13 : BitVec 32 := 0#32
  let v28 : BitVec 1 := Scalar.cmpi .ne v27 c0_i32_13
  v28

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x64 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S64x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  shapeCasts_S50000_S50000x1 : S50000.ShapeCasts S50000x1
  bcast_S50000_S50000x1_0 : S50000.BroadcastsInDim S50000x1 (![0] : Fin 1 → Fin S50000x1.rank)
  bcast_S30_S1x30_1 : S30.BroadcastsInDim S1x30 (![1] : Fin 1 → Fin S1x30.rank)
  bcast_S50000x1_S50000x30_0_1 : S50000x1.BroadcastsInDim S50000x30 (![0, 1] : Fin 2 → Fin S50000x30.rank)
  bcast_S1x30_S50000x30_0_1 : S1x30.BroadcastsInDim S50000x30 (![0, 1] : Fin 2 → Fin S50000x30.rank)
  inb_S5000x30_S5000x30_0_0 : ∀ a, (![0, 0] : Fin 2 → Nat) a + S5000x30.size a ≤ S5000x30.size a
  h_S5000x30 : 0 < S5000x30.numel
  shapeCasts_S5000x30_S5000x30 : S5000x30.ShapeCasts S5000x30
  inb_S30x64_S30x64_0_0 : ∀ a, (![0, 0] : Fin 2 → Nat) a + S30x64.size a ≤ S30x64.size a
  h_S30x64 : 0 < S30x64.numel
  shapeCasts_S30x64_S30x64 : S30x64.ShapeCasts S30x64
  bitsLt_bf16_f32 : FTy.bits .bf16 < FTy.bits .f32
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S64_S1x64_1 : S64.BroadcastsInDim S1x64 (![1] : Fin 1 → Fin S1x64.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  bcast_S_S64 : S_.BroadcastsInDim S64 (![] : Fin 0 → Fin S64.rank)
  shapeCasts_S64_S64x1 : S64.ShapeCasts S64x1
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x64 : S64x1.Broadcasts S64x64
  reduces_S64x64_S64 : S64x64.Reduces [1] S64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S30x64_S64x64_S30x64_1_0_0_1_n_n_wf : DotDims.WF S30x64 S64x64 S30x64 [1] [0] [0] [1] [] []
  dot_S5000x30_S30x64_S5000x64_1_0_0_1_n_n_wf : DotDims.WF S5000x30 S30x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  scatter_S64_S50000x1_S50000_n_0_0_1_wf : ScatterDims.WF S64 S50000x1 S50000 [] [0] [0] 1
  dot_S5000x64_S5000x64_S64x64_0_0_1_1_n_n_wf : DotDims.WF S5000x64 S5000x64 S64x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x30.size a ≤ S50000x30.size a
  hwx0_0 : ∀ i : grid0.Coords, EltTy.bits .bf16 = 32 ∨ (Rect.block (s := S50000x30) S5000x30.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S30x64.size a ≤ S30x64.size a
  hwx0_1 : ∀ i : grid0.Coords, EltTy.bits .f32 = 32 ∨ (Rect.block (s := S30x64) S30x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .bf16 = 32 ∨ (Rect.block (s := S50000x64) S5000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .bf16 = 32 ∨ (Rect.block (s := S50000x64) S5000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .bf16 = 32 ∨ (Rect.block (s := S50000x64) S5000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .bf16 = 32 ∨ (Rect.block (s := S50000x64) S5000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S50000x1.size a
  hwx2_3 : ∀ i : grid2.Coords, EltTy.bits .f32 = 32 ∨ (Rect.block (s := S50000x1) S5000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .bf16 = 32 ∨ (Rect.block (s := S50000x64) S5000x64.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .bf16 = 32 ∨ (Rect.block (s := S50000x64) S5000x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S50000x1.size a
  hwx3_3 : ∀ i : grid3.Coords, EltTy.bits .f32 = 32 ∨ (Rect.block (s := S50000x1) S5000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .bf16 = 32 ∨ (Rect.block (s := S50000x64) S5000x64.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x1.size a ≤ S64x1.size a
  hwx3_5 : ∀ i : grid3.Coords, EltTy.bits .f32 = 32 ∨ (Rect.block (s := S64x1) S64x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x64.size a ≤ S64x64.size a
  hwx3_6 : ∀ i : grid3.Coords, EltTy.bits .f32 = 32 ∨ (Rect.block (s := S64x64) S64x64.size (cc3_transform_6 i) (hinb3_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S30x64_S64x64_S30x64_1_0_0_1_n_n : DotDims S30x64 S64x64 S30x64 where
  lhsContracting := [1]
  rhsContracting := [0]
  lhsNonContracting := [0]
  rhsNonContracting := [1]
  lhsBatch := []
  rhsBatch := []
  wf := dot_S30x64_S64x64_S30x64_1_0_0_1_n_n_wf
def dot_S5000x30_S30x64_S5000x64_1_0_0_1_n_n : DotDims S5000x30 S30x64 S5000x64 where
  lhsContracting := [1]
  rhsContracting := [0]
  lhsNonContracting := [0]
  rhsNonContracting := [1]
  lhsBatch := []
  rhsBatch := []
  wf := dot_S5000x30_S30x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf

abbrev win0_0 : Pipeline.Window sig grid0 :=
  Pipeline.Window.ofSpec (Memref.whole main_v36) S5000x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S30x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v67) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v82) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v29) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v89) S5000x64.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v94) S64x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v95) S64x64.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun _ => false | 6 => fun i => !(k3_cond2 i == 1#1) | ⟨_ + 7, h⟩ => absurd h (Nat.not_lt.2 (Nat.le_add_left _ _))

class Facts : Prop extends Facts₀ where

variable [Facts]
-- ==== ReferenceIdeal.lean ====
abbrev S50000 : Shape := ⟨1, ![50000]⟩
abbrev S2x800000 : Shape := ⟨2, ![2, 800000]⟩
abbrev S800000 : Shape := ⟨1, ![800000]⟩
abbrev S30x64 : Shape := ⟨2, ![30, 64]⟩
abbrev S64x64 : Shape := ⟨2, ![64, 64]⟩
abbrev S64 : Shape := ⟨1, ![64]⟩
abbrev S1x800000 : Shape := ⟨2, ![1, 800000]⟩
abbrev S_ : Shape := ⟨0, ![]⟩
abbrev S800000x1 : Shape := ⟨2, ![800000, 1]⟩
abbrev S50000x1 : Shape := ⟨2, ![50000, 1]⟩
abbrev S50000x64 : Shape := ⟨2, ![50000, 64]⟩
abbrev S800000x64 : Shape := ⟨2, ![800000, 64]⟩
abbrev S1x64 : Shape := ⟨2, ![1, 64]⟩
abbrev S64x1 : Shape := ⟨2, ![64, 1]⟩

abbrev nBuf : Space → Nat
  | .hbm => 161
  | .vmem => 0
  | .smem => 0
  | _ => 0

abbrev hbmTy0_0 (i : Nat) : BufTy := match i % 128 with
  | 0 => ⟨S50000, .i32⟩
  | 1 => ⟨S2x800000, .i32⟩
  | 2 => ⟨S800000, .f32⟩
  | 3 => ⟨S50000, .i32⟩
  | 4 => ⟨S30x64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S_, .f32⟩
  | 23 => ⟨S50000, .f32⟩
  | 24 => ⟨S50000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S800000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S_, .f32⟩
  | 46 => ⟨S50000, .f32⟩
  | 47 => ⟨S50000, .f32⟩
  | 48 => ⟨S_, .i32⟩
  | 49 => ⟨S50000, .i32⟩
  | 50 => ⟨S50000, .i1⟩
  | 51 => ⟨S_, .i32⟩
  | 52 => ⟨S50000, .i32⟩
  | 53 => ⟨S50000, .i32⟩
  | 54 => ⟨S50000, .i32⟩
  | 55 => ⟨S50000x1, .i32⟩
  | 56 => ⟨S50000x64, .f32⟩
  | 57 => ⟨S50000x64, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x64, .f32⟩
  | 67 => ⟨S800000x1, .f32⟩
  | 68 => ⟨S800000x64, .f32⟩
  | 69 => ⟨S800000x64, .f32⟩
  | 70 => ⟨S_, .f32⟩
  | 71 => ⟨S50000x64, .f32⟩
  | 72 => ⟨S800000x1, .i32⟩
  | 73 => ⟨S50000x64, .f32⟩
  | 74 => ⟨S50000x1, .f32⟩
  | 75 => ⟨S50000x64, .f32⟩
  | 76 => ⟨S50000x64, .f32⟩
  | 77 => ⟨S50000x64, .f32⟩
  | 78 => ⟨S1x64, .f32⟩
  | 79 => ⟨S50000x64, .f32⟩
  | 80 => ⟨S50000x64, .f32⟩
  | 81 => ⟨S_, .f32⟩
  | 82 => ⟨S50000x64, .f32⟩
  | 83 => ⟨S50000x64, .f32⟩
  | 84 => ⟨S50000x64, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x64, .f32⟩
  | 94 => ⟨S800000x1, .f32⟩
  | 95 => ⟨S800000x64, .f32⟩
  | 96 => ⟨S800000x64, .f32⟩
  | 97 => ⟨S_, .f32⟩
  | 98 => ⟨S50000x64, .f32⟩
  | 99 => ⟨S800000x1, .i32⟩
  | 100 => ⟨S50000x64, .f32⟩
  | 101 => ⟨S50000x1, .f32⟩
  | 102 => ⟨S50000x64, .f32⟩
  | 103 => ⟨S50000x64, .f32⟩
  | 104 => ⟨S50000x64, .f32⟩
  | 105 => ⟨S1x64, .f32⟩
  | 106 => ⟨S50000x64, .f32⟩
  | 107 => ⟨S50000x64, .f32⟩
  | 108 => ⟨S_, .f32⟩
  | 109 => ⟨S50000x64, .f32⟩
  | 110 => ⟨S50000x64, .f32⟩
  | 111 => ⟨S50000x64, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x64, .f32⟩
  | 121 => ⟨S800000x1, .f32⟩
  | 122 => ⟨S800000x64, .f32⟩
  | 123 => ⟨S800000x64, .f32⟩
  | 124 => ⟨S_, .f32⟩
  | 125 => ⟨S50000x64, .f32⟩
  | 126 => ⟨S800000x1, .i32⟩
  | 127 => ⟨S50000x64, .f32⟩
  | _ => ⟨S50000, .i32⟩

abbrev hbmTy0_1 (i : Nat) : BufTy := match i % 128 with
  | 0 => ⟨S50000x1, .f32⟩
  | 1 => ⟨S50000x64, .f32⟩
  | 2 => ⟨S50000x64, .f32⟩
  | 3 => ⟨S50000x64, .f32⟩
  | 4 => ⟨S1x64, .f32⟩
  | 5 => ⟨S50000x64, .f32⟩
  | 6 => ⟨S50000x64, .f32⟩
  | 7 => ⟨S_, .f32⟩
  | 8 => ⟨S64x64, .f32⟩
  | 9 => ⟨S50000x1, .i32⟩
  | 10 => ⟨S64x64, .f32⟩
  | 11 => ⟨S_, .f32⟩
  | 12 => ⟨S50000, .f32⟩
  | 13 => ⟨S_, .f32⟩
  | 14 => ⟨S64, .f32⟩
  | 15 => ⟨S50000x1, .i32⟩
  | 16 => ⟨S64, .f32⟩
  | 17 => ⟨S_, .f32⟩
  | 18 => ⟨S64, .f32⟩
  | 19 => ⟨S64, .f32⟩
  | 20 => ⟨S64x1, .f32⟩
  | 21 => ⟨S64x64, .f32⟩
  | 22 => ⟨S64x64, .f32⟩
  | 23 => ⟨S64x64, .f32⟩
  | 24 => ⟨S_, .f32⟩
  | 25 => ⟨S64, .f32⟩
  | 26 => ⟨S64x1, .f32⟩
  | 27 => ⟨S64x1, .f32⟩
  | 28 => ⟨S_, .f32⟩
  | 29 => ⟨S64x1, .f32⟩
  | 30 => ⟨S64x1, .f32⟩
  | 31 => ⟨S64x64, .f32⟩
  | 32 => ⟨S64x64, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call0_cst : Ref sig .tc := ⟨.hbm, 81, rfl⟩
abbrev main_call0_v0 : Ref sig .tc := ⟨.hbm, 82, rfl⟩
abbrev main_v57 : Ref sig .tc := ⟨.hbm, 83, rfl⟩
abbrev main_v58 : Ref sig .tc := ⟨.hbm, 84, rfl⟩
abbrev main_c_11 : Ref sig .tc := ⟨.hbm, 85, rfl⟩
abbrev main_v59 : Ref sig .tc := ⟨.hbm, 86, rfl⟩
abbrev main_v60 : Ref sig .tc := ⟨.hbm, 87, rfl⟩
abbrev main_c_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_call1_cst : Ref sig .tc := ⟨.hbm, 108, rfl⟩
abbrev main_call1_v0 : Ref sig .tc := ⟨.hbm, 109, rfl⟩
abbrev main_v79 : Ref sig .tc := ⟨.hbm, 110, rfl⟩
abbrev main_v80 : Ref sig .tc := ⟨.hbm, 111, rfl⟩
abbrev main_c_14 : Ref sig .tc := ⟨.hbm, 112, rfl⟩
abbrev main_v81 : Ref sig .tc := ⟨.hbm, 113, rfl⟩
abbrev main_v82 : Ref sig .tc := ⟨.hbm, 114, rfl⟩
abbrev main_c_15 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_16 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_17 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_18 : Ref sig .tc := ⟨.hbm, 139, rfl⟩
abbrev main_v104 : Ref sig .tc := ⟨.hbm, 140, rfl⟩
abbrev main_cst_19 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_20 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_call2_v0 : Ref sig .tc := ⟨.hbm, 151, rfl⟩
abbrev main_call2_cst : Ref sig .tc := ⟨.hbm, 152, rfl⟩
abbrev main_call2_v1 : Ref sig .tc := ⟨.hbm, 153, rfl⟩
abbrev main_call2_v2 : Ref sig .tc := ⟨.hbm, 154, rfl⟩
abbrev main_v113 : Ref sig .tc := ⟨.hbm, 155, rfl⟩
abbrev main_cst_21 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S50000_S50000x1_0 : S50000.BroadcastsInDim S50000x1 (![0] : Fin 1 → Fin S50000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  reducesTo_S64x64_S64_d1 : S64x64.ReducesTo [1] S64
  h_S_ : 0 < S_.numel
  bcast_S_S64x1 : S_.BroadcastsInDim S64x1 (![] : Fin 0 → Fin S64x1.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S30x64_S50000x1_S50000x64_1_0_n_n_0_1_164_wf : GatherDims.WF S30x64 S50000x1 S50000x64 [1] [0] [] [0] [] 1 ![1, 64]
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S30x64_S50000x1_S50000x64_1_0_n_n_0_1_164 : GatherDims S30x64 S50000x1 S50000x64 where
  offsetDims := [1]
  collapsedSliceDims := [0]
  operandBatchingDims := []
  startIndicesBatchingDims := []
  startIndexMap := [0]
  indexVectorDim := 1
  sliceSizes := ![1, 64]
  wf := gather_S30x64_S50000x1_S50000x64_1_0_n_n_0_1_164_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.KB.R0.lean ====
/-
  Region 0 (the one-hot projection): at every grid point the body reads a block of 5000 one-hot rows and the whole
  30 × 64 table and stores their product. Stated at a parameter `V`, the buffer contents when the region is entered:
  what each window's block is at a point, what the body leaves in the output's staging buffer (its one store over the
  payload of the two loaded blocks), the pipeline's proof data, and the body's obligation at every point.
-/
import proofs.«414150_j66202625901264_3_alg».proof.Proof.Gen.Kernel.Launch
import proofs.«414150_j66202625901264_3_alg».proof.Proof.Gen.Kernel.Skeleton
import proofs.«414150_j66202625901264_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each is the whole staging buffer. -/
abbrev r0_0 : Rect S5000x30 := Rect.unit (s := S5000x30) ![0, 0] S5000x30.size inb_S5000x30_S5000x30_0_0
abbrev r0_1 : Rect S30x64 := Rect.unit (s := S30x64) ![0, 0] S30x64.size inb_S30x64_S30x64_0_0
abbrev r0_2 : Rect S5000x64 := Rect.unit (s := S5000x64) ![0, 0] S5000x64.size inb_S5000x64_S5000x64_0_0

/-- The output's staging buffer after the body: its one store, over the payload of the two loaded blocks. -/
def out0_2 (x0 : Vec F S5000x30 .bf16) (x1 : Vec F S30x64 .f32) : Vec F S5000x64 .bf16 :=
  View.canon [⟨r0_2, k0_pay1 (View.ld x0 r0_0) (View.ld x1 r0_1)⟩]

/-- The store covers the buffer. -/
theorem cover0_2 (p0 : Vec F S5000x64 .bf16) (y : S5000x64.Idx) :
    ∃ pc ∈ ([⟨r0_2, p0⟩] : List (View.Piece (Elt F) S5000x64 .bf16)), y ∈ pc.1.set :=
  View.cover_of_tiled [⟨r0_2, p0⟩] S5000x64.size (by rfl) y

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords) (arg1 : Memref sig .tc .vmem S5000x30 .bf16) (harg1 : arg1.IsWhole)
    (arg2 : Memref sig .tc .vmem S30x64 .f32) (harg2 : arg2.IsWhole) (arg3 : Memref sig .tc .vmem S5000x64 .bf16) (harg3 : arg3.IsWhole)
    (x0 : Vec F S5000x30 .bf16) (x1 : Vec F S30x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__fused_embed_proj_kernel i arg1 harg1 arg2 harg2 arg3 harg3) K := by
  simp only [cc0__fused_embed_proj_kernel_eq_skeleton]; unfold cc0__fused_embed_proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t` each
    input's buffer at its block and the output's at `out0_2` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.R1.lean ====
/-
  Region 1 (a layer's combine and the next projection): at every grid point the body reads a block of 5000 rows of the
  neighbour sums, of the projected features and of the inverse degrees, the bias and the next weight matrix, and stores
  relu(sum + feature · inverse degree + bias) times the weights. Stated at a parameter `V`, the buffer contents when the
  region is entered: each window's block at a point, what the body leaves in the output's staging buffer (its one store
  over the payload of the five loaded blocks), the pipeline's proof data, and the body's obligation at every point.
-/
import proofs.«414150_j66202625901264_3_alg».proof.Proof.Gen.Kernel.Launch
import proofs.«414150_j66202625901264_3_alg».proof.Proof.Gen.Kernel.Skeleton
import proofs.«414150_j66202625901264_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each is the whole staging buffer. -/
abbrev r1_m : Rect S5000x64 := Rect.unit (s := S5000x64) ![0, 0] S5000x64.size inb_S5000x64_S5000x64_0_0
abbrev r1_b : Rect S64 := Rect.unit (s := S64) ![0] S64.size inb_S64_S64_0
abbrev r1_d : Rect S5000x1 := Rect.unit (s := S5000x1) ![0, 0] S5000x1.size inb_S5000x1_S5000x1_0_0
abbrev r1_w : Rect S64x64 := Rect.unit (s := S64x64) ![0, 0] S64x64.size inb_S64x64_S64x64_0_0

/-- The output's staging buffer after the body: its one store, over the payload of the five loaded blocks
    (neighbour sums `x0`, features `x1`, bias `x2`, inverse degrees `x3`, weights `x4`). -/
def out1_5 (x0 : Vec F S5000x64 .f32) (x1 : Vec F S5000x64 .bf16) (x2 : Vec F S64 .f32) (x3 : Vec F S5000x1 .f32) (x4 : Vec F S64x64 .f32) : Vec F S5000x64 .bf16 :=
  View.canon [⟨r1_m, k1_pay1 (View.ld x1 r1_m) (View.ld x0 r1_m) (View.ld x3 r1_d) (View.ld x2 r1_b) (View.ld x4 r1_w)⟩]

/-- The store covers the buffer. -/
theorem cover1_5 (p0 : Vec F S5000x64 .bf16) (y : S5000x64.Idx) :
    ∃ pc ∈ ([⟨r1_m, p0⟩] : List (View.Piece (Elt F) S5000x64 .bf16)), y ∈ pc.1.set :=
  View.cover_of_tiled [⟨r1_m, p0⟩] S5000x64.size (by rfl) y

set_option maxHeartbeats 1000000 in
/-- The body on whole staging memrefs, the inputs' at contents `x0 … x4` and the output's at anything, runs to the
    continuation holding the inputs' as they were and the output's at `out1_5 x0 x1 x2 x3 x4`. -/
theorem sound_kernel1 (c : Dev nD) (E : Set ℕ) (i : grid1.Coords) (arg1 : Memref sig .tc .vmem S5000x64 .f32) (harg1 : arg1.IsWhole)
    (arg2 : Memref sig .tc .vmem S5000x64 .bf16) (harg2 : arg2.IsWhole) (arg3 : Memref sig .tc .vmem S64 .f32) (harg3 : arg3.IsWhole)
    (arg4 : Memref sig .tc .vmem S5000x1 .f32) (harg4 : arg4.IsWhole) (arg5 : Memref sig .tc .vmem S64x64 .f32) (harg5 : arg5.IsWhole)
    (arg6 : Memref sig .tc .vmem S5000x64 .bf16) (harg6 : arg6.IsWhole)
    (x0 : Vec F S5000x64 .f32) (x1 : Vec F S5000x64 .bf16) (x2 : Vec F S64 .f32) (x3 : Vec F S5000x1 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__kernel i arg1 harg1 arg2 harg2 arg3 harg3 arg4 harg4 arg5 harg5 arg6 harg6) K := by
  simp only [cc1__kernel_eq_skeleton]; unfold cc1__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of pipeline 1 on core `c`: the arrays as the region finds them; after the body at point `t` each
    input's buffer at its block and the output's at `out1_5` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.R2.lean ====
/-
  Region 2 (the next layer's combine and the next projection): at every grid point the body reads a block of 5000 rows of the
  neighbour sums, of the projected features and of the inverse degrees, the bias and the next weight matrix, and stores
  relu(sum + feature · inverse degree + bias) times the weights. Stated at a parameter `V`, the buffer contents when the
  region is entered: each window's block at a point, what the body leaves in the output's staging buffer (its one store
  over the payload of the five loaded blocks), the pipeline's proof data, and the body's obligation at every point.
-/
import proofs.«414150_j66202625901264_3_alg».proof.Proof.Gen.Kernel.Launch
import proofs.«414150_j66202625901264_3_alg».proof.Proof.Gen.Kernel.Skeleton
import proofs.«414150_j66202625901264_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: each is the whole staging buffer. -/
abbrev r2_m : Rect S5000x64 := Rect.unit (s := S5000x64) ![0, 0] S5000x64.size inb_S5000x64_S5000x64_0_0
abbrev r2_b : Rect S64 := Rect.unit (s := S64) ![0] S64.size inb_S64_S64_0
abbrev r2_d : Rect S5000x1 := Rect.unit (s := S5000x1) ![0, 0] S5000x1.size inb_S5000x1_S5000x1_0_0
abbrev r2_w : Rect S64x64 := Rect.unit (s := S64x64) ![0, 0] S64x64.size inb_S64x64_S64x64_0_0

/-- The output's staging buffer after the body: its one store, over the payload of the five loaded blocks
    (neighbour sums `x0`, features `x1`, bias `x2`, inverse degrees `x3`, weights `x4`). -/
def out2_5 (x0 : Vec F S5000x64 .f32) (x1 : Vec F S5000x64 .bf16) (x2 : Vec F S64 .f32) (x3 : Vec F S5000x1 .f32) (x4 : Vec F S64x64 .f32) : Vec F S5000x64 .bf16 :=
  View.canon [⟨r2_m, k2_pay1 (View.ld x1 r2_m) (View.ld x0 r2_m) (View.ld x3 r2_d) (View.ld x2 r2_b) (View.ld x4 r2_w)⟩]

/-- The store covers the buffer. -/
theorem cover2_5 (p0 : Vec F S5000x64 .bf16) (y : S5000x64.Idx) :
    ∃ pc ∈ ([⟨r2_m, p0⟩] : List (View.Piece (Elt F) S5000x64 .bf16)), y ∈ pc.1.set :=
  View.cover_of_tiled [⟨r2_m, p0⟩] S5000x64.size (by rfl) y

set_option maxHeartbeats 1000000 in
/-- The body on whole staging memrefs, the inputs' at contents `x0 … x4` and the output's at anything, runs to the
    continuation holding the inputs' as they were and the output's at `out2_5 x0 x1 x2 x3 x4`. -/
theorem sound_kernel2 (c : Dev nD) (E : Set ℕ) (i : grid2.Coords) (arg1 : Memref sig .tc .vmem S5000x64 .f32) (harg1 : arg1.IsWhole)
    (arg2 : Memref sig .tc .vmem S5000x64 .bf16) (harg2 : arg2.IsWhole) (arg3 : Memref sig .tc .vmem S64 .f32) (harg3 : arg3.IsWhole)
    (arg4 : Memref sig .tc .vmem S5000x1 .f32) (harg4 : arg4.IsWhole) (arg5 : Memref sig .tc .vmem S64x64 .f32) (harg5 : arg5.IsWhole)
    (arg6 : Memref sig .tc .vmem S5000x64 .bf16) (harg6 : arg6.IsWhole)
    (x0 : Vec F S5000x64 .f32) (x1 : Vec F S5000x64 .bf16) (x2 : Vec F S64 .f32) (x3 : Vec F S5000x1 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__kernel i arg1 harg1 arg2 harg2 arg3 harg3 arg4 harg4 arg5 harg5 arg6 harg6) K := by
  simp only [cc2__kernel_eq_skeleton]; unfold cc2__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of pipeline 2 on core `c`: the arrays as the region finds them; after the body at point `t` each
    input's buffer at its block and the output's at `out2_5` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.R3Defs.lean ====
/-
  Region 3 (the last layer's combine, the mean pool and the row normalisation), the definitions. A scratch accumulator
  is zeroed at the first grid point; at every point the body adds to it the product of the transposed one-hot block of
  graph ids with the block's combined features (sum + feature · inverse degree + bias); at the last point it divides by
  the counts, normalises each row and stores the result. Stated at a parameter `V`, the buffer contents when the
  region is entered: each window's block at a point, the accumulator after each point (by recursion on the point), what
  the output's staging buffer holds after the last point, the invariant carried between points (the scratch at the
  accumulator once a point has run), and the pipeline's proof data.
-/
import proofs.«414150_j66202625901264_3_alg».proof.Proof.Gen.Kernel.Launch
import proofs.«414150_j66202625901264_3_alg».proof.Proof.Gen.Kernel.Skeleton
import proofs.«414150_j66202625901264_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- One point's update of the accumulator `a`: from the blocks of the neighbour sums `x0`, the features `x1`, the bias
    `x2`, the inverse degrees `x3` and the one-hot graph ids `x4`. -/
def step3 (x0 : Vec F S5000x64 .f32) (x1 : Vec F S5000x64 .bf16) (x2 : Vec F S64 .f32) (x3 : Vec F S5000x1 .f32)
    (x4 : Vec F S5000x64 .bf16) (a : Vec F S64x64 .f32) : Vec F S64x64 .f32 :=
  k3_pay2 x1 x0 x3 x2 x4 a

/-- The accumulator after point `n`: the first point starts from zero, every later one from what the point before left. -/
def acc3 (c : Dev nD) : (n : ℕ) → n < cfg3.N → Vec F S64x64 .f32
  | 0, h => step3 (iblk3 V c 0 ⟨0, h⟩) (iblk3 V c 1 ⟨0, h⟩) (iblk3 V c 2 ⟨0, h⟩) (iblk3 V c 3 ⟨0, h⟩) (iblk3 V c 4 ⟨0, h⟩) (k3_pay1 (F := F))
  | k + 1, h => step3 (iblk3 V c 0 ⟨k + 1, h⟩) (iblk3 V c 1 ⟨k + 1, h⟩) (iblk3 V c 2 ⟨k + 1, h⟩) (iblk3 V c 3 ⟨k + 1, h⟩) (iblk3 V c 4 ⟨k + 1, h⟩)
      (acc3 c k (Nat.lt_of_succ_lt h))

theorem acc3_zero (c : Dev nD) (h : 0 < cfg3.N) :
    acc3 V c 0 h = step3 (iblk3 V c 0 ⟨0, h⟩) (iblk3 V c 1 ⟨0, h⟩) (iblk3 V c 2 ⟨0, h⟩) (iblk3 V c 3 ⟨0, h⟩) (iblk3 V c 4 ⟨0, h⟩) (k3_pay1 (F := F)) := by
  rw [acc3]
theorem acc3_succ (c : Dev nD) (k : ℕ) (h : k + 1 < cfg3.N) :
    acc3 V c (k + 1) h = step3 (iblk3 V c 0 ⟨k + 1, h⟩) (iblk3 V c 1 ⟨k + 1, h⟩) (iblk3 V c 2 ⟨k + 1, h⟩) (iblk3 V c 3 ⟨k + 1, h⟩) (iblk3 V c 4 ⟨k + 1, h⟩)
      (acc3 V c k (Nat.lt_of_succ_lt h)) := by
  rw [acc3]

/-- What the last point stores: the accumulator `a` over the counts `x5`, each row normalised. -/
def out3_6 (a : Vec F S64x64 .f32) (x5 : Vec F S64x1 .f32) : Vec F S64x64 .f32 :=
  k3_pay3 a x5

/-- The kernel's scratch operand, whole. -/
abbrev scM3 : Memref sig .tc .vmem S64x64 .f32 := Memref.whole cc3_scratch0

/-- The invariant between points: before the first point the scoped rest (the scratch among it, at some contents) and the
    generator register; after point `k` the scratch at the accumulator after `k`, the scoped rest but the scratch, and
    the generator register. -/
def Φ3 (c : Dev nD) : Fin (cfg3.N + 1) → sProp 𝕄
  | ⟨0, _⟩ => Pipeline.ΦA spec3 c
  | ⟨k + 1, h⟩ => iprop(owns (c : Thread nD τ) scM3 fullShare (acc3 V c k (Nat.lt_of_succ_lt_succ h))
      ∗ Pipeline.scopedRestBut (Ix := Unit) (Name := ℕ) (U := UR sig nD τ) (Lvl := ℕ) (Val := Elt F) spec3 c [cc3_scratch0]
      ∗ ∃ r, prngReg c r)

/-- The proof data of pipeline 3 on core `c`: the arrays as the region finds them; after the body at point `t` each
    input's buffer at its block and the output's (consulted at the last point only: it is idle at the others) at
    `out3_6` of the accumulator after `t` and the counts; the invariant `Φ3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (acc3 V c t.val t.isLt) (iblk3 V c 5 t)
  Φ n := Φ3 V c n
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (acc3 V c t.val t.isLt) (iblk3 V c 5 t) := by dsimp only [dat3]

theorem Phi3_eq (c : Dev nD) (n : Fin (cfg3.N + 1)) : (dat3 V c).Φ n = Φ3 V c n := by dsimp only [dat3]

end Cert.Kernel.Hand

end
-- ==== Proof.KB.Fold.lean ====
/-
  The buffer contents at every boundary of the program's eight items (four stretches of host operations, each followed
  by a kernel region): a fold from the launch memory. A stretch leaves each buffer at its operations' composed function
  of what the stretch found; a region leaves its arrays at what its write-backs leave (the inputs as entered, the
  output's blocks folded in) and every other buffer as entered.
-/
import proofs.«414150_j66202625901264_3_alg».proof.Proof.KB.R0
import proofs.«414150_j66202625901264_3_alg».proof.Proof.KB.R1
import proofs.«414150_j66202625901264_3_alg».proof.Proof.KB.R2
import proofs.«414150_j66202625901264_3_alg».proof.Proof.KB.R3Defs
import proofs.«414150_j66202625901264_3_alg».proof.Proof.Gen.Kernel.Regions

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- Core `c`'s buffers at launch. -/
abbrev Cn0 : Dev nD → Valuation τ sig (Elt F) := fun c b => m (c, b)

/-- After `hostOps0`. -/
abbrev Cn1 : Dev nD → Valuation τ sig (Elt F) := fun c => StableHlo.after hostOps0 (Cn0 m c)
/-- The same read at the TensorCore's references (what the next region's proof data take). -/
abbrev En1 : (c : Dev nD) → (b : Ref sig .tc) → Buf (Elt F) ((c : Thread nD τ).loc b) := fun c b => Cn1 m c b

/-- At region 0's exit: its arrays at what the pipeline leaves (the inputs as entered, the output's write-backs
    folded), every other buffer as entered. -/
def Cn2 (c : Dev nD) : Valuation τ sig (Elt F) :=
  Pipeline.withArrays spec0 c (Cn1 m c) fun w => (dat0 (En1 m) c).arrAt w cfg0.N
theorem Cn2_arr (c : Dev nD) (w : Fin cfg0.W) :
    Cn2 m c (Proc.devRef .tc (Pipeline.arrRef spec0 w)) = (dat0 (En1 m) c).arrAt w cfg0.N := by
  unfold Cn2; exact Pipeline.withArrays_arr spec0 launch0.win.arr_inj c _ _ w
theorem Cn2_of_ne (c : Dev nD) (b : Ref sig .tc) (hb : ∀ w, Pipeline.arrRef spec0 w ≠ b) :
    Cn2 m c (Proc.devRef .tc b) = Cn1 m c (Proc.devRef .tc b) := by
  unfold Cn2; exact Pipeline.withArrays_of_ne spec0 c _ _ b hb
/-- The same read at the TensorCore's references. -/
abbrev Ex2 : (c : Dev nD) → (b : Ref sig .tc) → Buf (Elt F) ((c : Thread nD τ).loc b) := fun c b => Cn2 m c b
theorem hF0 (c : Dev nD) (w : Fin cfg0.W) : (dat0 (En1 m) c).arrAt w cfg0.N = Ex2 m c (Pipeline.arrRef spec0 w) :=
  (Cn2_arr m c w).symm
theorem hrest0 (c : Dev nD) : ∀ b, b ∉ Finset.univ.image (Pipeline.arrRef spec0) → Ex2 m c b = En1 m c b :=
  fun b hb => Cn2_of_ne m c b fun w e => hb (Finset.mem_image.mpr ⟨w, Finset.mem_univ _, e⟩)

/-- After `hostOps1`. -/
abbrev Cn3 : Dev nD → Valuation τ sig (Elt F) := fun c => StableHlo.after hostOps1 (Cn2 m c)
/-- The same read at the TensorCore's references (what the next region's proof data take). -/
abbrev En3 : (c : Dev nD) → (b : Ref sig .tc) → Buf (Elt F) ((c : Thread nD τ).loc b) := fun c b => Cn3 m c b

/-- At region 1's exit: its arrays at what the pipeline leaves (the inputs as entered, the output's write-backs
    folded), every other buffer as entered. -/
def Cn4 (c : Dev nD) : Valuation τ sig (Elt F) :=
  Pipeline.withArrays spec1 c (Cn3 m c) fun w => (dat1 (En3 m) c).arrAt w cfg1.N
theorem Cn4_arr (c : Dev nD) (w : Fin cfg1.W) :
    Cn4 m c (Proc.devRef .tc (Pipeline.arrRef spec1 w)) = (dat1 (En3 m) c).arrAt w cfg1.N := by
  unfold Cn4; exact Pipeline.withArrays_arr spec1 launch1.win.arr_inj c _ _ w
theorem Cn4_of_ne (c : Dev nD) (b : Ref sig .tc) (hb : ∀ w, Pipeline.arrRef spec1 w ≠ b) :
    Cn4 m c (Proc.devRef .tc b) = Cn3 m c (Proc.devRef .tc b) := by
  unfold Cn4; exact Pipeline.withArrays_of_ne spec1 c _ _ b hb
/-- The same read at the TensorCore's references. -/
abbrev Ex4 : (c : Dev nD) → (b : Ref sig .tc) → Buf (Elt F) ((c : Thread nD τ).loc b) := fun c b => Cn4 m c b
theorem hF1 (c : Dev nD) (w : Fin cfg1.W) : (dat1 (En3 m) c).arrAt w cfg1.N = Ex4 m c (Pipeline.arrRef spec1 w) :=
  (Cn4_arr m c w).symm
theorem hrest1 (c : Dev nD) : ∀ b, b ∉ Finset.univ.image (Pipeline.arrRef spec1) → Ex4 m c b = En3 m c b :=
  fun b hb => Cn4_of_ne m c b fun w e => hb (Finset.mem_image.mpr ⟨w, Finset.mem_univ _, e⟩)

/-- After `hostOps2`. -/
abbrev Cn5 : Dev nD → Valuation τ sig (Elt F) := fun c => StableHlo.after hostOps2 (Cn4 m c)
/-- The same read at the TensorCore's references (what the next region's proof data take). -/
abbrev En5 : (c : Dev nD) → (b : Ref sig .tc) → Buf (Elt F) ((c : Thread nD τ).loc b) := fun c b => Cn5 m c b

/-- At region 2's exit: its arrays at what the pipeline leaves (the inputs as entered, the output's write-backs
    folded), every other buffer as entered. -/
def Cn6 (c : Dev nD) : Valuation τ sig (Elt F) :=
  Pipeline.withArrays spec2 c (Cn5 m c) fun w => (dat2 (En5 m) c).arrAt w cfg2.N
theorem Cn6_arr (c : Dev nD) (w : Fin cfg2.W) :
    Cn6 m c (Proc.devRef .tc (Pipeline.arrRef spec2 w)) = (dat2 (En5 m) c).arrAt w cfg2.N := by
  unfold Cn6; exact Pipeline.withArrays_arr spec2 launch2.win.arr_inj c _ _ w
theorem Cn6_of_ne (c : Dev nD) (b : Ref sig .tc) (hb : ∀ w, Pipeline.arrRef spec2 w ≠ b) :
    Cn6 m c (Proc.devRef .tc b) = Cn5 m c (Proc.devRef .tc b) := by
  unfold Cn6; exact Pipeline.withArrays_of_ne spec2 c _ _ b hb
/-- The same read at the TensorCore's references. -/
abbrev Ex6 : (c : Dev nD) → (b : Ref sig .tc) → Buf (Elt F) ((c : Thread nD τ).loc b) := fun c b => Cn6 m c b
theorem hF2 (c : Dev nD) (w : Fin cfg2.W) : (dat2 (En5 m) c).arrAt w cfg2.N = Ex6 m c (Pipeline.arrRef spec2 w) :=
  (Cn6_arr m c w).symm
theorem hrest2 (c : Dev nD) : ∀ b, b ∉ Finset.univ.image (Pipeline.arrRef spec2) → Ex6 m c b = En5 m c b :=
  fun b hb => Cn6_of_ne m c b fun w e => hb (Finset.mem_image.mpr ⟨w, Finset.mem_univ _, e⟩)

/-- After `hostOps3`. -/
abbrev Cn7 : Dev nD → Valuation τ sig (Elt F) := fun c => StableHlo.after hostOps3 (Cn6 m c)
/-- The same read at the TensorCore's references (what the next region's proof data take). -/
abbrev En7 : (c : Dev nD) → (b : Ref sig .tc) → Buf (Elt F) ((c : Thread nD τ).loc b) := fun c b => Cn7 m c b

/-- At region 3's exit: its arrays at what the pipeline leaves (the inputs as entered, the output's write-backs
    folded), every other buffer as entered. -/
def Cn8 (c : Dev nD) : Valuation τ sig (Elt F) :=
  Pipeline.withArrays spec3 c (Cn7 m c) fun w => (dat3 (En7 m) c).arrAt w cfg3.N
theorem Cn8_arr (c : Dev nD) (w : Fin cfg3.W) :
    Cn8 m c (Proc.devRef .tc (Pipeline.arrRef spec3 w)) = (dat3 (En7 m) c).arrAt w cfg3.N := by
  unfold Cn8; exact Pipeline.withArrays_arr spec3 launch3.win.arr_inj c _ _ w
theorem Cn8_of_ne (c : Dev nD) (b : Ref sig .tc) (hb : ∀ w, Pipeline.arrRef spec3 w ≠ b) :
    Cn8 m c (Proc.devRef .tc b) = Cn7 m c (Proc.devRef .tc b) := by
  unfold Cn8; exact Pipeline.withArrays_of_ne spec3 c _ _ b hb
/-- The same read at the TensorCore's references. -/
abbrev Ex8 : (c : Dev nD) → (b : Ref sig .tc) → Buf (Elt F) ((c : Thread nD τ).loc b) := fun c b => Cn8 m c b
theorem hF3 (c : Dev nD) (w : Fin cfg3.W) : (dat3 (En7 m) c).arrAt w cfg3.N = Ex8 m c (Pipeline.arrRef spec3 w) :=
  (Cn8_arr m c w).symm
theorem hrest3 (c : Dev nD) : ∀ b, b ∉ Finset.univ.image (Pipeline.arrRef spec3) → Ex8 m c b = En7 m c b :=
  fun b hb => Cn8_of_ne m c b fun w e => hb (Finset.mem_image.mpr ⟨w, Finset.mem_univ _, e⟩)

/-! ## What each item leaves unchanged -/

/-- The stretch `hostOps0` leaves every buffer it does not write as it found it. -/
theorem En1_keep (c : Dev nD) (b : Ref sig .tc) (hb : b ∉ hostOps0_W) : En1 m c b = m ((c : Thread nD τ).loc b) :=
  StableHlo.after_of_writes_sub hostOps0 _ hostOps0_writes hb
/-- Region 0 changes no buffer but its output's array: an input window's array ends as entered, any other buffer is
    not the region's at all. -/
theorem Ex2_keep (c : Dev nD) (b : Ref sig .tc) (hb : b ≠ main_v38) : Ex2 m c b = En1 m c b := by
  by_cases h : b ∈ Finset.univ.image (Pipeline.arrRef spec0)
  · obtain ⟨w, -, rfl⟩ := Finset.mem_image.mp h
    rcases w with ⟨_ | _ | _ | n, hw⟩
    · exact (Cn2_arr m c ⟨0, hw⟩).trans (((dat0 (En1 m) c).arrAt_in ⟨0, hw⟩ rfl _).trans (A_eq0 (En1 m) c ⟨0, hw⟩))
    · exact (Cn2_arr m c ⟨1, hw⟩).trans (((dat0 (En1 m) c).arrAt_in ⟨1, hw⟩ rfl _).trans (A_eq0 (En1 m) c ⟨1, hw⟩))
    · exact absurd rfl hb
    · exact absurd hw (Nat.not_lt.2 (Nat.le_add_left _ _))
  · exact hrest0 m c b h
/-- The stretch `hostOps1` leaves every buffer it does not write as it found it. -/
theorem En3_keep (c : Dev nD) (b : Ref sig .tc) (hb : b ∉ hostOps1_W) : En3 m c b = Ex2 m c b :=
  StableHlo.after_of_writes_sub hostOps1 _ hostOps1_writes hb
/-- Region 1 changes no buffer but its output's array: an input window's array ends as entered, any other buffer is
    not the region's at all. -/
theorem Ex4_keep (c : Dev nD) (b : Ref sig .tc) (hb : b ≠ main_v53) : Ex4 m c b = En3 m c b := by
  by_cases h : b ∈ Finset.univ.image (Pipeline.arrRef spec1)
  · obtain ⟨w, -, rfl⟩ := Finset.mem_image.mp h
    rcases w with ⟨_ | _ | _ | _ | _ | _ | n, hw⟩
    · exact (Cn4_arr m c ⟨0, hw⟩).trans (((dat1 (En3 m) c).arrAt_in ⟨0, hw⟩ rfl _).trans (A_eq1 (En3 m) c ⟨0, hw⟩))
    · exact (Cn4_arr m c ⟨1, hw⟩).trans (((dat1 (En3 m) c).arrAt_in ⟨1, hw⟩ rfl _).trans (A_eq1 (En3 m) c ⟨1, hw⟩))
    · exact (Cn4_arr m c ⟨2, hw⟩).trans (((dat1 (En3 m) c).arrAt_in ⟨2, hw⟩ rfl _).trans (A_eq1 (En3 m) c ⟨2, hw⟩))
    · exact (Cn4_arr m c ⟨3, hw⟩).trans (((dat1 (En3 m) c).arrAt_in ⟨3, hw⟩ rfl _).trans (A_eq1 (En3 m) c ⟨3, hw⟩))
    · exact (Cn4_arr m c ⟨4, hw⟩).trans (((dat1 (En3 m) c).arrAt_in ⟨4, hw⟩ rfl _).trans (A_eq1 (En3 m) c ⟨4, hw⟩))
    · exact absurd rfl hb
    · exact absurd hw (Nat.not_lt.2 (Nat.le_add_left _ _))
  · exact hrest1 m c b h
/-- The stretch `hostOps2` leaves every buffer it does not write as it found it. -/
theorem En5_keep (c : Dev nD) (b : Ref sig .tc) (hb : b ∉ hostOps2_W) : En5 m c b = Ex4 m c b :=
  StableHlo.after_of_writes_sub hostOps2 _ hostOps2_writes hb
/-- Region 2 changes no buffer but its output's array: an input window's array ends as entered, any other buffer is
    not the region's at all. -/
theorem Ex6_keep (c : Dev nD) (b : Ref sig .tc) (hb : b ≠ main_v68) : Ex6 m c b = En5 m c b := by
  by_cases h : b ∈ Finset.univ.image (Pipeline.arrRef spec2)
  · obtain ⟨w, -, rfl⟩ := Finset.mem_image.mp h
    rcases w with ⟨_ | _ | _ | _ | _ | _ | n, hw⟩
    · exact (Cn6_arr m c ⟨0, hw⟩).trans (((dat2 (En5 m) c).arrAt_in ⟨0, hw⟩ rfl _).trans (A_eq2 (En5 m) c ⟨0, hw⟩))
    · exact (Cn6_arr m c ⟨1, hw⟩).trans (((dat2 (En5 m) c).arrAt_in ⟨1, hw⟩ rfl _).trans (A_eq2 (En5 m) c ⟨1, hw⟩))
    · exact (Cn6_arr m c ⟨2, hw⟩).trans (((dat2 (En5 m) c).arrAt_in ⟨2, hw⟩ rfl _).trans (A_eq2 (En5 m) c ⟨2, hw⟩))
    · exact (Cn6_arr m c ⟨3, hw⟩).trans (((dat2 (En5 m) c).arrAt_in ⟨3, hw⟩ rfl _).trans (A_eq2 (En5 m) c ⟨3, hw⟩))
    · exact (Cn6_arr m c ⟨4, hw⟩).trans (((dat2 (En5 m) c).arrAt_in ⟨4, hw⟩ rfl _).trans (A_eq2 (En5 m) c ⟨4, hw⟩))
    · exact absurd rfl hb
    · exact absurd hw (Nat.not_lt.2 (Nat.le_add_left _ _))
  · exact hrest2 m c b h
/-- The stretch `hostOps3` leaves every buffer it does not write as it found it. -/
theorem En7_keep (c : Dev nD) (b : Ref sig .tc) (hb : b ∉ hostOps3_W) : En7 m c b = Ex6 m c b :=
  StableHlo.after_of_writes_sub hostOps3 _ hostOps3_writes hb
set_option maxHeartbeats 2000000 in
/-- Region 3 changes no buffer but its output's array: an input window's array ends as entered, any other buffer is
    not the region's at all. -/
theorem Ex8_keep (c : Dev nD) (b : Ref sig .tc) (hb : b ≠ main_v95) : Ex8 m c b = En7 m c b := by
  by_cases h : b ∈ Finset.univ.image (Pipeline.arrRef spec3)
  · obtain ⟨w, -, rfl⟩ := Finset.mem_image.mp h
    rcases w with ⟨_ | _ | _ | _ | _ | _ | _ | n, hw⟩
    · exact (Cn8_arr m c ⟨0, hw⟩).trans (((dat3 (En7 m) c).arrAt_in ⟨0, hw⟩ rfl _).trans (A_eq3 (En7 m) c ⟨0, hw⟩))
    · exact (Cn8_arr m c ⟨1, hw⟩).trans (((dat3 (En7 m) c).arrAt_in ⟨1, hw⟩ rfl _).trans (A_eq3 (En7 m) c ⟨1, hw⟩))
    · exact (Cn8_arr m c ⟨2, hw⟩).trans (((dat3 (En7 m) c).arrAt_in ⟨2, hw⟩ rfl _).trans (A_eq3 (En7 m) c ⟨2, hw⟩))
    · exact (Cn8_arr m c ⟨3, hw⟩).trans (((dat3 (En7 m) c).arrAt_in ⟨3, hw⟩ rfl _).trans (A_eq3 (En7 m) c ⟨3, hw⟩))
    · exact (Cn8_arr m c ⟨4, hw⟩).trans (((dat3 (En7 m) c).arrAt_in ⟨4, hw⟩ rfl _).trans (A_eq3 (En7 m) c ⟨4, hw⟩))
    · exact (Cn8_arr m c ⟨5, hw⟩).trans (((dat3 (En7 m) c).arrAt_in ⟨5, hw⟩ rfl _).trans (A_eq3 (En7 m) c ⟨5, hw⟩))
    · exact absurd rfl hb
    · exact absurd hw (Nat.not_lt.2 (Nat.le_add_left _ _))
  · exact hrest3 m c b h

end Cert.Kernel.Hand

end
-- ==== Proof.KB.R3.lean ====
/-
  Region 3 (the last layer's combine, the mean pool and the row normalisation), the body. Over the definitions of
  KI/R3Defs.lean: the body's run in its three cases (the first grid point, which zeroes the scratch accumulator before
  adding to it; a middle point, which adds to what the point before left; the last point, which adds and then stores the
  normalised mean), the body's obligation at every point, and the invariant at the two ends of the region.
-/
import proofs.«414150_j66202625901264_3_alg».proof.Proof.KB.R3Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Before the first point the invariant is the scoped rest and the generator register. -/
theorem Phi3_zero (c : Dev nD) : (dat3 V c).Φ 0 = Pipeline.ΦA spec3 c := by
  rw [Phi3_eq]; rfl

/-- The last index of the invariant is one past the ninth point. -/
theorem last3_eq : Fin.last cfg3.N = ⟨9 + 1, by rw [show cfg3.N = grid3.N from rfl, N_3]; decide⟩ := Fin.ext N_3

/-- After the last point the invariant gives the scoped rest back (the scratch at contents no longer named) and the
    generator register. -/
theorem Phi3_last (c : Dev nD) : (dat3 V c).Φ (Fin.last cfg3.N) ⊢ (Pipeline.ΦA spec3 c : sProp 𝕄) := by
  rw [Phi3_eq, last3_eq, Φ3]
  unfold Pipeline.ΦA
  rw [scopedRest3_split]
  simp only [scM3, owns_whole]
  iintro ⟨Hs, Hr, Hp⟩
  isplitl [Hs Hr]
  · isplitl [Hs]
    · iexists _; iexact Hs
    iexact Hr
  iexact Hp

/-- The body's accesses: each is the whole buffer. -/
abbrev r3_m : Rect S5000x64 := Rect.unit (s := S5000x64) ![0, 0] S5000x64.size inb_S5000x64_S5000x64_0_0
abbrev r3_b : Rect S64 := Rect.unit (s := S64) ![0] S64.size inb_S64_S64_0
abbrev r3_d : Rect S5000x1 := Rect.unit (s := S5000x1) ![0, 0] S5000x1.size inb_S5000x1_S5000x1_0_0
abbrev r3_a : Rect S64x64 := Rect.unit (s := S64x64) ![0, 0] S64x64.size inb_S64x64_S64x64_0_0
abbrev r3_c : Rect S64x1 := Rect.unit (s := S64x1) ![0, 0] S64x1.size inb_S64x1_S64x1_0_0

/-- The first conditional's test (the point is the first), as the body computes it. -/
abbrev cond3_1 (i : grid3.Coords) : Prop :=
  Scalar.cmpi .ne (Scalar.extui (Scalar.cmpi .eq (BitVec.ofNat 32 (i 0).val) 0#32)) 0#32 = 1#1
/-- The second conditional's test (the point is the last). -/
abbrev cond3_2 (i : grid3.Coords) : Prop := k3_cond2 i = 1#1

/-- The zero offsets, however spelt. -/
theorem hz3_1 : (![0] : Fin 1 → Nat) = fun _ => 0 := funext fun a => by fin_cases a <;> rfl
theorem hz3_2 : (![0, 0] : Fin 2 → Nat) = fun _ => 0 := funext fun a => by fin_cases a <;> rfl

/-- A store of the whole accumulator, last, covers it. -/
theorem cover3_a (p : Vec F S64x64 .f32) (L : List (View.Piece (Elt F) S64x64 .f32)) (y : S64x64.Idx) :
    ∃ pc ∈ ((⟨r3_a, p⟩ : View.Piece (Elt F) S64x64 .f32) :: L), y ∈ pc.1.set :=
  ⟨⟨r3_a, p⟩, List.mem_cons.mpr (Or.inl rfl), View.mem_set_unit_zero hz3_2 inb_S64x64_S64x64_0_0 y⟩

set_option maxHeartbeats 1000000 in
/-- The body at the first point: the scratch, at anything, is zeroed, read back and left at one update from zero; the
    output's buffer and the counts' are not touched. -/
theorem sound_kernel3_A (c : Dev nD) (E : Set ℕ) (i : grid3.Coords) (hc1 : cond3_1 i) (hc2 : ¬ cond3_2 i)
    (arg1 : Memref sig .tc .vmem S5000x64 .f32) (harg1 : arg1.IsWhole)
    (arg2 : Memref sig .tc .vmem S5000x64 .bf16) (harg2 : arg2.IsWhole) (arg3 : Memref sig .tc .vmem S64 .f32) (harg3 : arg3.IsWhole)
    (arg4 : Memref sig .tc .vmem S5000x1 .f32) (harg4 : arg4.IsWhole) (arg5 : Memref sig .tc .vmem S5000x64 .bf16) (harg5 : arg5.IsWhole)
    (arg6 : Memref sig .tc .vmem S64x1 .f32) (harg6 : arg6.IsWhole) (arg7 : Memref sig .tc .vmem S64x64 .f32) (harg7 : arg7.IsWhole)
    (arg8 : Memref sig .tc .vmem S64x64 .f32) (harg8 : arg8.IsWhole)
    (x0 : Vec F S5000x64 .f32) (x1 : Vec F S5000x64 .bf16) (x2 : Vec F S64 .f32) (x3 : Vec F S5000x1 .f32) (x4 : Vec F S5000x64 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ a, owns (c : Thread nD τ) arg8 fullShare a)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg8 fullShare (step3 x0 x1 x2 x3 x4 (k3_pay1 (F := F)))) -∗ K ⟨⟩))
      ⊢ wp frame (wpE (defs₀ (F := F)) Variants.none c none) E
          (cc3__combine_pool_kernel i arg1 harg1 arg2 harg2 arg3 harg3 arg4 harg4 arg5 harg5 arg6 harg6 arg7 harg7 arg8 harg8) K := by
  simp only [cc3__combine_pool_kernel_eq_skeleton]; unfold cc3__combine_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%a8, %f8, -, H8⟩, Hk⟩
  subst hf0
  subst hf1
  subst hf2
  subst hf3
  subst hf4
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H8
  ipureintro
  sl_unfold_words
  rw [View.read_writes_eq_canon _ _ _ (cover3_a _ _)]
  rw [View.canon_cons_unit_zero (S := S64x64) hz3_2, View.readCov_unit_zero (S := S64x64) _ hz3_2]
  unfold step3
  simp only [View.readAt_eq_ld, View.ld_unit_zero (S := S5000x64) hz3_2, View.ld_unit_zero (S := S64) hz3_1,
    View.ld_unit_zero (S := S5000x1) hz3_2, View.ld_unit_zero (S := S64x1) hz3_2, View.ld_unit_zero (S := S64x64) hz3_2]

set_option maxHeartbeats 1000000 in
/-- The body at a middle point: the scratch at `a` is left at one update from `a`; the output's buffer and the
    counts' are not touched. -/
theorem sound_kernel3_B (c : Dev nD) (E : Set ℕ) (i : grid3.Coords) (hc1 : ¬ cond3_1 i) (hc2 : ¬ cond3_2 i)
    (arg1 : Memref sig .tc .vmem S5000x64 .f32) (harg1 : arg1.IsWhole)
    (arg2 : Memref sig .tc .vmem S5000x64 .bf16) (harg2 : arg2.IsWhole) (arg3 : Memref sig .tc .vmem S64 .f32) (harg3 : arg3.IsWhole)
    (arg4 : Memref sig .tc .vmem S5000x1 .f32) (harg4 : arg4.IsWhole) (arg5 : Memref sig .tc .vmem S5000x64 .bf16) (harg5 : arg5.IsWhole)
    (arg6 : Memref sig .tc .vmem S64x1 .f32) (harg6 : arg6.IsWhole) (arg7 : Memref sig .tc .vmem S64x64 .f32) (harg7 : arg7.IsWhole)
    (arg8 : Memref sig .tc .vmem S64x64 .f32) (harg8 : arg8.IsWhole)
    (x0 : Vec F S5000x64 .f32) (x1 : Vec F S5000x64 .bf16) (x2 : Vec F S64 .f32) (x3 : Vec F S5000x1 .f32) (x4 : Vec F S5000x64 .bf16) (a : Vec F S64x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg8 fullShare a
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg8 fullShare (step3 x0 x1 x2 x3 x4 a)) -∗ K ⟨⟩))
      ⊢ wp frame (wpE (defs₀ (F := F)) Variants.none c none) E
          (cc3__combine_pool_kernel i arg1 harg1 arg2 harg2 arg3 harg3 arg4 harg4 arg5 harg5 arg6 harg6 arg7 harg7 arg8 harg8) K := by
  simp only [cc3__combine_pool_kernel_eq_skeleton]; unfold cc3__combine_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f8, %hf8, H8⟩, Hk⟩
  subst hf0
  subst hf1
  subst hf2
  subst hf3
  subst hf4
  subst hf8
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H8
  ipureintro
  sl_unfold_words
  rw [View.read_writes_eq_canon _ _ _ (cover3_a _ _)]
  rw [View.canon_cons_unit_zero (S := S64x64) hz3_2]
  unfold step3
  simp only [View.readAt_eq_ld, View.ld_unit_zero (S := S5000x64) hz3_2, View.ld_unit_zero (S := S64) hz3_1,
    View.ld_unit_zero (S := S5000x1) hz3_2, View.ld_unit_zero (S := S64x1) hz3_2, View.ld_unit_zero (S := S64x64) hz3_2]

set_option maxHeartbeats 1000000 in
/-- The body at the last point: the scratch at `a` is left at one update from `a`, and the output's buffer, at
    anything, at that accumulator over the counts `x5`, normalised. -/
theorem sound_kernel3_C (c : Dev nD) (E : Set ℕ) (i : grid3.Coords) (hc1 : ¬ cond3_1 i) (hc2 : cond3_2 i)
    (arg1 : Memref sig .tc .vmem S5000x64 .f32) (harg1 : arg1.IsWhole)
    (arg2 : Memref sig .tc .vmem S5000x64 .bf16) (harg2 : arg2.IsWhole) (arg3 : Memref sig .tc .vmem S64 .f32) (harg3 : arg3.IsWhole)
    (arg4 : Memref sig .tc .vmem S5000x1 .f32) (harg4 : arg4.IsWhole) (arg5 : Memref sig .tc .vmem S5000x64 .bf16) (harg5 : arg5.IsWhole)
    (arg6 : Memref sig .tc .vmem S64x1 .f32) (harg6 : arg6.IsWhole) (arg7 : Memref sig .tc .vmem S64x64 .f32) (harg7 : arg7.IsWhole)
    (arg8 : Memref sig .tc .vmem S64x64 .f32) (harg8 : arg8.IsWhole)
    (x0 : Vec F S5000x64 .f32) (x1 : Vec F S5000x64 .bf16) (x2 : Vec F S64 .f32) (x3 : Vec F S5000x1 .f32) (x4 : Vec F S5000x64 .bf16) (x5 : Vec F S64x1 .f32) (a : Vec F S64x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5 ∗ (∃ d, owns (c : Thread nD τ) arg7 fullShare d)
        ∗ owns (c : Thread nD τ) arg8 fullShare a
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (out3_6 (step3 x0 x1 x2 x3 x4 a) x5)
            ∗ owns (c : Thread nD τ) arg8 fullShare (step3 x0 x1 x2 x3 x4 a)) -∗ K ⟨⟩))
      ⊢ wp frame (wpE (defs₀ (F := F)) Variants.none c none) E
          (cc3__combine_pool_kernel i arg1 harg1 arg2 harg2 arg3 harg3 arg4 harg4 arg5 harg5 arg6 harg6 arg7 harg7 arg8 harg8) K := by
  simp only [cc3__combine_pool_kernel_eq_skeleton]; unfold cc3__combine_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%f8, %hf8, H8⟩, Hk⟩
  subst hf0
  subst hf1
  subst hf2
  subst hf3
  subst hf4
  subst hf5
  subst hf8
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr
    swap; · iexact H7
    ipureintro
    sl_unfold_words
    rw [View.read_writes_eq_canon _ _ _ (cover3_a _ _)]
    rw [View.canon_cons_unit_zero (S := S64x64) hz3_2, View.readCov_unit_zero (S := S64x64) _ hz3_2]
    unfold out3_6 step3
    simp only [View.readAt_eq_ld, View.ld_unit_zero (S := S5000x64) hz3_2, View.ld_unit_zero (S := S64) hz3_1,
    View.ld_unit_zero (S := S5000x1) hz3_2, View.ld_unit_zero (S := S64x1) hz3_2, View.ld_unit_zero (S := S64x64) hz3_2]
  iexists _; isplitr
  swap; · iexact H8
  ipureintro
  sl_unfold_words
  rw [View.read_writes_eq_canon _ _ _ (cover3_a _ _)]
  rw [View.canon_cons_unit_zero (S := S64x64) hz3_2]
  unfold step3
  simp only [View.readAt_eq_ld, View.ld_unit_zero (S := S5000x64) hz3_2, View.ld_unit_zero (S := S64) hz3_1,
    View.ld_unit_zero (S := S5000x1) hz3_2, View.ld_unit_zero (S := S64x1) hz3_2, View.ld_unit_zero (S := S64x64) hz3_2]

/-- The two tests decided over the grid: the first holds at the first point only, the second at the last only. -/
theorem hcond3_1 : ∀ t : Fin cfg3.N, cond3_1 (grid3.coords t) ↔ t.val = 0 :=
  (by decide +kernel : ∀ t : Fin grid3.N, cond3_1 (grid3.coords t) ↔ t.val = 0)
theorem hcond3_2 : ∀ t : Fin cfg3.N, cond3_2 (grid3.coords t) ↔ t.val = 9 :=
  (by decide +kernel : ∀ t : Fin grid3.N, cond3_2 (grid3.coords t) ↔ t.val = 9)

/-- The output window is idle exactly off the last point, and not written back there. -/
theorem idle3_6 : ∀ t : Fin cfg3.N, cfg3.idle 6 (cfg3.grid.coords t) = true ↔ t.val ≠ 9 :=
  (by decide +kernel : ∀ t : Fin grid3.N, idle3 6 (grid3.coords t) = true ↔ t.val ≠ 9)
theorem idle3_6_true (t : Fin cfg3.N) (h : t.val ≠ 9) : cfg3.idle 6 (cfg3.grid.coords t) = true := (idle3_6 t).mpr h
theorem idle3_6_false (t : Fin cfg3.N) (h : t.val = 9) : cfg3.idle 6 (cfg3.grid.coords t) = false :=
  Bool.eq_false_iff.mpr fun h' => (idle3_6 t).mp h' h
theorem flush3_6_false (t : Fin cfg3.N) (h : t.val ≠ 9) : (cfg3.win 6).flush t = false :=
  Bool.eq_false_iff.mpr fun h' => h (by have h1 := (flush3_6 t).mp h'; have h2 := t.isLt; have h3 : cfg3.N = 10 := N_3; omega)

/-- An input window's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)

/-- The scoped rest but the scratch, and the generator register: what every point passes through unread. -/
abbrev rest3 (c : Dev nD) : sProp 𝕄 :=
  iprop(Pipeline.scopedRestBut (Ix := Unit) (Name := ℕ) (U := UR sig nD τ) (Lvl := ℕ) (Val := Elt F) spec3 c [cc3_scratch0] ∗ ∃ r, prngReg c r)

/-- The invariant before the first point, with the scratch split out of the scoped rest, at some contents. -/
theorem Phi3_first (c : Dev nD) (t : Fin cfg3.N) (h : t.val = 0) :
    (dat3 V c).Φ t.castSucc
      = iprop(((∃ a, owns (c : Thread nD τ) scM3 fullShare a)
          ∗ Pipeline.scopedRestBut (Ix := Unit) (Name := ℕ) (U := UR sig nD τ) (Lvl := ℕ) (Val := Elt F) spec3 c [cc3_scratch0]) ∗ ∃ r, prngReg c r) := by
  obtain ⟨n, hn⟩ := t
  dsimp only at h; subst h
  rw [Phi3_eq, show Φ3 V c (Fin.castSucc ⟨0, hn⟩) = Pipeline.ΦA spec3 c from rfl]
  unfold Pipeline.ΦA
  rw [scopedRest3_split]
  simp only [scM3, owns_whole]
  rfl

/-- The invariant after a point: the scratch at the accumulator after it. -/
theorem Phi3_succ (c : Dev nD) (t : Fin cfg3.N) :
    (dat3 V c).Φ t.succ = iprop(owns (c : Thread nD τ) scM3 fullShare (acc3 V c t.val t.isLt) ∗ rest3 c) := by
  obtain ⟨n, hn⟩ := t
  rw [Phi3_eq]; rfl

/-- The invariant before a later point: the scratch at the accumulator after the point before. -/
theorem Phi3_later (c : Dev nD) (t : Fin cfg3.N) (k : ℕ) (h : t.val = k + 1) :
    (dat3 V c).Φ t.castSucc
      = iprop(owns (c : Thread nD τ) scM3 fullShare (acc3 V c k (by have := t.isLt; omega)) ∗ rest3 c) := by
  obtain ⟨n, hn⟩ := t
  dsimp only at h; subst h
  rw [Phi3_eq]; rfl

/-- The accumulator after a point, by the point's own blocks. -/
theorem acc3_first (c : Dev nD) (t : Fin cfg3.N) (h : t.val = 0) :
    acc3 V c t.val t.isLt = step3 (iblk3 V c 0 t) (iblk3 V c 1 t) (iblk3 V c 2 t) (iblk3 V c 3 t) (iblk3 V c 4 t) (k3_pay1 (F := F)) := by
  obtain ⟨n, hn⟩ := t
  dsimp only at h; subst h
  exact acc3_zero V c hn
theorem acc3_later (c : Dev nD) (t : Fin cfg3.N) (k : ℕ) (h : t.val = k + 1) :
    acc3 V c t.val t.isLt = step3 (iblk3 V c 0 t) (iblk3 V c 1 t) (iblk3 V c 2 t) (iblk3 V c 3 t) (iblk3 V c 4 t)
      (acc3 V c k (by have := t.isLt; omega)) := by
  obtain ⟨n, hn⟩ := t
  dsimp only at h; subst h
  exact acc3_succ V c k hn

/-- The output's buffer after the body at the last point. -/
theorem leaves3_6_last (c : Dev nD) (t : Fin cfg3.N) (h : t.val = 9) :
    ((dat3 V c).leavesExact 6 t : sProp 𝕄) = owns (c : Thread nD τ) (st3_6 t) fullShare ((dat3 V c).after 6 t) := by
  unfold Dat.leavesExact; rw [idle3_6_false t h]

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns: the output's buffer as found off the last point, at the stored result at the last. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ (dat3 V c).leavesExact 6 t)

/-- The body at the first point. -/
theorem sound_body3_A (c : Dev nD) (t : Fin cfg3.N) (h0 : t.val = 0) :
    bodyPre3 V c t ⊢ wp frame (wpE (defs₀ (F := F)) Variants.none c none) Set.univ (bodyAt3 t) (fun _ => bodyPost3 V c t) := by
  have h9 : t.val ≠ 9 := by omega
  unfold bodyPre3 bodyPost3 bodyAt3
  simp only [before3_0, before3_1, before3_2, before3_3, before3_4, before3_5]
  rw [Phi3_first V c t h0, Phi3_succ, acc3_first V c t h0,
    show (dat3 V c).owesAt () t.succ = (dat3 V c).owesAt () t.castSucc from rfl,
    after3_0, after3_1, after3_2, after3_3, after3_4, after3_5, (dat3 V c).leavesExact_idle 6 t (idle3_6_true t h9) (flush3_6_false t h9)]
  iintro ⟨⟨⟨HS, HR⟩, Hg⟩, Ho, ⟨%d0, H0⟩, ⟨%d1, H1⟩, ⟨%d2, H2⟩, ⟨%d3, H3⟩, ⟨%d4, H4⟩, ⟨%d5, H5⟩, H6⟩
  iapply (sound_kernel3_A c Set.univ (grid3.coords t) ((hcond3_1 t).mpr h0) (fun hc => h9 ((hcond3_2 t).mp hc))
    _ _ _ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS HR Hg]
  · isplitl [HS]; · iexact HS
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at a middle point. -/
theorem sound_body3_B (c : Dev nD) (t : Fin cfg3.N) (h0 : t.val ≠ 0) (h9 : t.val ≠ 9) :
    bodyPre3 V c t ⊢ wp frame (wpE (defs₀ (F := F)) Variants.none c none) Set.univ (bodyAt3 t) (fun _ => bodyPost3 V c t) := by
  obtain ⟨k, hk⟩ : ∃ k, t.val = k + 1 := ⟨t.val - 1, by omega⟩
  unfold bodyPre3 bodyPost3 bodyAt3
  simp only [before3_0, before3_1, before3_2, before3_3, before3_4, before3_5]
  rw [Phi3_later V c t k hk, Phi3_succ, acc3_later V c t k hk,
    show (dat3 V c).owesAt () t.succ = (dat3 V c).owesAt () t.castSucc from rfl,
    after3_0, after3_1, after3_2, after3_3, after3_4, after3_5, (dat3 V c).leavesExact_idle 6 t (idle3_6_true t h9) (flush3_6_false t h9)]
  iintro ⟨⟨HS, HR⟩, Ho, ⟨%d0, H0⟩, ⟨%d1, H1⟩, ⟨%d2, H2⟩, ⟨%d3, H3⟩, ⟨%d4, H4⟩, ⟨%d5, H5⟩, H6⟩
  iapply (sound_kernel3_B c Set.univ (grid3.coords t) (fun hc => h0 ((hcond3_1 t).mp hc)) (fun hc => h9 ((hcond3_2 t).mp hc))
    _ _ _ _ _ _ _ _ _ _ _ _ _ _ _ _ (iblk3 V c 0 t) (iblk3 V c 1 t) (iblk3 V c 2 t) (iblk3 V c 3 t) (iblk3 V c 4 t) _ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS HR]
  · isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at the last point. -/
theorem sound_body3_C (c : Dev nD) (t : Fin cfg3.N) (h9 : t.val = 9) :
    bodyPre3 V c t ⊢ wp frame (wpE (defs₀ (F := F)) Variants.none c none) Set.univ (bodyAt3 t) (fun _ => bodyPost3 V c t) := by
  have h0 : t.val ≠ 0 := by omega
  have hk : t.val = 8 + 1 := h9
  unfold bodyPre3 bodyPost3 bodyAt3
  simp only [before3_0, before3_1, before3_2, before3_3, before3_4, before3_5]
  rw [Phi3_later V c t 8 hk, Phi3_succ, leaves3_6_last V c t h9,
    show (dat3 V c).owesAt () t.succ = (dat3 V c).owesAt () t.castSucc from rfl,
    after3_0, after3_1, after3_2, after3_3, after3_4, after3_5, after3_6, acc3_later V c t 8 hk]
  iintro ⟨⟨HS, HR⟩, Ho, ⟨%d0, H0⟩, ⟨%d1, H1⟩, ⟨%d2, H2⟩, ⟨%d3, H3⟩, ⟨%d4, H4⟩, ⟨%d5, H5⟩, ⟨%d6, H6⟩⟩
  iapply (sound_kernel3_C c Set.univ (grid3.coords t) (fun hc => h0 ((hcond3_1 t).mp hc)) ((hcond3_2 t).mpr h9)
    _ _ _ _ _ _ _ _ _ _ _ _ _ _ _ _ (iblk3 V c 0 t) (iblk3 V c 1 t) (iblk3 V c 2 t) (iblk3 V c 3 t) (iblk3 V c 4 t) (iblk3 V c 5 t) _ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  iintro ⟨H0, H1, H2, H3, H4, H5, H6, HS⟩
  isplitl [HS HR]
  · isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point: by the point's place on the grid. -/
theorem sound_body3 (c : Dev nD) (t : Fin cfg3.N) :
    bodyPre3 V c t ⊢ wp frame (wpE (defs₀ (F := F)) Variants.none c none) Set.univ (bodyAt3 t) (fun _ => bodyPost3 V c t) := by
  by_cases h0 : t.val = 0
  · exact sound_body3_A V c t h0
  by_cases h9 : t.val = 9
  · exact sound_body3_C V c t h9
  exact sound_body3_B V c t h0 h9

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Run.lean ====
/-
  The run of the whole program: its eight items (four stretches of host operations, each followed by a kernel region)
  as the segments of the several-regions launch, over the buffer contents KI/Fold.lean names at every boundary. Between
  two items a core holds every unscoped buffer whole at the boundary's contents, its generator register at some state,
  and owes nothing. A region splits its windows' arrays out of those buffers, runs its pipeline under the body's
  obligation, and puts the arrays back at what the write-backs leave. Exported: every unscoped buffer's final contents
  (`run_all`), the result's and the arguments' (`run_result`), and the arguments' alone (`frame`).
-/
import proofs.«414150_j66202625901264_3_alg».proof.Proof.KB.Fold
import proofs.«414150_j66202625901264_3_alg».proof.Proof.KB.R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (En1 m) c
  | ⟨1, _⟩ => fun c => dat1 (En3 m) c
  | ⟨2, _⟩ => fun c => dat2 (En5 m) c
  | ⟨3, _⟩ => fun c => dat3 (En7 m) c
abbrev 𝒱r : Variants := Variants.none
/-- No core owes another anything: no level is assigned. -/
abbrev Lr : GSem nD τ sig → Finset Unit := fun _ => ∅
abbrev lvr : GSem nD τ sig → Unit → ℕ := fun _ _ => 0
/-- What rides beside the buffers through every item: the core's generator register at some state and its dues, none. -/
abbrev Rr (c : Dev nD) : sProp 𝕄 := iprop((∃ r, prngReg c r) ∗ ∃ W, owes (c : Thread nD τ) (0 : CellTallies nD τ sig Unit) W)
/-- A stretch of host operations as a segment: from the unscoped buffers at `W` to them at the operations' composed
    function of `W`. -/
abbrev hsegr (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱r Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tn (c : Dev nD) : sProp 𝕄 := iprop(StableHlo.held (c : Thread nD τ) (Pipeline.ucRefs τ sig) (Cn8 m c) ∗ ∃ r, prngReg c r)

/-! ## The regions as segments -/

set_option backward.isDefEq.respectTransparency.types false in
/-- Region 0 over the thread state: entered from every unscoped buffer at the contents after the stretch before it,
    left at those with its output's array at what its write-backs leave. Its arrays are split out of the unscoped
    buffers at entry and put back at exit; the generator register goes into the invariant and comes back; nothing is
    owed; the kernel has no semaphore of its own. -/
def reg0 : Pipeline.RegionSeg (pcfgs (F := F)) adm (pdats m) () defs₀ 𝒱r Lr lvr 0 where
  win := launch0.win.to₀
  block_pos := launch0.block_pos
  stage_whole := launch0.stage_whole
  K := PEmpty
  osem k := k.elim
  ho := Pipeline.OwnSemFacts.none _
  hbody c := (body_obligation0 (En1 m) c).loose
  hwaits := Pipeline.hwaits_of_owed_zero _ _ _ _ Lr lvr 0 fun _ _ => rfl
  pre c := iprop(StableHlo.held (c : Thread nD τ) (Pipeline.ucRefs τ sig) (Cn1 m c) ∗ Rr c)
  post c := iprop(StableHlo.held (c : Thread nD τ) (Pipeline.ucRefs τ sig) (Cn2 m c) ∗ Rr c)
  X c := iprop(∃ r, prngReg c r)
  Y c := iprop(∃ r, prngReg c r)
  Z c := Pipeline.unscopedRest (Ix := Unit) (Name := ℕ) (U := UR sig nD τ) (Lvl := ℕ) spec0 c (En1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En1 m c) (Ex2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents after the stretch before it,
    left at those with its output's array at what its write-backs leave. Its arrays are split out of the unscoped
    buffers at entry and put back at exit; the generator register goes into the invariant and comes back; nothing is
    owed; the kernel has no semaphore of its own. -/
def reg1 : Pipeline.RegionSeg (pcfgs (F := F)) adm (pdats m) () defs₀ 𝒱r Lr lvr 1 where
  win := launch1.win.to₀
  block_pos := launch1.block_pos
  stage_whole := launch1.stage_whole
  K := PEmpty
  osem k := k.elim
  ho := Pipeline.OwnSemFacts.none _
  hbody c := (body_obligation1 (En3 m) c).loose
  hwaits := Pipeline.hwaits_of_owed_zero _ _ _ _ Lr lvr 1 fun _ _ => rfl
  pre c := iprop(StableHlo.held (c : Thread nD τ) (Pipeline.ucRefs τ sig) (Cn3 m c) ∗ Rr c)
  post c := iprop(StableHlo.held (c : Thread nD τ) (Pipeline.ucRefs τ sig) (Cn4 m c) ∗ Rr c)
  X c := iprop(∃ r, prngReg c r)
  Y c := iprop(∃ r, prngReg c r)
  Z c := Pipeline.unscopedRest (Ix := Unit) (Name := ℕ) (U := UR sig nD τ) (Lvl := ℕ) spec1 c (En3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (En3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En3 m c) (Ex4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents after the stretch before it,
    left at those with its output's array at what its write-backs leave. Its arrays are split out of the unscoped
    buffers at entry and put back at exit; the generator register goes into the invariant and comes back; nothing is
    owed; the kernel has no semaphore of its own. -/
def reg2 : Pipeline.RegionSeg (pcfgs (F := F)) adm (pdats m) () defs₀ 𝒱r Lr lvr 2 where
  win := launch2.win.to₀
  block_pos := launch2.block_pos
  stage_whole := launch2.stage_whole
  K := PEmpty
  osem k := k.elim
  ho := Pipeline.OwnSemFacts.none _
  hbody c := (body_obligation2 (En5 m) c).loose
  hwaits := Pipeline.hwaits_of_owed_zero _ _ _ _ Lr lvr 2 fun _ _ => rfl
  pre c := iprop(StableHlo.held (c : Thread nD τ) (Pipeline.ucRefs τ sig) (Cn5 m c) ∗ Rr c)
  post c := iprop(StableHlo.held (c : Thread nD τ) (Pipeline.ucRefs τ sig) (Cn6 m c) ∗ Rr c)
  X c := iprop(∃ r, prngReg c r)
  Y c := iprop(∃ r, prngReg c r)
  Z c := Pipeline.unscopedRest (Ix := Unit) (Name := ℕ) (U := UR sig nD τ) (Lvl := ℕ) spec2 c (En5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (En5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (En5 m c) (Ex6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents after the stretch before it,
    left at those with its output's array at what its write-backs leave. Its arrays are split out of the unscoped
    buffers at entry and put back at exit; the generator register goes into the invariant and comes back; nothing is
    owed; the kernel has no semaphore of its own. -/
def reg3 : Pipeline.RegionSeg (pcfgs (F := F)) adm (pdats m) () defs₀ 𝒱r Lr lvr 3 where
  win := launch3.win.to₀
  block_pos := launch3.block_pos
  stage_whole := launch3.stage_whole
  K := PEmpty
  osem k := k.elim
  ho := Pipeline.OwnSemFacts.none _
  hbody c := (body_obligation3 (En7 m) c).loose
  hwaits := Pipeline.hwaits_of_owed_zero _ _ _ _ Lr lvr 3 fun _ _ => rfl
  pre c := iprop(StableHlo.held (c : Thread nD τ) (Pipeline.ucRefs τ sig) (Cn7 m c) ∗ Rr c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (En7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (En7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from Phi3_zero (En7 m) c]; unfold Pipeline.ΦA
    iintro ⟨Hp, -, Hr⟩
    isplitl [Hr]; · iexact Hr
    iexact Hp
  hout c := by
    rw [Pipeline.ownSems0_none]
    refine (Phi3_last (En7 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (En7 m c) (Ex8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's eight segments in order. -/
abbrev segsr : List (Pipeline.Seg (pcfgs (F := F)) adm (pdats m) () defs₀ 𝒱r Lr lvr) :=
  [ .host (hsegr hostOps0 hostOps0_sub hostOps0_fresh (Cn0 m)),
    .region (reg0 m),
    .host (hsegr hostOps1 hostOps1_sub hostOps1_fresh (Cn2 m)),
    .region (reg1 m),
    .host (hsegr hostOps2 hostOps2_sub hostOps2_fresh (Cn4 m)),
    .region (reg2 m),
    .host (hsegr hostOps3 hostOps3_sub hostOps3_fresh (Cn6 m)),
    .region (reg3 m) ]

set_option backward.isDefEq.respectTransparency.types false in
/-- Every weakly fair execution of the program from memory `m` with zero counters terminates, and every final memory
    holds each unscoped buffer at the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = Cn8 m c b) :=
  Pipeline.θ_run_regions_kit (pcfgs (F := F)) adm (pdats m) () cellOf_inj emb₁ defs₀ 𝒱r Lr lvr m ρ main (segsr m)
    (fun c Q => by
      rewrite [main_chain c, Pipeline.Seg.run_eq_chain,
        show (segsr m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segsr, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Cn0 m c) ∗ Rr c)) (Tₙ := Tn m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach Lr lvr fun c => ?_
      rw [show unscopedBufs c (fun b => m ((c : Thread nD τ).loc b)) = StableHlo.held (c : Thread nD τ) (Pipeline.ucRefs τ sig) (Cn0 m c)
        from Pipeline.unscopedBufs_held c (Cn0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Cn8 m c b)
    (hfin := fun c s' => by
      iintro ⟨⟨Hh, -⟩, HSI⟩
      unfold StableHlo.held
      imodintro
      iapply (pointsTo_read_all (Pipeline.ucRefs τ sig) (fun b => (((c : Thread nD τ)).1, b)) (Cn8 m c) s')
      isplitl [Hh] <;> iassumption)
    (hQ := fun s h c => h c)

/-! ## What the claims read off the run -/

/-- A buffer no stretch writes and no region's output window stages reaches the end as launched. -/
theorem Cn8_arg (c : Dev nD) (b : Ref sig .tc) (h0 : b ∉ hostOps0_W) (h1 : b ∉ hostOps1_W) (h2 : b ∉ hostOps2_W) (h3 : b ∉ hostOps3_W)
    (n0 : b ≠ main_v38) (n1 : b ≠ main_v53) (n2 : b ≠ main_v68) (n3 : b ≠ main_v95) :
    Cn8 m c (Proc.devRef .tc b) = m ((c : Thread nD τ).loc b) :=
  (Ex8_keep m c b n3).trans <| (En7_keep m c b h3).trans <| (Ex6_keep m c b n2).trans <| (En5_keep m c b h2).trans <|
    (Ex4_keep m c b n1).trans <| (En3_keep m c b h1).trans <| (Ex2_keep m c b n0).trans (En1_keep m c b h0)

/-- The run with the result named: the last region's output array ends at what its write-backs leave, and every
    argument array as launched. -/
theorem run_result : θ_run defs (onTc (τ := τ) (main (F := F))) ⟨m, fun _ => 0, ρ⟩ (fun r => ∀ c : Dev nD,
      r.2.mem ((c.tc : Thread nD τ).loc main_v95) = Ex8 m c main_v95
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v95 (by decide)),
     (h c _ (mem_uc main_arg0 (by decide))).trans (Cn8_arg m c main_arg0 (by decide) (by decide) (by decide) (by decide) (by decide) (by decide) (by decide) (by decide)),
     (h c _ (mem_uc main_arg1 (by decide))).trans (Cn8_arg m c main_arg1 (by decide) (by decide) (by decide) (by decide) (by decide) (by decide) (by decide) (by decide)),
     (h c _ (mem_uc main_arg2 (by decide))).trans (Cn8_arg m c main_arg2 (by decide) (by decide) (by decide) (by decide) (by decide) (by decide) (by decide) (by decide)),
     (h c _ (mem_uc main_arg3 (by decide))).trans (Cn8_arg m c main_arg3 (by decide) (by decide) (by decide) (by decide) (by decide) (by decide) (by decide) (by decide)),
     (h c _ (mem_uc main_arg4 (by decide))).trans (Cn8_arg m c main_arg4 (by decide) (by decide) (by decide) (by decide) (by decide) (by decide) (by decide) (by decide)),
     (h c _ (mem_uc main_arg5 (by decide))).trans (Cn8_arg m c main_arg5 (by decide) (by decide) (by decide) (by decide) (by decide) (by decide) (by decide) (by decide)),
     (h c _ (mem_uc main_arg6 (by decide))).trans (Cn8_arg m c main_arg6 (by decide) (by decide) (by decide) (by decide) (by decide) (by decide) (by decide) (by decide)),
     (h c _ (mem_uc main_arg7 (by decide))).trans (Cn8_arg m c main_arg7 (by decide) (by decide) (by decide) (by decide) (by decide) (by decide) (by decide) (by decide)),
     (h c _ (mem_uc main_arg8 (by decide))).trans (Cn8_arg m c main_arg8 (by decide) (by decide) (by decide) (by decide) (by decide) (by decide) (by decide) (by decide)),
     (h c _ (mem_uc main_arg9 (by decide))).trans (Cn8_arg m c main_arg9 (by decide) (by decide) (by decide) (by decide) (by decide) (by decide) (by decide) (by decide)),
     (h c _ (mem_uc main_arg10 (by decide))).trans (Cn8_arg m c main_arg10 (by decide) (by decide) (by decide) (by decide) (by decide) (by decide) (by decide) (by decide))⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_result m ρ)

end Cert.Kernel.Hand

end
-- ==== Proof.KI.R0.lean ====
/-
  Region 0 (the one-hot projection): at every grid point the body reads a block of 5000 one-hot rows and the whole
  30 × 64 table and stores their product. Stated at a parameter `V`, the buffer contents when the region is entered:
  what each window's block is at a point, what the body leaves in the output's staging buffer (its one store over the
  payload of the two loaded blocks), the pipeline's proof data, and the body's obligation at every point.
-/
import proofs.«414150_j66202625901264_3_alg».proof.Proof.Gen.KernelIdeal.Launch
import proofs.«414150_j66202625901264_3_alg».proof.Proof.Gen.KernelIdeal.Skeleton
import proofs.«414150_j66202625901264_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each is the whole staging buffer. -/
abbrev r0_0 : Rect S5000x30 := Rect.unit (s := S5000x30) ![0, 0] S5000x30.size inb_S5000x30_S5000x30_0_0
abbrev r0_1 : Rect S30x64 := Rect.unit (s := S30x64) ![0, 0] S30x64.size inb_S30x64_S30x64_0_0
abbrev r0_2 : Rect S5000x64 := Rect.unit (s := S5000x64) ![0, 0] S5000x64.size inb_S5000x64_S5000x64_0_0

/-- The output's staging buffer after the body: its one store, over the payload of the two loaded blocks. -/
def out0_2 (x0 : Vec F S5000x30 .bf16) (x1 : Vec F S30x64 .f32) : Vec F S5000x64 .bf16 :=
  View.canon [⟨r0_2, k0_pay1 (View.ld x0 r0_0) (View.ld x1 r0_1)⟩]

/-- The store covers the buffer. -/
theorem cover0_2 (p0 : Vec F S5000x64 .bf16) (y : S5000x64.Idx) :
    ∃ pc ∈ ([⟨r0_2, p0⟩] : List (View.Piece (Elt F) S5000x64 .bf16)), y ∈ pc.1.set :=
  View.cover_of_tiled [⟨r0_2, p0⟩] S5000x64.size (by rfl) y

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords) (arg1 : Memref sig .tc .vmem S5000x30 .bf16) (harg1 : arg1.IsWhole)
    (arg2 : Memref sig .tc .vmem S30x64 .f32) (harg2 : arg2.IsWhole) (arg3 : Memref sig .tc .vmem S5000x64 .bf16) (harg3 : arg3.IsWhole)
    (x0 : Vec F S5000x30 .bf16) (x1 : Vec F S30x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__fused_embed_proj_kernel i arg1 harg1 arg2 harg2 arg3 harg3) K := by
  simp only [cc0__fused_embed_proj_kernel_eq_skeleton]; unfold cc0__fused_embed_proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t` each
    input's buffer at its block and the output's at `out0_2` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  Region 1 (a layer's combine and the next projection): at every grid point the body reads a block of 5000 rows of the
  neighbour sums, of the projected features and of the inverse degrees, the bias and the next weight matrix, and stores
  relu(sum + feature · inverse degree + bias) times the weights. Stated at a parameter `V`, the buffer contents when the
  region is entered: each window's block at a point, what the body leaves in the output's staging buffer (its one store
  over the payload of the five loaded blocks), the pipeline's proof data, and the body's obligation at every point.
-/
import proofs.«414150_j66202625901264_3_alg».proof.Proof.Gen.KernelIdeal.Launch
import proofs.«414150_j66202625901264_3_alg».proof.Proof.Gen.KernelIdeal.Skeleton
import proofs.«414150_j66202625901264_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each is the whole staging buffer. -/
abbrev r1_m : Rect S5000x64 := Rect.unit (s := S5000x64) ![0, 0] S5000x64.size inb_S5000x64_S5000x64_0_0
abbrev r1_b : Rect S64 := Rect.unit (s := S64) ![0] S64.size inb_S64_S64_0
abbrev r1_d : Rect S5000x1 := Rect.unit (s := S5000x1) ![0, 0] S5000x1.size inb_S5000x1_S5000x1_0_0
abbrev r1_w : Rect S64x64 := Rect.unit (s := S64x64) ![0, 0] S64x64.size inb_S64x64_S64x64_0_0

/-- The output's staging buffer after the body: its one store, over the payload of the five loaded blocks
    (neighbour sums `x0`, features `x1`, bias `x2`, inverse degrees `x3`, weights `x4`). -/
def out1_5 (x0 : Vec F S5000x64 .f32) (x1 : Vec F S5000x64 .bf16) (x2 : Vec F S64 .f32) (x3 : Vec F S5000x1 .f32) (x4 : Vec F S64x64 .f32) : Vec F S5000x64 .bf16 :=
  View.canon [⟨r1_m, k1_pay1 (View.ld x1 r1_m) (View.ld x0 r1_m) (View.ld x3 r1_d) (View.ld x2 r1_b) (View.ld x4 r1_w)⟩]

/-- The store covers the buffer. -/
theorem cover1_5 (p0 : Vec F S5000x64 .bf16) (y : S5000x64.Idx) :
    ∃ pc ∈ ([⟨r1_m, p0⟩] : List (View.Piece (Elt F) S5000x64 .bf16)), y ∈ pc.1.set :=
  View.cover_of_tiled [⟨r1_m, p0⟩] S5000x64.size (by rfl) y

set_option maxHeartbeats 1000000 in
/-- The body on whole staging memrefs, the inputs' at contents `x0 … x4` and the output's at anything, runs to the
    continuation holding the inputs' as they were and the output's at `out1_5 x0 x1 x2 x3 x4`. -/
theorem sound_kernel1 (c : Dev nD) (E : Set ℕ) (i : grid1.Coords) (arg1 : Memref sig .tc .vmem S5000x64 .f32) (harg1 : arg1.IsWhole)
    (arg2 : Memref sig .tc .vmem S5000x64 .bf16) (harg2 : arg2.IsWhole) (arg3 : Memref sig .tc .vmem S64 .f32) (harg3 : arg3.IsWhole)
    (arg4 : Memref sig .tc .vmem S5000x1 .f32) (harg4 : arg4.IsWhole) (arg5 : Memref sig .tc .vmem S64x64 .f32) (harg5 : arg5.IsWhole)
    (arg6 : Memref sig .tc .vmem S5000x64 .bf16) (harg6 : arg6.IsWhole)
    (x0 : Vec F S5000x64 .f32) (x1 : Vec F S5000x64 .bf16) (x2 : Vec F S64 .f32) (x3 : Vec F S5000x1 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__kernel i arg1 harg1 arg2 harg2 arg3 harg3 arg4 harg4 arg5 harg5 arg6 harg6) K := by
  simp only [cc1__kernel_eq_skeleton]; unfold cc1__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of pipeline 1 on core `c`: the arrays as the region finds them; after the body at point `t` each
    input's buffer at its block and the output's at `out1_5` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/-
  Region 2 (the next layer's combine and the next projection): at every grid point the body reads a block of 5000 rows of the
  neighbour sums, of the projected features and of the inverse degrees, the bias and the next weight matrix, and stores
  relu(sum + feature · inverse degree + bias) times the weights. Stated at a parameter `V`, the buffer contents when the
  region is entered: each window's block at a point, what the body leaves in the output's staging buffer (its one store
  over the payload of the five loaded blocks), the pipeline's proof data, and the body's obligation at every point.
-/
import proofs.«414150_j66202625901264_3_alg».proof.Proof.Gen.KernelIdeal.Launch
import proofs.«414150_j66202625901264_3_alg».proof.Proof.Gen.KernelIdeal.Skeleton
import proofs.«414150_j66202625901264_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: each is the whole staging buffer. -/
abbrev r2_m : Rect S5000x64 := Rect.unit (s := S5000x64) ![0, 0] S5000x64.size inb_S5000x64_S5000x64_0_0
abbrev r2_b : Rect S64 := Rect.unit (s := S64) ![0] S64.size inb_S64_S64_0
abbrev r2_d : Rect S5000x1 := Rect.unit (s := S5000x1) ![0, 0] S5000x1.size inb_S5000x1_S5000x1_0_0
abbrev r2_w : Rect S64x64 := Rect.unit (s := S64x64) ![0, 0] S64x64.size inb_S64x64_S64x64_0_0

/-- The output's staging buffer after the body: its one store, over the payload of the five loaded blocks
    (neighbour sums `x0`, features `x1`, bias `x2`, inverse degrees `x3`, weights `x4`). -/
def out2_5 (x0 : Vec F S5000x64 .f32) (x1 : Vec F S5000x64 .bf16) (x2 : Vec F S64 .f32) (x3 : Vec F S5000x1 .f32) (x4 : Vec F S64x64 .f32) : Vec F S5000x64 .bf16 :=
  View.canon [⟨r2_m, k2_pay1 (View.ld x1 r2_m) (View.ld x0 r2_m) (View.ld x3 r2_d) (View.ld x2 r2_b) (View.ld x4 r2_w)⟩]

/-- The store covers the buffer. -/
theorem cover2_5 (p0 : Vec F S5000x64 .bf16) (y : S5000x64.Idx) :
    ∃ pc ∈ ([⟨r2_m, p0⟩] : List (View.Piece (Elt F) S5000x64 .bf16)), y ∈ pc.1.set :=
  View.cover_of_tiled [⟨r2_m, p0⟩] S5000x64.size (by rfl) y

set_option maxHeartbeats 1000000 in
/-- The body on whole staging memrefs, the inputs' at contents `x0 … x4` and the output's at anything, runs to the
    continuation holding the inputs' as they were and the output's at `out2_5 x0 x1 x2 x3 x4`. -/
theorem sound_kernel2 (c : Dev nD) (E : Set ℕ) (i : grid2.Coords) (arg1 : Memref sig .tc .vmem S5000x64 .f32) (harg1 : arg1.IsWhole)
    (arg2 : Memref sig .tc .vmem S5000x64 .bf16) (harg2 : arg2.IsWhole) (arg3 : Memref sig .tc .vmem S64 .f32) (harg3 : arg3.IsWhole)
    (arg4 : Memref sig .tc .vmem S5000x1 .f32) (harg4 : arg4.IsWhole) (arg5 : Memref sig .tc .vmem S64x64 .f32) (harg5 : arg5.IsWhole)
    (arg6 : Memref sig .tc .vmem S5000x64 .bf16) (harg6 : arg6.IsWhole)
    (x0 : Vec F S5000x64 .f32) (x1 : Vec F S5000x64 .bf16) (x2 : Vec F S64 .f32) (x3 : Vec F S5000x1 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__kernel i arg1 harg1 arg2 harg2 arg3 harg3 arg4 harg4 arg5 harg5 arg6 harg6) K := by
  simp only [cc2__kernel_eq_skeleton]; unfold cc2__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of pipeline 2 on core `c`: the arrays as the region finds them; after the body at point `t` each
    input's buffer at its block and the output's at `out2_5` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3Defs.lean ====
/-
  Region 3 (the last layer's combine, the mean pool and the row normalisation), the definitions. A scratch accumulator
  is zeroed at the first grid point; at every point the body adds to it the product of the transposed one-hot block of
  graph ids with the block's combined features (sum + feature · inverse degree + bias); at the last point it divides by
  the counts, normalises each row and stores the result. Stated at a parameter `V`, the buffer contents when the
  region is entered: each window's block at a point, the accumulator after each point (by recursion on the point), what
  the output's staging buffer holds after the last point, the invariant carried between points (the scratch at the
  accumulator once a point has run), and the pipeline's proof data.
-/
import proofs.«414150_j66202625901264_3_alg».proof.Proof.Gen.KernelIdeal.Launch
import proofs.«414150_j66202625901264_3_alg».proof.Proof.Gen.KernelIdeal.Skeleton
import proofs.«414150_j66202625901264_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- One point's update of the accumulator `a`: from the blocks of the neighbour sums `x0`, the features `x1`, the bias
    `x2`, the inverse degrees `x3` and the one-hot graph ids `x4`. -/
def step3 (x0 : Vec F S5000x64 .f32) (x1 : Vec F S5000x64 .bf16) (x2 : Vec F S64 .f32) (x3 : Vec F S5000x1 .f32)
    (x4 : Vec F S5000x64 .bf16) (a : Vec F S64x64 .f32) : Vec F S64x64 .f32 :=
  k3_pay2 x1 x0 x3 x2 x4 a

/-- The accumulator after point `n`: the first point starts from zero, every later one from what the point before left. -/
def acc3 (c : Dev nD) : (n : ℕ) → n < cfg3.N → Vec F S64x64 .f32
  | 0, h => step3 (iblk3 V c 0 ⟨0, h⟩) (iblk3 V c 1 ⟨0, h⟩) (iblk3 V c 2 ⟨0, h⟩) (iblk3 V c 3 ⟨0, h⟩) (iblk3 V c 4 ⟨0, h⟩) (k3_pay1 (F := F))
  | k + 1, h => step3 (iblk3 V c 0 ⟨k + 1, h⟩) (iblk3 V c 1 ⟨k + 1, h⟩) (iblk3 V c 2 ⟨k + 1, h⟩) (iblk3 V c 3 ⟨k + 1, h⟩) (iblk3 V c 4 ⟨k + 1, h⟩)
      (acc3 c k (Nat.lt_of_succ_lt h))

theorem acc3_zero (c : Dev nD) (h : 0 < cfg3.N) :
    acc3 V c 0 h = step3 (iblk3 V c 0 ⟨0, h⟩) (iblk3 V c 1 ⟨0, h⟩) (iblk3 V c 2 ⟨0, h⟩) (iblk3 V c 3 ⟨0, h⟩) (iblk3 V c 4 ⟨0, h⟩) (k3_pay1 (F := F)) := by
  rw [acc3]
theorem acc3_succ (c : Dev nD) (k : ℕ) (h : k + 1 < cfg3.N) :
    acc3 V c (k + 1) h = step3 (iblk3 V c 0 ⟨k + 1, h⟩) (iblk3 V c 1 ⟨k + 1, h⟩) (iblk3 V c 2 ⟨k + 1, h⟩) (iblk3 V c 3 ⟨k + 1, h⟩) (iblk3 V c 4 ⟨k + 1, h⟩)
      (acc3 V c k (Nat.lt_of_succ_lt h)) := by
  rw [acc3]

/-- What the last point stores: the accumulator `a` over the counts `x5`, each row normalised. -/
def out3_6 (a : Vec F S64x64 .f32) (x5 : Vec F S64x1 .f32) : Vec F S64x64 .f32 :=
  k3_pay3 a x5

/-- The kernel's scratch operand, whole. -/
abbrev scM3 : Memref sig .tc .vmem S64x64 .f32 := Memref.whole cc3_scratch0

/-- The invariant between points: before the first point the scoped rest (the scratch among it, at some contents) and the
    generator register; after point `k` the scratch at the accumulator after `k`, the scoped rest but the scratch, and
    the generator register. -/
def Φ3 (c : Dev nD) : Fin (cfg3.N + 1) → sProp 𝕄
  | ⟨0, _⟩ => Pipeline.ΦA spec3 c
  | ⟨k + 1, h⟩ => iprop(owns (c : Thread nD τ) scM3 fullShare (acc3 V c k (Nat.lt_of_succ_lt_succ h))
      ∗ Pipeline.scopedRestBut (Ix := Unit) (Name := ℕ) (U := UR sig nD τ) (Lvl := ℕ) (Val := Elt F) spec3 c [cc3_scratch0]
      ∗ ∃ r, prngReg c r)

/-- The proof data of pipeline 3 on core `c`: the arrays as the region finds them; after the body at point `t` each
    input's buffer at its block and the output's (consulted at the last point only: it is idle at the others) at
    `out3_6` of the accumulator after `t` and the counts; the invariant `Φ3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (acc3 V c t.val t.isLt) (iblk3 V c 5 t)
  Φ n := Φ3 V c n
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (acc3 V c t.val t.isLt) (iblk3 V c 5 t) := by dsimp only [dat3]

theorem Phi3_eq (c : Dev nD) (n : Fin (cfg3.N + 1)) : (dat3 V c).Φ n = Φ3 V c n := by dsimp only [dat3]

end Cert.KernelIdeal.Hand

end
-- ==== Proof.KI.Fold.lean ====
/-
  The buffer contents at every boundary of the program's eight items (four stretches of host operations, each followed
  by a kernel region): a fold from the launch memory. A stretch leaves each buffer at its operations' composed function
  of what the stretch found; a region leaves its arrays at what its write-backs leave (the inputs as entered, the
  output's blocks folded in) and every other buffer as entered.
-/
import proofs.«414150_j66202625901264_3_alg».proof.Proof.KI.R0
import proofs.«414150_j66202625901264_3_alg».proof.Proof.KI.R1
import proofs.«414150_j66202625901264_3_alg».proof.Proof.KI.R2
import proofs.«414150_j66202625901264_3_alg».proof.Proof.KI.R3Defs
import proofs.«414150_j66202625901264_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- Core `c`'s buffers at launch. -/
abbrev Cn0 : Dev nD → Valuation τ sig (Elt F) := fun c b => m (c, b)

/-- After `hostOps0`. -/
abbrev Cn1 : Dev nD → Valuation τ sig (Elt F) := fun c => StableHlo.after hostOps0 (Cn0 m c)
/-- The same read at the TensorCore's references (what the next region's proof data take). -/
abbrev En1 : (c : Dev nD) → (b : Ref sig .tc) → Buf (Elt F) ((c : Thread nD τ).loc b) := fun c b => Cn1 m c b

/-- At region 0's exit: its arrays at what the pipeline leaves (the inputs as entered, the output's write-backs
    folded), every other buffer as entered. -/
def Cn2 (c : Dev nD) : Valuation τ sig (Elt F) :=
  Pipeline.withArrays spec0 c (Cn1 m c) fun w => (dat0 (En1 m) c).arrAt w cfg0.N
theorem Cn2_arr (c : Dev nD) (w : Fin cfg0.W) :
    Cn2 m c (Proc.devRef .tc (Pipeline.arrRef spec0 w)) = (dat0 (En1 m) c).arrAt w cfg0.N := by
  unfold Cn2; exact Pipeline.withArrays_arr spec0 launch0.win.arr_inj c _ _ w
theorem Cn2_of_ne (c : Dev nD) (b : Ref sig .tc) (hb : ∀ w, Pipeline.arrRef spec0 w ≠ b) :
    Cn2 m c (Proc.devRef .tc b) = Cn1 m c (Proc.devRef .tc b) := by
  unfold Cn2; exact Pipeline.withArrays_of_ne spec0 c _ _ b hb
/-- The same read at the TensorCore's references. -/
abbrev Ex2 : (c : Dev nD) → (b : Ref sig .tc) → Buf (Elt F) ((c : Thread nD τ).loc b) := fun c b => Cn2 m c b
theorem hF0 (c : Dev nD) (w : Fin cfg0.W) : (dat0 (En1 m) c).arrAt w cfg0.N = Ex2 m c (Pipeline.arrRef spec0 w) :=
  (Cn2_arr m c w).symm
theorem hrest0 (c : Dev nD) : ∀ b, b ∉ Finset.univ.image (Pipeline.arrRef spec0) → Ex2 m c b = En1 m c b :=
  fun b hb => Cn2_of_ne m c b fun w e => hb (Finset.mem_image.mpr ⟨w, Finset.mem_univ _, e⟩)

/-- After `hostOps1`. -/
abbrev Cn3 : Dev nD → Valuation τ sig (Elt F) := fun c => StableHlo.after hostOps1 (Cn2 m c)
/-- The same read at the TensorCore's references (what the next region's proof data take). -/
abbrev En3 : (c : Dev nD) → (b : Ref sig .tc) → Buf (Elt F) ((c : Thread nD τ).loc b) := fun c b => Cn3 m c b

/-- At region 1's exit: its arrays at what the pipeline leaves (the inputs as entered, the output's write-backs
    folded), every other buffer as entered. -/
def Cn4 (c : Dev nD) : Valuation τ sig (Elt F) :=
  Pipeline.withArrays spec1 c (Cn3 m c) fun w => (dat1 (En3 m) c).arrAt w cfg1.N
theorem Cn4_arr (c : Dev nD) (w : Fin cfg1.W) :
    Cn4 m c (Proc.devRef .tc (Pipeline.arrRef spec1 w)) = (dat1 (En3 m) c).arrAt w cfg1.N := by
  unfold Cn4; exact Pipeline.withArrays_arr spec1 launch1.win.arr_inj c _ _ w
theorem Cn4_of_ne (c : Dev nD) (b : Ref sig .tc) (hb : ∀ w, Pipeline.arrRef spec1 w ≠ b) :
    Cn4 m c (Proc.devRef .tc b) = Cn3 m c (Proc.devRef .tc b) := by
  unfold Cn4; exact Pipeline.withArrays_of_ne spec1 c _ _ b hb
/-- The same read at the TensorCore's references. -/
abbrev Ex4 : (c : Dev nD) → (b : Ref sig .tc) → Buf (Elt F) ((c : Thread nD τ).loc b) := fun c b => Cn4 m c b
theorem hF1 (c : Dev nD) (w : Fin cfg1.W) : (dat1 (En3 m) c).arrAt w cfg1.N = Ex4 m c (Pipeline.arrRef spec1 w) :=
  (Cn4_arr m c w).symm
theorem hrest1 (c : Dev nD) : ∀ b, b ∉ Finset.univ.image (Pipeline.arrRef spec1) → Ex4 m c b = En3 m c b :=
  fun b hb => Cn4_of_ne m c b fun w e => hb (Finset.mem_image.mpr ⟨w, Finset.mem_univ _, e⟩)

/-- After `hostOps2`. -/
abbrev Cn5 : Dev nD → Valuation τ sig (Elt F) := fun c => StableHlo.after hostOps2 (Cn4 m c)
/-- The same read at the TensorCore's references (what the next region's proof data take). -/
abbrev En5 : (c : Dev nD) → (b : Ref sig .tc) → Buf (Elt F) ((c : Thread nD τ).loc b) := fun c b => Cn5 m c b

/-- At region 2's exit: its arrays at what the pipeline leaves (the inputs as entered, the output's write-backs
    folded), every other buffer as entered. -/
def Cn6 (c : Dev nD) : Valuation τ sig (Elt F) :=
  Pipeline.withArrays spec2 c (Cn5 m c) fun w => (dat2 (En5 m) c).arrAt w cfg2.N
theorem Cn6_arr (c : Dev nD) (w : Fin cfg2.W) :
    Cn6 m c (Proc.devRef .tc (Pipeline.arrRef spec2 w)) = (dat2 (En5 m) c).arrAt w cfg2.N := by
  unfold Cn6; exact Pipeline.withArrays_arr spec2 launch2.win.arr_inj c _ _ w
theorem Cn6_of_ne (c : Dev nD) (b : Ref sig .tc) (hb : ∀ w, Pipeline.arrRef spec2 w ≠ b) :
    Cn6 m c (Proc.devRef .tc b) = Cn5 m c (Proc.devRef .tc b) := by
  unfold Cn6; exact Pipeline.withArrays_of_ne spec2 c _ _ b hb
/-- The same read at the TensorCore's references. -/
abbrev Ex6 : (c : Dev nD) → (b : Ref sig .tc) → Buf (Elt F) ((c : Thread nD τ).loc b) := fun c b => Cn6 m c b
theorem hF2 (c : Dev nD) (w : Fin cfg2.W) : (dat2 (En5 m) c).arrAt w cfg2.N = Ex6 m c (Pipeline.arrRef spec2 w) :=
  (Cn6_arr m c w).symm
theorem hrest2 (c : Dev nD) : ∀ b, b ∉ Finset.univ.image (Pipeline.arrRef spec2) → Ex6 m c b = En5 m c b :=
  fun b hb => Cn6_of_ne m c b fun w e => hb (Finset.mem_image.mpr ⟨w, Finset.mem_univ _, e⟩)

/-- After `hostOps3`. -/
abbrev Cn7 : Dev nD → Valuation τ sig (Elt F) := fun c => StableHlo.after hostOps3 (Cn6 m c)
/-- The same read at the TensorCore's references (what the next region's proof data take). -/
abbrev En7 : (c : Dev nD) → (b : Ref sig .tc) → Buf (Elt F) ((c : Thread nD τ).loc b) := fun c b => Cn7 m c b

/-- At region 3's exit: its arrays at what the pipeline leaves (the inputs as entered, the output's write-backs
    folded), every other buffer as entered. -/
def Cn8 (c : Dev nD) : Valuation τ sig (Elt F) :=
  Pipeline.withArrays spec3 c (Cn7 m c) fun w => (dat3 (En7 m) c).arrAt w cfg3.N
theorem Cn8_arr (c : Dev nD) (w : Fin cfg3.W) :
    Cn8 m c (Proc.devRef .tc (Pipeline.arrRef spec3 w)) = (dat3 (En7 m) c).arrAt w cfg3.N := by
  unfold Cn8; exact Pipeline.withArrays_arr spec3 launch3.win.arr_inj c _ _ w
theorem Cn8_of_ne (c : Dev nD) (b : Ref sig .tc) (hb : ∀ w, Pipeline.arrRef spec3 w ≠ b) :
    Cn8 m c (Proc.devRef .tc b) = Cn7 m c (Proc.devRef .tc b) := by
  unfold Cn8; exact Pipeline.withArrays_of_ne spec3 c _ _ b hb
/-- The same read at the TensorCore's references. -/
abbrev Ex8 : (c : Dev nD) → (b : Ref sig .tc) → Buf (Elt F) ((c : Thread nD τ).loc b) := fun c b => Cn8 m c b
theorem hF3 (c : Dev nD) (w : Fin cfg3.W) : (dat3 (En7 m) c).arrAt w cfg3.N = Ex8 m c (Pipeline.arrRef spec3 w) :=
  (Cn8_arr m c w).symm
theorem hrest3 (c : Dev nD) : ∀ b, b ∉ Finset.univ.image (Pipeline.arrRef spec3) → Ex8 m c b = En7 m c b :=
  fun b hb => Cn8_of_ne m c b fun w e => hb (Finset.mem_image.mpr ⟨w, Finset.mem_univ _, e⟩)

/-! ## What each item leaves unchanged -/

/-- The stretch `hostOps0` leaves every buffer it does not write as it found it. -/
theorem En1_keep (c : Dev nD) (b : Ref sig .tc) (hb : b ∉ hostOps0_W) : En1 m c b = m ((c : Thread nD τ).loc b) :=
  StableHlo.after_of_writes_sub hostOps0 _ hostOps0_writes hb
/-- Region 0 changes no buffer but its output's array: an input window's array ends as entered, any other buffer is
    not the region's at all. -/
theorem Ex2_keep (c : Dev nD) (b : Ref sig .tc) (hb : b ≠ main_v38) : Ex2 m c b = En1 m c b := by
  by_cases h : b ∈ Finset.univ.image (Pipeline.arrRef spec0)
  · obtain ⟨w, -, rfl⟩ := Finset.mem_image.mp h
    rcases w with ⟨_ | _ | _ | n, hw⟩
    · exact (Cn2_arr m c ⟨0, hw⟩).trans (((dat0 (En1 m) c).arrAt_in ⟨0, hw⟩ rfl _).trans (A_eq0 (En1 m) c ⟨0, hw⟩))
    · exact (Cn2_arr m c ⟨1, hw⟩).trans (((dat0 (En1 m) c).arrAt_in ⟨1, hw⟩ rfl _).trans (A_eq0 (En1 m) c ⟨1, hw⟩))
    · exact absurd rfl hb
    · exact absurd hw (Nat.not_lt.2 (Nat.le_add_left _ _))
  · exact hrest0 m c b h
/-- The stretch `hostOps1` leaves every buffer it does not write as it found it. -/
theorem En3_keep (c : Dev nD) (b : Ref sig .tc) (hb : b ∉ hostOps1_W) : En3 m c b = Ex2 m c b :=
  StableHlo.after_of_writes_sub hostOps1 _ hostOps1_writes hb
/-- Region 1 changes no buffer but its output's array: an input window's array ends as entered, any other buffer is
    not the region's at all. -/
theorem Ex4_keep (c : Dev nD) (b : Ref sig .tc) (hb : b ≠ main_v53) : Ex4 m c b = En3 m c b := by
  by_cases h : b ∈ Finset.univ.image (Pipeline.arrRef spec1)
  · obtain ⟨w, -, rfl⟩ := Finset.mem_image.mp h
    rcases w with ⟨_ | _ | _ | _ | _ | _ | n, hw⟩
    · exact (Cn4_arr m c ⟨0, hw⟩).trans (((dat1 (En3 m) c).arrAt_in ⟨0, hw⟩ rfl _).trans (A_eq1 (En3 m) c ⟨0, hw⟩))
    · exact (Cn4_arr m c ⟨1, hw⟩).trans (((dat1 (En3 m) c).arrAt_in ⟨1, hw⟩ rfl _).trans (A_eq1 (En3 m) c ⟨1, hw⟩))
    · exact (Cn4_arr m c ⟨2, hw⟩).trans (((dat1 (En3 m) c).arrAt_in ⟨2, hw⟩ rfl _).trans (A_eq1 (En3 m) c ⟨2, hw⟩))
    · exact (Cn4_arr m c ⟨3, hw⟩).trans (((dat1 (En3 m) c).arrAt_in ⟨3, hw⟩ rfl _).trans (A_eq1 (En3 m) c ⟨3, hw⟩))
    · exact (Cn4_arr m c ⟨4, hw⟩).trans (((dat1 (En3 m) c).arrAt_in ⟨4, hw⟩ rfl _).trans (A_eq1 (En3 m) c ⟨4, hw⟩))
    · exact absurd rfl hb
    · exact absurd hw (Nat.not_lt.2 (Nat.le_add_left _ _))
  · exact hrest1 m c b h
/-- The stretch `hostOps2` leaves every buffer it does not write as it found it. -/
theorem En5_keep (c : Dev nD) (b : Ref sig .tc) (hb : b ∉ hostOps2_W) : En5 m c b = Ex4 m c b :=
  StableHlo.after_of_writes_sub hostOps2 _ hostOps2_writes hb
/-- Region 2 changes no buffer but its output's array: an input window's array ends as entered, any other buffer is
    not the region's at all. -/
theorem Ex6_keep (c : Dev nD) (b : Ref sig .tc) (hb : b ≠ main_v68) : Ex6 m c b = En5 m c b := by
  by_cases h : b ∈ Finset.univ.image (Pipeline.arrRef spec2)
  · obtain ⟨w, -, rfl⟩ := Finset.mem_image.mp h
    rcases w with ⟨_ | _ | _ | _ | _ | _ | n, hw⟩
    · exact (Cn6_arr m c ⟨0, hw⟩).trans (((dat2 (En5 m) c).arrAt_in ⟨0, hw⟩ rfl _).trans (A_eq2 (En5 m) c ⟨0, hw⟩))
    · exact (Cn6_arr m c ⟨1, hw⟩).trans (((dat2 (En5 m) c).arrAt_in ⟨1, hw⟩ rfl _).trans (A_eq2 (En5 m) c ⟨1, hw⟩))
    · exact (Cn6_arr m c ⟨2, hw⟩).trans (((dat2 (En5 m) c).arrAt_in ⟨2, hw⟩ rfl _).trans (A_eq2 (En5 m) c ⟨2, hw⟩))
    · exact (Cn6_arr m c ⟨3, hw⟩).trans (((dat2 (En5 m) c).arrAt_in ⟨3, hw⟩ rfl _).trans (A_eq2 (En5 m) c ⟨3, hw⟩))
    · exact (Cn6_arr m c ⟨4, hw⟩).trans (((dat2 (En5 m) c).arrAt_in ⟨4, hw⟩ rfl _).trans (A_eq2 (En5 m) c ⟨4, hw⟩))
    · exact absurd rfl hb
    · exact absurd hw (Nat.not_lt.2 (Nat.le_add_left _ _))
  · exact hrest2 m c b h
/-- The stretch `hostOps3` leaves every buffer it does not write as it found it. -/
theorem En7_keep (c : Dev nD) (b : Ref sig .tc) (hb : b ∉ hostOps3_W) : En7 m c b = Ex6 m c b :=
  StableHlo.after_of_writes_sub hostOps3 _ hostOps3_writes hb
set_option maxHeartbeats 2000000 in
/-- Region 3 changes no buffer but its output's array: an input window's array ends as entered, any other buffer is
    not the region's at all. -/
theorem Ex8_keep (c : Dev nD) (b : Ref sig .tc) (hb : b ≠ main_v95) : Ex8 m c b = En7 m c b := by
  by_cases h : b ∈ Finset.univ.image (Pipeline.arrRef spec3)
  · obtain ⟨w, -, rfl⟩ := Finset.mem_image.mp h
    rcases w with ⟨_ | _ | _ | _ | _ | _ | _ | n, hw⟩
    · exact (Cn8_arr m c ⟨0, hw⟩).trans (((dat3 (En7 m) c).arrAt_in ⟨0, hw⟩ rfl _).trans (A_eq3 (En7 m) c ⟨0, hw⟩))
    · exact (Cn8_arr m c ⟨1, hw⟩).trans (((dat3 (En7 m) c).arrAt_in ⟨1, hw⟩ rfl _).trans (A_eq3 (En7 m) c ⟨1, hw⟩))
    · exact (Cn8_arr m c ⟨2, hw⟩).trans (((dat3 (En7 m) c).arrAt_in ⟨2, hw⟩ rfl _).trans (A_eq3 (En7 m) c ⟨2, hw⟩))
    · exact (Cn8_arr m c ⟨3, hw⟩).trans (((dat3 (En7 m) c).arrAt_in ⟨3, hw⟩ rfl _).trans (A_eq3 (En7 m) c ⟨3, hw⟩))
    · exact (Cn8_arr m c ⟨4, hw⟩).trans (((dat3 (En7 m) c).arrAt_in ⟨4, hw⟩ rfl _).trans (A_eq3 (En7 m) c ⟨4, hw⟩))
    · exact (Cn8_arr m c ⟨5, hw⟩).trans (((dat3 (En7 m) c).arrAt_in ⟨5, hw⟩ rfl _).trans (A_eq3 (En7 m) c ⟨5, hw⟩))
    · exact absurd rfl hb
    · exact absurd hw (Nat.not_lt.2 (Nat.le_add_left _ _))
  · exact hrest3 m c b h

end Cert.KernelIdeal.Hand

end
-- ==== Proof.KI.R3.lean ====
/-
  Region 3 (the last layer's combine, the mean pool and the row normalisation), the body. Over the definitions of
  KI/R3Defs.lean: the body's run in its three cases (the first grid point, which zeroes the scratch accumulator before
  adding to it; a middle point, which adds to what the point before left; the last point, which adds and then stores the
  normalised mean), the body's obligation at every point, and the invariant at the two ends of the region.
-/
import proofs.«414150_j66202625901264_3_alg».proof.Proof.KI.R3Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Before the first point the invariant is the scoped rest and the generator register. -/
theorem Phi3_zero (c : Dev nD) : (dat3 V c).Φ 0 = Pipeline.ΦA spec3 c := by
  rw [Phi3_eq]; rfl

/-- The last index of the invariant is one past the ninth point. -/
theorem last3_eq : Fin.last cfg3.N = ⟨9 + 1, by rw [show cfg3.N = grid3.N from rfl, N_3]; decide⟩ := Fin.ext N_3

/-- After the last point the invariant gives the scoped rest back (the scratch at contents no longer named) and the
    generator register. -/
theorem Phi3_last (c : Dev nD) : (dat3 V c).Φ (Fin.last cfg3.N) ⊢ (Pipeline.ΦA spec3 c : sProp 𝕄) := by
  rw [Phi3_eq, last3_eq, Φ3]
  unfold Pipeline.ΦA
  rw [scopedRest3_split]
  simp only [scM3, owns_whole]
  iintro ⟨Hs, Hr, Hp⟩
  isplitl [Hs Hr]
  · isplitl [Hs]
    · iexists _; iexact Hs
    iexact Hr
  iexact Hp

/-- The body's accesses: each is the whole buffer. -/
abbrev r3_m : Rect S5000x64 := Rect.unit (s := S5000x64) ![0, 0] S5000x64.size inb_S5000x64_S5000x64_0_0
abbrev r3_b : Rect S64 := Rect.unit (s := S64) ![0] S64.size inb_S64_S64_0
abbrev r3_d : Rect S5000x1 := Rect.unit (s := S5000x1) ![0, 0] S5000x1.size inb_S5000x1_S5000x1_0_0
abbrev r3_a : Rect S64x64 := Rect.unit (s := S64x64) ![0, 0] S64x64.size inb_S64x64_S64x64_0_0
abbrev r3_c : Rect S64x1 := Rect.unit (s := S64x1) ![0, 0] S64x1.size inb_S64x1_S64x1_0_0

/-- The first conditional's test (the point is the first), as the body computes it. -/
abbrev cond3_1 (i : grid3.Coords) : Prop :=
  Scalar.cmpi .ne (Scalar.extui (Scalar.cmpi .eq (BitVec.ofNat 32 (i 0).val) 0#32)) 0#32 = 1#1
/-- The second conditional's test (the point is the last). -/
abbrev cond3_2 (i : grid3.Coords) : Prop := k3_cond2 i = 1#1

/-- The zero offsets, however spelt. -/
theorem hz3_1 : (![0] : Fin 1 → Nat) = fun _ => 0 := funext fun a => by fin_cases a <;> rfl
theorem hz3_2 : (![0, 0] : Fin 2 → Nat) = fun _ => 0 := funext fun a => by fin_cases a <;> rfl

/-- A store of the whole accumulator, last, covers it. -/
theorem cover3_a (p : Vec F S64x64 .f32) (L : List (View.Piece (Elt F) S64x64 .f32)) (y : S64x64.Idx) :
    ∃ pc ∈ ((⟨r3_a, p⟩ : View.Piece (Elt F) S64x64 .f32) :: L), y ∈ pc.1.set :=
  ⟨⟨r3_a, p⟩, List.mem_cons.mpr (Or.inl rfl), View.mem_set_unit_zero hz3_2 inb_S64x64_S64x64_0_0 y⟩

set_option maxHeartbeats 1000000 in
/-- The body at the first point: the scratch, at anything, is zeroed, read back and left at one update from zero; the
    output's buffer and the counts' are not touched. -/
theorem sound_kernel3_A (c : Dev nD) (E : Set ℕ) (i : grid3.Coords) (hc1 : cond3_1 i) (hc2 : ¬ cond3_2 i)
    (arg1 : Memref sig .tc .vmem S5000x64 .f32) (harg1 : arg1.IsWhole)
    (arg2 : Memref sig .tc .vmem S5000x64 .bf16) (harg2 : arg2.IsWhole) (arg3 : Memref sig .tc .vmem S64 .f32) (harg3 : arg3.IsWhole)
    (arg4 : Memref sig .tc .vmem S5000x1 .f32) (harg4 : arg4.IsWhole) (arg5 : Memref sig .tc .vmem S5000x64 .bf16) (harg5 : arg5.IsWhole)
    (arg6 : Memref sig .tc .vmem S64x1 .f32) (harg6 : arg6.IsWhole) (arg7 : Memref sig .tc .vmem S64x64 .f32) (harg7 : arg7.IsWhole)
    (arg8 : Memref sig .tc .vmem S64x64 .f32) (harg8 : arg8.IsWhole)
    (x0 : Vec F S5000x64 .f32) (x1 : Vec F S5000x64 .bf16) (x2 : Vec F S64 .f32) (x3 : Vec F S5000x1 .f32) (x4 : Vec F S5000x64 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ a, owns (c : Thread nD τ) arg8 fullShare a)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg8 fullShare (step3 x0 x1 x2 x3 x4 (k3_pay1 (F := F)))) -∗ K ⟨⟩))
      ⊢ wp frame (wpE (defs₀ (F := F)) Variants.none c none) E
          (cc3__combine_pool_kernel i arg1 harg1 arg2 harg2 arg3 harg3 arg4 harg4 arg5 harg5 arg6 harg6 arg7 harg7 arg8 harg8) K := by
  simp only [cc3__combine_pool_kernel_eq_skeleton]; unfold cc3__combine_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%a8, %f8, -, H8⟩, Hk⟩
  subst hf0
  subst hf1
  subst hf2
  subst hf3
  subst hf4
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H8
  ipureintro
  sl_unfold_words
  rw [View.read_writes_eq_canon _ _ _ (cover3_a _ _)]
  rw [View.canon_cons_unit_zero (S := S64x64) hz3_2, View.readCov_unit_zero (S := S64x64) _ hz3_2]
  unfold step3
  simp only [View.readAt_eq_ld, View.ld_unit_zero (S := S5000x64) hz3_2, View.ld_unit_zero (S := S64) hz3_1,
    View.ld_unit_zero (S := S5000x1) hz3_2, View.ld_unit_zero (S := S64x1) hz3_2, View.ld_unit_zero (S := S64x64) hz3_2]

set_option maxHeartbeats 1000000 in
/-- The body at a middle point: the scratch at `a` is left at one update from `a`; the output's buffer and the
    counts' are not touched. -/
theorem sound_kernel3_B (c : Dev nD) (E : Set ℕ) (i : grid3.Coords) (hc1 : ¬ cond3_1 i) (hc2 : ¬ cond3_2 i)
    (arg1 : Memref sig .tc .vmem S5000x64 .f32) (harg1 : arg1.IsWhole)
    (arg2 : Memref sig .tc .vmem S5000x64 .bf16) (harg2 : arg2.IsWhole) (arg3 : Memref sig .tc .vmem S64 .f32) (harg3 : arg3.IsWhole)
    (arg4 : Memref sig .tc .vmem S5000x1 .f32) (harg4 : arg4.IsWhole) (arg5 : Memref sig .tc .vmem S5000x64 .bf16) (harg5 : arg5.IsWhole)
    (arg6 : Memref sig .tc .vmem S64x1 .f32) (harg6 : arg6.IsWhole) (arg7 : Memref sig .tc .vmem S64x64 .f32) (harg7 : arg7.IsWhole)
    (arg8 : Memref sig .tc .vmem S64x64 .f32) (harg8 : arg8.IsWhole)
    (x0 : Vec F S5000x64 .f32) (x1 : Vec F S5000x64 .bf16) (x2 : Vec F S64 .f32) (x3 : Vec F S5000x1 .f32) (x4 : Vec F S5000x64 .bf16) (a : Vec F S64x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg8 fullShare a
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg8 fullShare (step3 x0 x1 x2 x3 x4 a)) -∗ K ⟨⟩))
      ⊢ wp frame (wpE (defs₀ (F := F)) Variants.none c none) E
          (cc3__combine_pool_kernel i arg1 harg1 arg2 harg2 arg3 harg3 arg4 harg4 arg5 harg5 arg6 harg6 arg7 harg7 arg8 harg8) K := by
  simp only [cc3__combine_pool_kernel_eq_skeleton]; unfold cc3__combine_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f8, %hf8, H8⟩, Hk⟩
  subst hf0
  subst hf1
  subst hf2
  subst hf3
  subst hf4
  subst hf8
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H8
  ipureintro
  sl_unfold_words
  rw [View.read_writes_eq_canon _ _ _ (cover3_a _ _)]
  rw [View.canon_cons_unit_zero (S := S64x64) hz3_2]
  unfold step3
  simp only [View.readAt_eq_ld, View.ld_unit_zero (S := S5000x64) hz3_2, View.ld_unit_zero (S := S64) hz3_1,
    View.ld_unit_zero (S := S5000x1) hz3_2, View.ld_unit_zero (S := S64x1) hz3_2, View.ld_unit_zero (S := S64x64) hz3_2]

set_option maxHeartbeats 1000000 in
/-- The body at the last point: the scratch at `a` is left at one update from `a`, and the output's buffer, at
    anything, at that accumulator over the counts `x5`, normalised. -/
theorem sound_kernel3_C (c : Dev nD) (E : Set ℕ) (i : grid3.Coords) (hc1 : ¬ cond3_1 i) (hc2 : cond3_2 i)
    (arg1 : Memref sig .tc .vmem S5000x64 .f32) (harg1 : arg1.IsWhole)
    (arg2 : Memref sig .tc .vmem S5000x64 .bf16) (harg2 : arg2.IsWhole) (arg3 : Memref sig .tc .vmem S64 .f32) (harg3 : arg3.IsWhole)
    (arg4 : Memref sig .tc .vmem S5000x1 .f32) (harg4 : arg4.IsWhole) (arg5 : Memref sig .tc .vmem S5000x64 .bf16) (harg5 : arg5.IsWhole)
    (arg6 : Memref sig .tc .vmem S64x1 .f32) (harg6 : arg6.IsWhole) (arg7 : Memref sig .tc .vmem S64x64 .f32) (harg7 : arg7.IsWhole)
    (arg8 : Memref sig .tc .vmem S64x64 .f32) (harg8 : arg8.IsWhole)
    (x0 : Vec F S5000x64 .f32) (x1 : Vec F S5000x64 .bf16) (x2 : Vec F S64 .f32) (x3 : Vec F S5000x1 .f32) (x4 : Vec F S5000x64 .bf16) (x5 : Vec F S64x1 .f32) (a : Vec F S64x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5 ∗ (∃ d, owns (c : Thread nD τ) arg7 fullShare d)
        ∗ owns (c : Thread nD τ) arg8 fullShare a
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (out3_6 (step3 x0 x1 x2 x3 x4 a) x5)
            ∗ owns (c : Thread nD τ) arg8 fullShare (step3 x0 x1 x2 x3 x4 a)) -∗ K ⟨⟩))
      ⊢ wp frame (wpE (defs₀ (F := F)) Variants.none c none) E
          (cc3__combine_pool_kernel i arg1 harg1 arg2 harg2 arg3 harg3 arg4 harg4 arg5 harg5 arg6 harg6 arg7 harg7 arg8 harg8) K := by
  simp only [cc3__combine_pool_kernel_eq_skeleton]; unfold cc3__combine_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%f8, %hf8, H8⟩, Hk⟩
  subst hf0
  subst hf1
  subst hf2
  subst hf3
  subst hf4
  subst hf5
  subst hf8
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr
    swap; · iexact H7
    ipureintro
    sl_unfold_words
    rw [View.read_writes_eq_canon _ _ _ (cover3_a _ _)]
    rw [View.canon_cons_unit_zero (S := S64x64) hz3_2, View.readCov_unit_zero (S := S64x64) _ hz3_2]
    unfold out3_6 step3
    simp only [View.readAt_eq_ld, View.ld_unit_zero (S := S5000x64) hz3_2, View.ld_unit_zero (S := S64) hz3_1,
    View.ld_unit_zero (S := S5000x1) hz3_2, View.ld_unit_zero (S := S64x1) hz3_2, View.ld_unit_zero (S := S64x64) hz3_2]
  iexists _; isplitr
  swap; · iexact H8
  ipureintro
  sl_unfold_words
  rw [View.read_writes_eq_canon _ _ _ (cover3_a _ _)]
  rw [View.canon_cons_unit_zero (S := S64x64) hz3_2]
  unfold step3
  simp only [View.readAt_eq_ld, View.ld_unit_zero (S := S5000x64) hz3_2, View.ld_unit_zero (S := S64) hz3_1,
    View.ld_unit_zero (S := S5000x1) hz3_2, View.ld_unit_zero (S := S64x1) hz3_2, View.ld_unit_zero (S := S64x64) hz3_2]

/-- The two tests decided over the grid: the first holds at the first point only, the second at the last only. -/
theorem hcond3_1 : ∀ t : Fin cfg3.N, cond3_1 (grid3.coords t) ↔ t.val = 0 :=
  (by decide +kernel : ∀ t : Fin grid3.N, cond3_1 (grid3.coords t) ↔ t.val = 0)
theorem hcond3_2 : ∀ t : Fin cfg3.N, cond3_2 (grid3.coords t) ↔ t.val = 9 :=
  (by decide +kernel : ∀ t : Fin grid3.N, cond3_2 (grid3.coords t) ↔ t.val = 9)

/-- The output window is idle exactly off the last point, and not written back there. -/
theorem idle3_6 : ∀ t : Fin cfg3.N, cfg3.idle 6 (cfg3.grid.coords t) = true ↔ t.val ≠ 9 :=
  (by decide +kernel : ∀ t : Fin grid3.N, idle3 6 (grid3.coords t) = true ↔ t.val ≠ 9)
theorem idle3_6_true (t : Fin cfg3.N) (h : t.val ≠ 9) : cfg3.idle 6 (cfg3.grid.coords t) = true := (idle3_6 t).mpr h
theorem idle3_6_false (t : Fin cfg3.N) (h : t.val = 9) : cfg3.idle 6 (cfg3.grid.coords t) = false :=
  Bool.eq_false_iff.mpr fun h' => (idle3_6 t).mp h' h
theorem flush3_6_false (t : Fin cfg3.N) (h : t.val ≠ 9) : (cfg3.win 6).flush t = false :=
  Bool.eq_false_iff.mpr fun h' => h (by have h1 := (flush3_6 t).mp h'; have h2 := t.isLt; have h3 : cfg3.N = 10 := N_3; omega)

/-- An input window's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)

/-- The scoped rest but the scratch, and the generator register: what every point passes through unread. -/
abbrev rest3 (c : Dev nD) : sProp 𝕄 :=
  iprop(Pipeline.scopedRestBut (Ix := Unit) (Name := ℕ) (U := UR sig nD τ) (Lvl := ℕ) (Val := Elt F) spec3 c [cc3_scratch0] ∗ ∃ r, prngReg c r)

/-- The invariant before the first point, with the scratch split out of the scoped rest, at some contents. -/
theorem Phi3_first (c : Dev nD) (t : Fin cfg3.N) (h : t.val = 0) :
    (dat3 V c).Φ t.castSucc
      = iprop(((∃ a, owns (c : Thread nD τ) scM3 fullShare a)
          ∗ Pipeline.scopedRestBut (Ix := Unit) (Name := ℕ) (U := UR sig nD τ) (Lvl := ℕ) (Val := Elt F) spec3 c [cc3_scratch0]) ∗ ∃ r, prngReg c r) := by
  obtain ⟨n, hn⟩ := t
  dsimp only at h; subst h
  rw [Phi3_eq, show Φ3 V c (Fin.castSucc ⟨0, hn⟩) = Pipeline.ΦA spec3 c from rfl]
  unfold Pipeline.ΦA
  rw [scopedRest3_split]
  simp only [scM3, owns_whole]
  rfl

/-- The invariant after a point: the scratch at the accumulator after it. -/
theorem Phi3_succ (c : Dev nD) (t : Fin cfg3.N) :
    (dat3 V c).Φ t.succ = iprop(owns (c : Thread nD τ) scM3 fullShare (acc3 V c t.val t.isLt) ∗ rest3 c) := by
  obtain ⟨n, hn⟩ := t
  rw [Phi3_eq]; rfl

/-- The invariant before a later point: the scratch at the accumulator after the point before. -/
theorem Phi3_later (c : Dev nD) (t : Fin cfg3.N) (k : ℕ) (h : t.val = k + 1) :
    (dat3 V c).Φ t.castSucc
      = iprop(owns (c : Thread nD τ) scM3 fullShare (acc3 V c k (by have := t.isLt; omega)) ∗ rest3 c) := by
  obtain ⟨n, hn⟩ := t
  dsimp only at h; subst h
  rw [Phi3_eq]; rfl

/-- The accumulator after a point, by the point's own blocks. -/
theorem acc3_first (c : Dev nD) (t : Fin cfg3.N) (h : t.val = 0) :
    acc3 V c t.val t.isLt = step3 (iblk3 V c 0 t) (iblk3 V c 1 t) (iblk3 V c 2 t) (iblk3 V c 3 t) (iblk3 V c 4 t) (k3_pay1 (F := F)) := by
  obtain ⟨n, hn⟩ := t
  dsimp only at h; subst h
  exact acc3_zero V c hn
theorem acc3_later (c : Dev nD) (t : Fin cfg3.N) (k : ℕ) (h : t.val = k + 1) :
    acc3 V c t.val t.isLt = step3 (iblk3 V c 0 t) (iblk3 V c 1 t) (iblk3 V c 2 t) (iblk3 V c 3 t) (iblk3 V c 4 t)
      (acc3 V c k (by have := t.isLt; omega)) := by
  obtain ⟨n, hn⟩ := t
  dsimp only at h; subst h
  exact acc3_succ V c k hn

/-- The output's buffer after the body at the last point. -/
theorem leaves3_6_last (c : Dev nD) (t : Fin cfg3.N) (h : t.val = 9) :
    ((dat3 V c).leavesExact 6 t : sProp 𝕄) = owns (c : Thread nD τ) (st3_6 t) fullShare ((dat3 V c).after 6 t) := by
  unfold Dat.leavesExact; rw [idle3_6_false t h]

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns: the output's buffer as found off the last point, at the stored result at the last. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ (dat3 V c).leavesExact 6 t)

/-- The body at the first point. -/
theorem sound_body3_A (c : Dev nD) (t : Fin cfg3.N) (h0 : t.val = 0) :
    bodyPre3 V c t ⊢ wp frame (wpE (defs₀ (F := F)) Variants.none c none) Set.univ (bodyAt3 t) (fun _ => bodyPost3 V c t) := by
  have h9 : t.val ≠ 9 := by omega
  unfold bodyPre3 bodyPost3 bodyAt3
  simp only [before3_0, before3_1, before3_2, before3_3, before3_4, before3_5]
  rw [Phi3_first V c t h0, Phi3_succ, acc3_first V c t h0,
    show (dat3 V c).owesAt () t.succ = (dat3 V c).owesAt () t.castSucc from rfl,
    after3_0, after3_1, after3_2, after3_3, after3_4, after3_5, (dat3 V c).leavesExact_idle 6 t (idle3_6_true t h9) (flush3_6_false t h9)]
  iintro ⟨⟨⟨HS, HR⟩, Hg⟩, Ho, ⟨%d0, H0⟩, ⟨%d1, H1⟩, ⟨%d2, H2⟩, ⟨%d3, H3⟩, ⟨%d4, H4⟩, ⟨%d5, H5⟩, H6⟩
  iapply (sound_kernel3_A c Set.univ (grid3.coords t) ((hcond3_1 t).mpr h0) (fun hc => h9 ((hcond3_2 t).mp hc))
    _ _ _ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS HR Hg]
  · isplitl [HS]; · iexact HS
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at a middle point. -/
theorem sound_body3_B (c : Dev nD) (t : Fin cfg3.N) (h0 : t.val ≠ 0) (h9 : t.val ≠ 9) :
    bodyPre3 V c t ⊢ wp frame (wpE (defs₀ (F := F)) Variants.none c none) Set.univ (bodyAt3 t) (fun _ => bodyPost3 V c t) := by
  obtain ⟨k, hk⟩ : ∃ k, t.val = k + 1 := ⟨t.val - 1, by omega⟩
  unfold bodyPre3 bodyPost3 bodyAt3
  simp only [before3_0, before3_1, before3_2, before3_3, before3_4, before3_5]
  rw [Phi3_later V c t k hk, Phi3_succ, acc3_later V c t k hk,
    show (dat3 V c).owesAt () t.succ = (dat3 V c).owesAt () t.castSucc from rfl,
    after3_0, after3_1, after3_2, after3_3, after3_4, after3_5, (dat3 V c).leavesExact_idle 6 t (idle3_6_true t h9) (flush3_6_false t h9)]
  iintro ⟨⟨HS, HR⟩, Ho, ⟨%d0, H0⟩, ⟨%d1, H1⟩, ⟨%d2, H2⟩, ⟨%d3, H3⟩, ⟨%d4, H4⟩, ⟨%d5, H5⟩, H6⟩
  iapply (sound_kernel3_B c Set.univ (grid3.coords t) (fun hc => h0 ((hcond3_1 t).mp hc)) (fun hc => h9 ((hcond3_2 t).mp hc))
    _ _ _ _ _ _ _ _ _ _ _ _ _ _ _ _ (iblk3 V c 0 t) (iblk3 V c 1 t) (iblk3 V c 2 t) (iblk3 V c 3 t) (iblk3 V c 4 t) _ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS HR]
  · isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at the last point. -/
theorem sound_body3_C (c : Dev nD) (t : Fin cfg3.N) (h9 : t.val = 9) :
    bodyPre3 V c t ⊢ wp frame (wpE (defs₀ (F := F)) Variants.none c none) Set.univ (bodyAt3 t) (fun _ => bodyPost3 V c t) := by
  have h0 : t.val ≠ 0 := by omega
  have hk : t.val = 8 + 1 := h9
  unfold bodyPre3 bodyPost3 bodyAt3
  simp only [before3_0, before3_1, before3_2, before3_3, before3_4, before3_5]
  rw [Phi3_later V c t 8 hk, Phi3_succ, leaves3_6_last V c t h9,
    show (dat3 V c).owesAt () t.succ = (dat3 V c).owesAt () t.castSucc from rfl,
    after3_0, after3_1, after3_2, after3_3, after3_4, after3_5, after3_6, acc3_later V c t 8 hk]
  iintro ⟨⟨HS, HR⟩, Ho, ⟨%d0, H0⟩, ⟨%d1, H1⟩, ⟨%d2, H2⟩, ⟨%d3, H3⟩, ⟨%d4, H4⟩, ⟨%d5, H5⟩, ⟨%d6, H6⟩⟩
  iapply (sound_kernel3_C c Set.univ (grid3.coords t) (fun hc => h0 ((hcond3_1 t).mp hc)) ((hcond3_2 t).mpr h9)
    _ _ _ _ _ _ _ _ _ _ _ _ _ _ _ _ (iblk3 V c 0 t) (iblk3 V c 1 t) (iblk3 V c 2 t) (iblk3 V c 3 t) (iblk3 V c 4 t) (iblk3 V c 5 t) _ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  iintro ⟨H0, H1, H2, H3, H4, H5, H6, HS⟩
  isplitl [HS HR]
  · isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point: by the point's place on the grid. -/
theorem sound_body3 (c : Dev nD) (t : Fin cfg3.N) :
    bodyPre3 V c t ⊢ wp frame (wpE (defs₀ (F := F)) Variants.none c none) Set.univ (bodyAt3 t) (fun _ => bodyPost3 V c t) := by
  by_cases h0 : t.val = 0
  · exact sound_body3_A V c t h0
  by_cases h9 : t.val = 9
  · exact sound_body3_C V c t h9
  exact sound_body3_B V c t h0 h9

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
/-
  The run of the whole program: its eight items (four stretches of host operations, each followed by a kernel region)
  as the segments of the several-regions launch, over the buffer contents KI/Fold.lean names at every boundary. Between
  two items a core holds every unscoped buffer whole at the boundary's contents, its generator register at some state,
  and owes nothing. A region splits its windows' arrays out of those buffers, runs its pipeline under the body's
  obligation, and puts the arrays back at what the write-backs leave. Exported: every unscoped buffer's final contents
  (`run_all`), the result's and the arguments' (`run_result`), and the arguments' alone (`frame`).
-/
import proofs.«414150_j66202625901264_3_alg».proof.Proof.KI.Fold
import proofs.«414150_j66202625901264_3_alg».proof.Proof.KI.R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (En1 m) c
  | ⟨1, _⟩ => fun c => dat1 (En3 m) c
  | ⟨2, _⟩ => fun c => dat2 (En5 m) c
  | ⟨3, _⟩ => fun c => dat3 (En7 m) c
abbrev 𝒱r : Variants := Variants.none
/-- No core owes another anything: no level is assigned. -/
abbrev Lr : GSem nD τ sig → Finset Unit := fun _ => ∅
abbrev lvr : GSem nD τ sig → Unit → ℕ := fun _ _ => 0
/-- What rides beside the buffers through every item: the core's generator register at some state and its dues, none. -/
abbrev Rr (c : Dev nD) : sProp 𝕄 := iprop((∃ r, prngReg c r) ∗ ∃ W, owes (c : Thread nD τ) (0 : CellTallies nD τ sig Unit) W)
/-- A stretch of host operations as a segment: from the unscoped buffers at `W` to them at the operations' composed
    function of `W`. -/
abbrev hsegr (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱r Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tn (c : Dev nD) : sProp 𝕄 := iprop(StableHlo.held (c : Thread nD τ) (Pipeline.ucRefs τ sig) (Cn8 m c) ∗ ∃ r, prngReg c r)

/-! ## The regions as segments -/

set_option backward.isDefEq.respectTransparency.types false in
/-- Region 0 over the thread state: entered from every unscoped buffer at the contents after the stretch before it,
    left at those with its output's array at what its write-backs leave. Its arrays are split out of the unscoped
    buffers at entry and put back at exit; the generator register goes into the invariant and comes back; nothing is
    owed; the kernel has no semaphore of its own. -/
def reg0 : Pipeline.RegionSeg (pcfgs (F := F)) adm (pdats m) () defs₀ 𝒱r Lr lvr 0 where
  win := launch0.win.to₀
  block_pos := launch0.block_pos
  stage_whole := launch0.stage_whole
  K := PEmpty
  osem k := k.elim
  ho := Pipeline.OwnSemFacts.none _
  hbody c := (body_obligation0 (En1 m) c).loose
  hwaits := Pipeline.hwaits_of_owed_zero _ _ _ _ Lr lvr 0 fun _ _ => rfl
  pre c := iprop(StableHlo.held (c : Thread nD τ) (Pipeline.ucRefs τ sig) (Cn1 m c) ∗ Rr c)
  post c := iprop(StableHlo.held (c : Thread nD τ) (Pipeline.ucRefs τ sig) (Cn2 m c) ∗ Rr c)
  X c := iprop(∃ r, prngReg c r)
  Y c := iprop(∃ r, prngReg c r)
  Z c := Pipeline.unscopedRest (Ix := Unit) (Name := ℕ) (U := UR sig nD τ) (Lvl := ℕ) spec0 c (En1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En1 m c) (Ex2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents after the stretch before it,
    left at those with its output's array at what its write-backs leave. Its arrays are split out of the unscoped
    buffers at entry and put back at exit; the generator register goes into the invariant and comes back; nothing is
    owed; the kernel has no semaphore of its own. -/
def reg1 : Pipeline.RegionSeg (pcfgs (F := F)) adm (pdats m) () defs₀ 𝒱r Lr lvr 1 where
  win := launch1.win.to₀
  block_pos := launch1.block_pos
  stage_whole := launch1.stage_whole
  K := PEmpty
  osem k := k.elim
  ho := Pipeline.OwnSemFacts.none _
  hbody c := (body_obligation1 (En3 m) c).loose
  hwaits := Pipeline.hwaits_of_owed_zero _ _ _ _ Lr lvr 1 fun _ _ => rfl
  pre c := iprop(StableHlo.held (c : Thread nD τ) (Pipeline.ucRefs τ sig) (Cn3 m c) ∗ Rr c)
  post c := iprop(StableHlo.held (c : Thread nD τ) (Pipeline.ucRefs τ sig) (Cn4 m c) ∗ Rr c)
  X c := iprop(∃ r, prngReg c r)
  Y c := iprop(∃ r, prngReg c r)
  Z c := Pipeline.unscopedRest (Ix := Unit) (Name := ℕ) (U := UR sig nD τ) (Lvl := ℕ) spec1 c (En3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (En3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En3 m c) (Ex4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents after the stretch before it,
    left at those with its output's array at what its write-backs leave. Its arrays are split out of the unscoped
    buffers at entry and put back at exit; the generator register goes into the invariant and comes back; nothing is
    owed; the kernel has no semaphore of its own. -/
def reg2 : Pipeline.RegionSeg (pcfgs (F := F)) adm (pdats m) () defs₀ 𝒱r Lr lvr 2 where
  win := launch2.win.to₀
  block_pos := launch2.block_pos
  stage_whole := launch2.stage_whole
  K := PEmpty
  osem k := k.elim
  ho := Pipeline.OwnSemFacts.none _
  hbody c := (body_obligation2 (En5 m) c).loose
  hwaits := Pipeline.hwaits_of_owed_zero _ _ _ _ Lr lvr 2 fun _ _ => rfl
  pre c := iprop(StableHlo.held (c : Thread nD τ) (Pipeline.ucRefs τ sig) (Cn5 m c) ∗ Rr c)
  post c := iprop(StableHlo.held (c : Thread nD τ) (Pipeline.ucRefs τ sig) (Cn6 m c) ∗ Rr c)
  X c := iprop(∃ r, prngReg c r)
  Y c := iprop(∃ r, prngReg c r)
  Z c := Pipeline.unscopedRest (Ix := Unit) (Name := ℕ) (U := UR sig nD τ) (Lvl := ℕ) spec2 c (En5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (En5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (En5 m c) (Ex6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents after the stretch before it,
    left at those with its output's array at what its write-backs leave. Its arrays are split out of the unscoped
    buffers at entry and put back at exit; the generator register goes into the invariant and comes back; nothing is
    owed; the kernel has no semaphore of its own. -/
def reg3 : Pipeline.RegionSeg (pcfgs (F := F)) adm (pdats m) () defs₀ 𝒱r Lr lvr 3 where
  win := launch3.win.to₀
  block_pos := launch3.block_pos
  stage_whole := launch3.stage_whole
  K := PEmpty
  osem k := k.elim
  ho := Pipeline.OwnSemFacts.none _
  hbody c := (body_obligation3 (En7 m) c).loose
  hwaits := Pipeline.hwaits_of_owed_zero _ _ _ _ Lr lvr 3 fun _ _ => rfl
  pre c := iprop(StableHlo.held (c : Thread nD τ) (Pipeline.ucRefs τ sig) (Cn7 m c) ∗ Rr c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (En7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (En7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from Phi3_zero (En7 m) c]; unfold Pipeline.ΦA
    iintro ⟨Hp, -, Hr⟩
    isplitl [Hr]; · iexact Hr
    iexact Hp
  hout c := by
    rw [Pipeline.ownSems0_none]
    refine (Phi3_last (En7 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (En7 m c) (Ex8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's eight segments in order. -/
abbrev segsr : List (Pipeline.Seg (pcfgs (F := F)) adm (pdats m) () defs₀ 𝒱r Lr lvr) :=
  [ .host (hsegr hostOps0 hostOps0_sub hostOps0_fresh (Cn0 m)),
    .region (reg0 m),
    .host (hsegr hostOps1 hostOps1_sub hostOps1_fresh (Cn2 m)),
    .region (reg1 m),
    .host (hsegr hostOps2 hostOps2_sub hostOps2_fresh (Cn4 m)),
    .region (reg2 m),
    .host (hsegr hostOps3 hostOps3_sub hostOps3_fresh (Cn6 m)),
    .region (reg3 m) ]

set_option backward.isDefEq.respectTransparency.types false in
/-- Every weakly fair execution of the program from memory `m` with zero counters terminates, and every final memory
    holds each unscoped buffer at the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = Cn8 m c b) :=
  Pipeline.θ_run_regions_kit (pcfgs (F := F)) adm (pdats m) () cellOf_inj emb₁ defs₀ 𝒱r Lr lvr m ρ main (segsr m)
    (fun c Q => by
      rewrite [main_chain c, Pipeline.Seg.run_eq_chain,
        show (segsr m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segsr, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Cn0 m c) ∗ Rr c)) (Tₙ := Tn m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach Lr lvr fun c => ?_
      rw [show unscopedBufs c (fun b => m ((c : Thread nD τ).loc b)) = StableHlo.held (c : Thread nD τ) (Pipeline.ucRefs τ sig) (Cn0 m c)
        from Pipeline.unscopedBufs_held c (Cn0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Cn8 m c b)
    (hfin := fun c s' => by
      iintro ⟨⟨Hh, -⟩, HSI⟩
      unfold StableHlo.held
      imodintro
      iapply (pointsTo_read_all (Pipeline.ucRefs τ sig) (fun b => (((c : Thread nD τ)).1, b)) (Cn8 m c) s')
      isplitl [Hh] <;> iassumption)
    (hQ := fun s h c => h c)

/-! ## What the claims read off the run -/

/-- A buffer no stretch writes and no region's output window stages reaches the end as launched. -/
theorem Cn8_arg (c : Dev nD) (b : Ref sig .tc) (h0 : b ∉ hostOps0_W) (h1 : b ∉ hostOps1_W) (h2 : b ∉ hostOps2_W) (h3 : b ∉ hostOps3_W)
    (n0 : b ≠ main_v38) (n1 : b ≠ main_v53) (n2 : b ≠ main_v68) (n3 : b ≠ main_v95) :
    Cn8 m c (Proc.devRef .tc b) = m ((c : Thread nD τ).loc b) :=
  (Ex8_keep m c b n3).trans <| (En7_keep m c b h3).trans <| (Ex6_keep m c b n2).trans <| (En5_keep m c b h2).trans <|
    (Ex4_keep m c b n1).trans <| (En3_keep m c b h1).trans <| (Ex2_keep m c b n0).trans (En1_keep m c b h0)

/-- The run with the result named: the last region's output array ends at what its write-backs leave, and every
    argument array as launched. -/
theorem run_result : θ_run defs (onTc (τ := τ) (main (F := F))) ⟨m, fun _ => 0, ρ⟩ (fun r => ∀ c : Dev nD,
      r.2.mem ((c.tc : Thread nD τ).loc main_v95) = Ex8 m c main_v95
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v95 (by decide)),
     (h c _ (mem_uc main_arg0 (by decide))).trans (Cn8_arg m c main_arg0 (by decide) (by decide) (by decide) (by decide) (by decide) (by decide) (by decide) (by decide)),
     (h c _ (mem_uc main_arg1 (by decide))).trans (Cn8_arg m c main_arg1 (by decide) (by decide) (by decide) (by decide) (by decide) (by decide) (by decide) (by decide)),
     (h c _ (mem_uc main_arg2 (by decide))).trans (Cn8_arg m c main_arg2 (by decide) (by decide) (by decide) (by decide) (by decide) (by decide) (by decide) (by decide)),
     (h c _ (mem_uc main_arg3 (by decide))).trans (Cn8_arg m c main_arg3 (by decide) (by decide) (by decide) (by decide) (by decide) (by decide) (by decide) (by decide)),
     (h c _ (mem_uc main_arg4 (by decide))).trans (Cn8_arg m c main_arg4 (by decide) (by decide) (by decide) (by decide) (by decide) (by decide) (by decide) (by decide)),
     (h c _ (mem_uc main_arg5 (by decide))).trans (Cn8_arg m c main_arg5 (by decide) (by decide) (by decide) (by decide) (by decide) (by decide) (by decide) (by decide)),
     (h c _ (mem_uc main_arg6 (by decide))).trans (Cn8_arg m c main_arg6 (by decide) (by decide) (by decide) (by decide) (by decide) (by decide) (by decide) (by decide)),
     (h c _ (mem_uc main_arg7 (by decide))).trans (Cn8_arg m c main_arg7 (by decide) (by decide) (by decide) (by decide) (by decide) (by decide) (by decide) (by decide)),
     (h c _ (mem_uc main_arg8 (by decide))).trans (Cn8_arg m c main_arg8 (by decide) (by decide) (by decide) (by decide) (by decide) (by decide) (by decide) (by decide)),
     (h c _ (mem_uc main_arg9 (by decide))).trans (Cn8_arg m c main_arg9 (by decide) (by decide) (by decide) (by decide) (by decide) (by decide) (by decide) (by decide)),
     (h c _ (mem_uc main_arg10 (by decide))).trans (Cn8_arg m c main_arg10 (by decide) (by decide) (by decide) (by decide) (by decide) (by decide) (by decide) (by decide))⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_result m ρ)

end Cert.KernelIdeal.Hand

end
-- ==== Proof.RefSide.lean ====
/-
  The reference's side of the value claim, layer by layer. The reference computes, from the projected features `h` of
  one layer: the neighbour sums (the rows of `h` gathered at the edges' sources, weighted by the edge normalisation and
  summed at the edges' destinations), the combine (neighbour sums + `h` times the inverse degree + the bias), the next
  layer's projection (the combine's positive part times the next weights) and, after the last layer, the mean of the
  combined rows of each graph with every row of the result divided by its norm (or by the floor 1e-12). These are stated
  here as functions of `h`, over the reference's own stages of the edge normalisation, and the reference's later stages
  are these functions of its earlier ones.
-/
import proofs.«414150_j66202625901264_3_alg».proof.Proof.Gen.ReferenceIdeal.Run
import proofs.«414150_j66202625901264_3_alg».proof.Proof.Gen.ReferenceIdeal.Read

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-- The neighbour sums of the feature rows `h`: row `src e` of `h` times the edge's normalisation, summed into row `dst e`. -/
def aggR (x1 : (⟨S2x800000, .i32⟩ : BufTy).Contents (Elt F)) (x2 : (⟨S800000, .f32⟩ : BufTy).Contents (Elt F)) (h : (⟨S50000x64, .f32⟩ : BufTy).Contents (Elt F)) : (⟨S50000x64, .f32⟩ : BufTy).Contents (Elt F) :=
  Host.scatterAdd scatter_S50000x64_S800000x1_S800000x64_1_0_0_1 (val_main_v47 (F := F)) (val_main_v48 x1)
    (mulf (Host.gather gather_S50000x64_S800000x1_S800000x64_1_0_n_n_0_1_164 h (val_main_v42 x1)) (val_main_v45 x1 x2))

/-- A layer's combine: the neighbour sums, plus `h` times the inverse degree, plus the bias `b`. -/
def combR (x1 : (⟨S2x800000, .i32⟩ : BufTy).Contents (Elt F)) (x2 : (⟨S800000, .f32⟩ : BufTy).Contents (Elt F)) (h : (⟨S50000x64, .f32⟩ : BufTy).Contents (Elt F)) (b : (⟨S64, .f32⟩ : BufTy).Contents (Elt F)) : (⟨S50000x64, .f32⟩ : BufTy).Contents (Elt F) :=
  addf (addf (aggR x1 x2 h) (mulf h (val_main_v51 x1 x2))) (val_main_v55 b)

/-- A layer: the positive part of the combine, times the next weights `W`. -/
def layerR (x1 : (⟨S2x800000, .i32⟩ : BufTy).Contents (Elt F)) (x2 : (⟨S800000, .f32⟩ : BufTy).Contents (Elt F)) (h : (⟨S50000x64, .f32⟩ : BufTy).Contents (Elt F)) (b : (⟨S64, .f32⟩ : BufTy).Contents (Elt F)) (W : (⟨S64x64, .f32⟩ : BufTy).Contents (Elt F)) : (⟨S50000x64, .f32⟩ : BufTy).Contents (Elt F) :=
  Host.dotGeneral dot_S50000x64_S64x64_S50000x64_1_0_0_1_n_n none (maximumf (combR x1 x2 h b) (val_main_call0_v0 (F := F))) W

/-- The mean of the rows `h3` of each graph: their sum by graph id, over the graph's count (at least one). -/
def pooledR (x3 : (⟨S50000, .i32⟩ : BufTy).Contents (Elt F)) (h3 : (⟨S50000x64, .f32⟩ : BufTy).Contents (Elt F)) : (⟨S64x64, .f32⟩ : BufTy).Contents (Elt F) :=
  Host.divf (Host.scatterAdd scatter_S64x64_S50000x1_S50000x64_1_0_0_1 (val_main_v101 (F := F)) (val_main_v102 x3) h3) (val_main_v111 x3)

/-- The result: every row of the means divided by its norm, or by the floor when the norm is smaller. -/
def tailR (x3 : (⟨S50000, .i32⟩ : BufTy).Contents (Elt F)) (h3 : (⟨S50000x64, .f32⟩ : BufTy).Contents (Elt F)) : (⟨S64x64, .f32⟩ : BufTy).Contents (Elt F) :=
  Host.divf (pooledR x3 h3)
    (broadcastInDim S64x64 ![0, 1] bcast_S64x1_S64x64_0_1
      (maximumf (Host.sqrt (broadcastInDim S64x1 ![0] bcast_S64_S64x1_0
          (Host.reduceAdd (mulf (pooledR x3 h3) (pooledR x3 h3)) (val_main_call2_cst (F := F)) reducesTo_S64x64_S64_d1 h_S_)))
        (val_main_v114 (F := F))))

section
variable (x0 : (⟨S50000, .i32⟩ : BufTy).Contents (Elt F)) (x1 : (⟨S2x800000, .i32⟩ : BufTy).Contents (Elt F)) (x2 : (⟨S800000, .f32⟩ : BufTy).Contents (Elt F)) (x3 : (⟨S50000, .i32⟩ : BufTy).Contents (Elt F))
  (x4 : (⟨S30x64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F))
  (x8 : (⟨S64, .f32⟩ : BufTy).Contents (Elt F)) (x9 : (⟨S64x64, .f32⟩ : BufTy).Contents (Elt F)) (x10 : (⟨S64, .f32⟩ : BufTy).Contents (Elt F))

/-- The second layer's projected features are the layer function of the first's. -/
theorem v58_eq : val_main_v58 x0 x1 x2 x4 x5 x6 x7 = layerR x1 x2 (val_main_v36 x0 x4 x5) x6 x7 := rfl

/-- The third layer's projected features are the layer function of the second's. -/
theorem v80_eq : val_main_v80 x0 x1 x2 x4 x5 x6 x7 x8 x9 = layerR x1 x2 (val_main_v58 x0 x1 x2 x4 x5 x6 x7) x8 x9 := rfl

/-- The result is the tail of the third layer's combine. -/
theorem v117_eq : val_main_v117 x0 x1 x2 x3 x4 x5 x6 x7 x8 x9 x10
    = tailR x3 (combR x1 x2 (val_main_v80 x0 x1 x2 x4 x5 x6 x7 x8 x9) x10) := rfl
end

end Cert.ReferenceIdeal.RefValue

end
-- ==== Proof.Val.Base.lean ====
/-
  The value side's common ground, at the exact extended reals. The arguments of the program as the launch memory holds
  them; the precondition's one fact about the integer inputs that the proof uses (every node label is one of the thirty);
  and what the first stretch of host operations leaves in the buffers every later stretch reads again — the edges'
  sources and destinations, the edge normalisation and the inverse degrees —, each equal to the reference's own stage
  of the same name, since both programs compute them by the same operations from the same arguments.
-/
import proofs.«414150_j66202625901264_3_alg».proof.Proof.KI.Fold
import proofs.«414150_j66202625901264_3_alg».proof.Proof.RefSide
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Val

open Cert.KernelIdeal Cert.KernelIdeal.Gen Cert.KernelIdeal.Hand
open Cert.ReferenceIdeal.Read Cert.ReferenceIdeal.RefValue
open Idealize.ShloMosaic Idealize.ShloMosaic.TcCoe Idealize.ShloMosaic.ValueIdx
open Idealize.SL Idealize.SL.Sem

variable (m : (ℓ : Loc nD τ sig) → Buf (Elt Ideal) ℓ) (c : Dev nD)

/-- An argument of the program, as launched. -/
abbrev ar (r : Ref sig .tc) : Buf (Elt Ideal) ((c.tc : Thread nD τ).loc r) := m ((c.tc : Thread nD τ).loc r)

/-- Every node label is one of the thirty rows of the embedding table. -/
def LabelsInRange : Prop :=
  ∀ i : S50000.Idx, 0 ≤ ((ar m c main_arg0 : IVec S50000 32) i).toInt ∧ ((ar m c main_arg0 : IVec S50000 32) i).toInt < 30

/-- The edges' sources, as the first stretch leaves them: the reference's stage. -/
theorem En1_v1 : En1 m c main_v1 = val_main_v1 (F := Ideal) (ar m c main_arg1) := by
  show StableHlo.after hostOps0 (Cn0 m c) (Proc.devRef .tc main_v1) = _
  after_results_simp
  rfl
/-- The edges' destinations. -/
theorem En1_v3 : En1 m c main_v3 = val_main_v3 (F := Ideal) (ar m c main_arg1) := by
  show StableHlo.after hostOps0 (Cn0 m c) (Proc.devRef .tc main_v3) = _
  after_results_simp
  rfl
/-- The edge normalisation. -/
theorem En1_v26 : En1 m c main_v26 = val_main_v26 (F := Ideal) (ar m c main_arg1) (ar m c main_arg2) := by
  show StableHlo.after hostOps0 (Cn0 m c) (Proc.devRef .tc main_v26) = _
  after_results_simp
  rfl
/-- The inverse degrees, as a column. -/
theorem En1_v29 : En1 m c main_v29 = shapeCast S50000x1 (val_main_v28 (F := Ideal) (ar m c main_arg1) (ar m c main_arg2)) shapeCasts_S50000_S50000x1 := by
  show StableHlo.after hostOps0 (Cn0 m c) (Proc.devRef .tc main_v29) = _
  after_results_simp
  rfl

end Cert.KernelIdeal.Val

end
-- ==== Proof.LibGatherScatter.lean ====
/-
  ROWS READ AND ROWS SUMMED. A host `stablehlo.gather` whose start indices are an [n × 1] column and whose operand's
  leading axis is collapsed and start-indexed reads, at result row `e`, the operand's row named by start index `e` read
  signed and clamped into the operand (`gather_rows` for an [N × D] operand, `gather_row1` for an [N] one). A host float
  `stablehlo.scatter` with an `add` body over the same column of indices, its operand's leading axis inserted, adds to
  operand row `i` every update row whose start index read signed (not clamped) is `i` (`scatterAdd_rows`,
  `scatterAdd_row1`); an update row whose index is negative or past the end lands nowhere.
-/
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-! ## The row a start index names -/

/-- Row `e` of an [n,1] column of start indices, read signed and clamped into [0, N-1]. -/
def clampRow {n w : Nat} (N : Nat) (hN : 0 < N) (idx : IVec ⟨2, ![n, 1]⟩ w) (e : Fin n) : Fin N :=
  ⟨min (idx (ixP e)).toInt.toNat (N - 1), by omega⟩

/-- update row `e` lands on operand row `i`: its start index read SIGNED and NOT clamped is `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

/-- A word that reads signed as `i < N` is not negative and is not clamped. -/
theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

/-! ## Gathers of rows -/

/-- Every element of a one-element list is that element. -/
private theorem getElem_singleton_of_eq {β : Type} {l : List β} {b : β} (h : l = [b]) (k : Nat) (hk : k < l.length) :
    l[k] = b :=
  List.mem_singleton.1 (h ▸ List.getElem_mem hk)

/-- THE ROW TAKE. A `stablehlo.gather` of an [N × D] operand whose start indices are an [n × 1] column of row numbers:
    operand axis 0 collapsed and start-indexed, operand axis 1 whole (slice sizes [1, D]) and read by the result's
    offset axis 1, no batching axes, the index vector on axis 1. Result element (e, j) is the operand's element (r, j),
    r the start index of row `e` read signed and clamped into [0, N − 1]. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  -- the result's batch axes: the one axis that is not the offset axis
  have hbd : d.batchDims = [0] := by
    show Shape.kept _ d.offsetDims = [0]
    rw [hoff]
    show (List.finRange 2).filter (fun a : Fin 2 => a ∉ [(1 : Fin 2)]) = [0]
    decide
  -- axis 0: collapsed and start-indexed, the clamped start alone
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

/-- The library's rank-1 index at coordinate `p` is `ix1 p`. -/
theorem ofFin_eq_ix1 {n : Nat} (p : Fin n) : Shape.Idx.ofFin p = ix1 p := by
  funext a
  match a with
  | ⟨0, _⟩ => rfl

/-- The take over a rank-1 table (the library's `gather_take`), its indices written by coordinates: result position `e`
    reads the table at start index `e` read signed and clamped into [0, N − 1]. -/
theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

/-! ## Scatter-adds of rows -/

/-- An update index lands on operand index `r` exactly when, on every axis, its start plus its window coordinate is
    `r`'s coordinate (so is inside the operand there). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

/-- Rank 2, [n × 1] indices, operand axis 0 inserted and scattered to, update axis 1 the window: update index `u`
    lands on operand element (i, j) exactly when the start index of row `u 0` reads signed as `i` and `u`'s column is `j`. -/
theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  -- the updates' scatter axes: the one axis that is not the window axis
  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]
  -- axis 0: the start is the signed word of row `u 0`, the window coordinate 0
  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]
  -- axis 1: no start, the window coordinate `u`'s column
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

/-- THE ROW SCATTER-ADD. A float `stablehlo.scatter` with an `add` body of [n × D] updates into a [K × D] operand at an
    [n × 1] column of row numbers (operand axis 0 inserted and scattered to, update axis 1 the window, the index vector
    on axis 1): operand element (i, j) gains column `j` of every update row whose start index reads signed as `i`. -/
theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

/-- Rank 1, [n × 1] indices, the operand's one axis inserted and scattered to, no window axes: update index `u` lands on
    operand position `i` exactly when the start index of row `u 0` reads signed as `i`. -/
theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by
  -- the start is the signed word of row `u 0` (the updates' one axis is their scatter axis), the window coordinate 0
  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

/-- THE SCATTER-ADD OF A VECTOR. A float `stablehlo.scatter` with an `add` body of [n] updates into a [K] operand at an
    [n × 1] column of positions (the operand's one axis inserted and scattered to, no window axes, the index vector on
    axis 1): operand position `i` gains every update whose start index reads signed as `i`. -/
theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.Val.L0.lean ====
/-
  Layer 0. The first region multiplies a one-hot encoding of the node labels with the product of the embedding table and
  the first weights; the reference gathers the labelled rows of the table and multiplies them with the first weights.
  For labels in range both are, at node n and column d, the sum over k of table[label n, k] · weights[k, d]: a one-hot
  row selects one summand of the outer sum (0 · y = 0 and 1 · y = y for every extended real y), and a label in range is
  read unclamped.
-/
import proofs.«414150_j66202625901264_3_alg».proof.Proof.Val.Base
import proofs.«414150_j66202625901264_3_alg».proof.Proof.LibGatherScatter
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Val

open Cert.KernelIdeal Cert.KernelIdeal.Gen Cert.KernelIdeal.Hand
open Cert.ReferenceIdeal.Read Cert.ReferenceIdeal.RefValue
open Idealize.ShloMosaic Idealize.ShloMosaic.TcCoe Idealize.ShloMosaic.ValueIdx
open Idealize.SL Idealize.SL.Sem

variable (m : (ℓ : Loc nD τ sig) → Buf (Elt Ideal) ℓ) (c : Dev nD)

namespace Layer0

/-! ## The body's product at an index -/

/-- The product's left operand is read at the output's row and the contraction index, -/
theorem prodLhs_0 (i : S5000x64.Idx) (q : dot_S5000x30_S30x64_S5000x64_1_0_0_1_n_n.contr.Idx) :
    (dot_S5000x30_S30x64_S5000x64_1_0_0_1_n_n.lhsIdx i q 0).val = (i 0).val := by
  unfold DotDims.lhsIdx
  rw [dif_neg (show ¬(0 : Fin S5000x30.rank) ∈ dot_S5000x30_S30x64_S5000x64_1_0_0_1_n_n.lhsBatch by decide), dif_pos (show (0 : Fin S5000x30.rank) ∈ dot_S5000x30_S30x64_S5000x64_1_0_0_1_n_n.lhsNonContracting by decide)]
  rfl
theorem prodLhs_1 (i : S5000x64.Idx) (q : dot_S5000x30_S30x64_S5000x64_1_0_0_1_n_n.contr.Idx) :
    (dot_S5000x30_S30x64_S5000x64_1_0_0_1_n_n.lhsIdx i q 1).val = (q ⟨0, by decide⟩).val :=
  dot_S5000x30_S30x64_S5000x64_1_0_0_1_n_n.lhsIdx_val_of_single rfl i q
/-- and its right operand at the contraction index and the output's column. -/
theorem prodRhs_0 (i : S5000x64.Idx) (q : dot_S5000x30_S30x64_S5000x64_1_0_0_1_n_n.contr.Idx) :
    (dot_S5000x30_S30x64_S5000x64_1_0_0_1_n_n.rhsIdx i q 0).val = (q ⟨0, by decide⟩).val :=
  dot_S5000x30_S30x64_S5000x64_1_0_0_1_n_n.rhsIdx_val_of_single rfl i q
theorem prodRhs_1 (i : S5000x64.Idx) (q : dot_S5000x30_S30x64_S5000x64_1_0_0_1_n_n.contr.Idx) :
    (dot_S5000x30_S30x64_S5000x64_1_0_0_1_n_n.rhsIdx i q 1).val = (i 1).val := by
  unfold DotDims.rhsIdx
  rw [dif_neg (show ¬(1 : Fin S30x64.rank) ∈ dot_S5000x30_S30x64_S5000x64_1_0_0_1_n_n.rhsBatch by decide), dif_pos (show (1 : Fin S30x64.rank) ∈ dot_S5000x30_S30x64_S5000x64_1_0_0_1_n_n.rhsNonContracting by decide)]
  rfl

/-- The body's result at row `p`, column `q` of its block: the sum over the thirty labels of the one-hot row's
    entry times the table's. (A change of float format is the identity at the exact values.) -/
theorem blockProduct_apply (x0 : FVec Ideal S5000x30 .bf16) (x1 : FVec Ideal S30x64 .f32) (p : Fin 5000) (q : Fin 64) :
    k0_pay1 (F := Ideal) x0 x1 (ix2 p q) = ∑ v : Fin 30, x0 (ix2 p v) * x1 (ix2 v q) := by
  unfold k0_pay1
  rw [truncf_apply, shapeCast_self, shapeCast_self]
  simp only [matmul]
  rw [Ideal.matmul_constant_zero_apply, ← Equiv.sum_comp (ValueIdx.contrEquiv1 dot_S5000x30_S30x64_S5000x64_1_0_0_1_n_n 30 rfl rfl).symm]
  refine Finset.sum_congr rfl fun k _ => ?_
  have hk := ValueIdx.contrEquiv1_symm_val dot_S5000x30_S30x64_S5000x64_1_0_0_1_n_n 30 rfl rfl k
  have el : dot_S5000x30_S30x64_S5000x64_1_0_0_1_n_n.lhsIdx (ix2 p q) ((ValueIdx.contrEquiv1 dot_S5000x30_S30x64_S5000x64_1_0_0_1_n_n 30 rfl rfl).symm k) = ix2 p k := funext fun a => Fin.ext (by
    match a with
    | ⟨0, _⟩ => exact prodLhs_0 _ _
    | ⟨1, _⟩ => exact (prodLhs_1 _ _).trans hk)
  have er : dot_S5000x30_S30x64_S5000x64_1_0_0_1_n_n.rhsIdx (ix2 p q) ((ValueIdx.contrEquiv1 dot_S5000x30_S30x64_S5000x64_1_0_0_1_n_n 30 rfl rfl).symm k) = ix2 k q := funext fun a => Fin.ext (by
    match a with
    | ⟨0, _⟩ => exact (prodRhs_0 _ _).trans hk
    | ⟨1, _⟩ => exact prodRhs_1 _ _)
  rw [el, er]
  rfl

/-! ## From blocks to the array -/

theorem origin2 : (![0, 0] : Fin 2 → Nat) = fun _ => 0 := funext fun a => by fin_cases a <;> rfl

/-- A one-hot matrix times a table: at node `n` and column `d`, the sum over the thirty labels `v` of the matrix's
    entry (n, v) times the table's entry (v, d). -/
def onehotTimesTable (A : S50000x30.Idx → EReal) (B : S30x64.Idx → EReal) : S50000x64.Idx → EReal :=
  fun i => ∑ v : Fin 30, A (ix2 (n0 := 50000) ⟨(i 0).val, (i 0).isLt⟩ v) * B (ix2 (n1 := 64) v ⟨(i 1).val, (i 1).isLt⟩)

/-- The grid's point `t` takes block `t` of the one-hot rows and of the output rows, all their columns, and the whole
    table (decided over the ten points). -/
theorem blockIndices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section Blocks

variable (V : (c : Dev nD) → (b : Ref sig .tc) → Buf (Elt Ideal) ((c : Thread nD τ).loc b))

/-- Row `p` of point `t`'s one-hot block is row `5000 t + p` of the one-hot array. -/
theorem onehotBlock_apply (t : Fin cfg0.N) (p : Fin 5000) (v : Fin 30) (k : S50000x30.Idx)
    (hk0 : (k 0).val = t.val * 5000 + p.val) (hk1 : (k 1).val = v.val) :
    (iblk0 V c 0 t : Vec Ideal S5000x30 .bf16) (ix2 p v) = (V c main_v36 : S50000x30.Idx → EReal) k := by
  obtain ⟨e00, e01, e10, e11, e20, e21⟩ := blockIndices t
  unfold iblk0
  rw [View.read_apply]
  show (V c main_v36 : S50000x30.Idx → EReal) _ = V c main_v36 _
  congr 1
  funext a; apply Fin.ext
  match a with
  | ⟨0, _⟩ => show win0_0.index t (0 : Fin 2) * 5000 + 1 * p.val = (k 0).val; omega
  | ⟨1, _⟩ => show win0_0.index t (1 : Fin 2) * 30 + 1 * v.val = (k 1).val; omega

/-- Every point's table block is the whole table. -/
theorem tableBlock_apply (t : Fin cfg0.N) (v : Fin 30) (q : Fin 64) (k : S30x64.Idx)
    (hk0 : (k 0).val = v.val) (hk1 : (k 1).val = q.val) :
    (iblk0 V c 1 t : Vec Ideal S30x64 .f32) (ix2 v q) = (V c main_v37 : S30x64.Idx → EReal) k := by
  obtain ⟨e00, e01, e10, e11, e20, e21⟩ := blockIndices t
  unfold iblk0
  rw [View.read_apply]
  show (V c main_v37 : S30x64.Idx → EReal) _ = V c main_v37 _
  congr 1
  funext a; apply Fin.ext
  match a with
  | ⟨0, _⟩ => show win0_1.index t (0 : Fin 2) * 30 + 1 * v.val = (k 0).val; omega
  | ⟨1, _⟩ => show win0_1.index t (1 : Fin 2) * 64 + 1 * q.val = (k 1).val; omega

/-- What point `t` writes back is block `t` of the one-hot array times the table. -/
theorem writeBack_eq (t : Fin cfg0.N) :
    (dat0 V c).flushed 2 t
      = ((cfg0.win 2).blk t).view.read (Elt Ideal) (onehotTimesTable (V c main_v36) (V c main_v37)) := by
  show (cfg0.win 2).cut (grid0.coords t) ((dat0 V c).after 2 t) = _
  rw [after0_2]
  unfold out0_2
  rw [View.canon_unit_zero origin2]
  simp only [View.ld_unit_zero (S := S5000x30) origin2, View.ld_unit_zero (S := S30x64) origin2]
  obtain ⟨e00, e01, e10, e11, e20, e21⟩ := blockIndices t
  funext j
  obtain ⟨p, q, rfl⟩ : ∃ (p : Fin 5000) (q : Fin 64), j = ix2 p q := ⟨j 0, j 1, eq_ix2 (n0 := 5000) (n1 := 64) j⟩
  show k0_pay1 (F := Ideal) (iblk0 V c 0 t) (iblk0 V c 1 t) (ix2 p q)
    = onehotTimesTable (V c main_v36) (V c main_v37) (((cfg0.win 2).blk t).view.emb (ix2 p q))
  rw [blockProduct_apply]
  unfold onehotTimesTable
  refine Finset.sum_congr rfl fun v _ => ?_
  congr 1
  · refine onehotBlock_apply c V t p v _ ?_ rfl
    show win0_2.index t (0 : Fin 2) * 5000 + 1 * p.val = t.val * 5000 + p.val
    omega
  · refine tableBlock_apply c V t v q _ rfl ?_
    show win0_2.index t (1 : Fin 2) * 64 + 1 * q.val = q.val
    omega

end Blocks

/-- A node's entry is in point `t`'s block when its row is one of the block's 5000. -/
theorem mem_block (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v38).slice (win0_2.rect t)).set ↔ _
  rw [View.set_slice_whole, Rect.mem_set_unit]
  exact Iff.rfl

/-- The ten blocks cover the array: row `r` is in block `r / 5000`. -/
theorem covered (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by omega⟩, rfl⟩
  obtain ⟨-, -, -, -, e20, e21⟩ := blockIndices t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- What region 0 leaves in its output array: the one-hot array times the table, as the region found them. -/
theorem region0_array :
    Ex2 m c main_v38 = onehotTimesTable (En1 m c main_v36) (En1 m c main_v37) :=
  (hF0 m c 2).symm.trans
    ((dat0 (En1 m) c).arrAt_eq_of_cover 2 (onehotTimesTable (En1 m c main_v36) (En1 m c main_v37))
      (fun t _ => writeBack_eq c (En1 m) t) covered)

/-- The one-hot array as region 0 finds it, -/
def onehotArr : S50000x30.Idx → EReal := En1 m c main_v36
/-- and the table. -/
def tableArr : S30x64.Idx → EReal := En1 m c main_v37

/-- What region 0 leaves in its output array: the one-hot array times the table, as the region found them. -/
theorem region0_product : Ex2 m c main_v38 = onehotTimesTable (onehotArr m c) (tableArr m c) :=
  region0_array m c

open Idealize.ShloMosaic.StableHlo.Predicate (ixP ij bcast_rows bcast_cols iota_apply)
open Idealize.ShloMosaic.RowOps

/-! ## Words and bits -/

/-- A 32-bit word that reads signed as a number in [0, 30) reads unsigned as the same number. -/
theorem word_in_range (x : BitVec 32) (h0 : 0 ≤ x.toInt) (h1 : x.toInt < 30) :
    x.toNat < 30 ∧ x.toInt = (x.toNat : Int) := by
  have hlt := x.isLt
  rw [BitVec.toInt_eq_toNat_cond] at h0 h1 ⊢
  split_ifs at h0 h1 ⊢ <;> omega

/-- Such a word equals the word of a label `v` exactly when it reads as `v`. -/
theorem word_eq_label_iff (x : BitVec 32) (v : Fin 30) : x = BitVec.ofNat 32 v.val ↔ x.toNat = v.val := by
  have hv := v.isLt
  constructor
  · intro h
    rw [h, BitVec.toNat_ofNat]
    omega
  · intro h
    apply BitVec.eq_of_toNat_eq
    rw [BitVec.toNat_ofNat, h]
    omega

/-- The bit of an equality test, read as a number at the exact values: one if the words are equal, else zero. -/
theorem eqBit_value (a b : BitVec 32) :
    FloatOps.uitofp (F := Ideal) .bf16 (IntOp.cmpi .eq a b) = if a = b then 1 else 0 := by
  show (((BitVec.ofBool (a == b)).toNat : ℝ) : EReal) = _
  by_cases h : a = b
  · simp [h]
  · simp [h]

/-- A word that does not read negative is not folded. -/
theorem not_negative_bit (x : BitVec 32) (h0 : 0 ≤ x.toInt) : IntOp.cmpi .slt x 0#32 = 0#1 := by
  show BitVec.ofBool (x.slt 0#32) = 0#1
  have : x.slt 0#32 = false := by
    rw [BitVec.slt_eq_decide]
    simp
    exact h0
  rw [this]
  rfl

/-! ## The two arrays the first stretch of host operations leaves for region 0 -/

set_option maxHeartbeats 1000000 in
/-- The table the region multiplies by: the embedding table times the first weights. -/
theorem tableArr_eq : tableArr m c
    = Host.dotGeneral (F := Ideal) (φ₁ := .f32) (φ₂ := .f32) dot_S30x64_S64x64_S30x64_1_0_0_1_n_n none
        (ar m c main_arg4 : FVec Ideal S30x64 .f32) (ar m c main_arg5 : FVec Ideal S64x64 .f32) := by
  show StableHlo.after hostOps0 (Cn0 m c) (Proc.devRef .tc main_v37) = _
  after_results_simp

set_option maxHeartbeats 1000000 in
/-- The one-hot array: the labels laid along the rows compared with the thirty label values laid along the columns,
    each comparison's bit read as a number. -/
theorem onehotArr_eq : onehotArr m c
    = uitofp (F := Ideal) .bf16 (cmpi .eq
        (broadcastInDim S50000x30 ![0, 1] bcast_S50000x1_S50000x30_0_1
          (broadcastInDim S50000x1 ![0] bcast_S50000_S50000x1_0 (ar m c main_arg0 : IVec S50000 32)))
        (broadcastInDim S50000x30 ![0, 1] bcast_S1x30_S50000x30_0_1
          (broadcastInDim S1x30 ![1] bcast_S30_S1x30_1 (iotaInDim S30 32 0)))) := by
  show StableHlo.after hostOps0 (Cn0 m c) (Proc.devRef .tc main_v36) = _
  after_results

/-! ## The table at an index -/

/-- The table product's left operand is read at the output's row and the contraction index, -/
theorem tabLhs_0 (i : S30x64.Idx) (q : dot_S30x64_S64x64_S30x64_1_0_0_1_n_n.contr.Idx) :
    (dot_S30x64_S64x64_S30x64_1_0_0_1_n_n.lhsIdx i q 0).val = (i 0).val := by
  unfold DotDims.lhsIdx
  rw [dif_neg (show ¬(0 : Fin S30x64.rank) ∈ dot_S30x64_S64x64_S30x64_1_0_0_1_n_n.lhsBatch by decide), dif_pos (show (0 : Fin S30x64.rank) ∈ dot_S30x64_S64x64_S30x64_1_0_0_1_n_n.lhsNonContracting by decide)]
  rfl
theorem tabLhs_1 (i : S30x64.Idx) (q : dot_S30x64_S64x64_S30x64_1_0_0_1_n_n.contr.Idx) :
    (dot_S30x64_S64x64_S30x64_1_0_0_1_n_n.lhsIdx i q 1).val = (q ⟨0, by decide⟩).val :=
  dot_S30x64_S64x64_S30x64_1_0_0_1_n_n.lhsIdx_val_of_single rfl i q
/-- and its right operand at the contraction index and the output's column. -/
theorem tabRhs_0 (i : S30x64.Idx) (q : dot_S30x64_S64x64_S30x64_1_0_0_1_n_n.contr.Idx) :
    (dot_S30x64_S64x64_S30x64_1_0_0_1_n_n.rhsIdx i q 0).val = (q ⟨0, by decide⟩).val :=
  dot_S30x64_S64x64_S30x64_1_0_0_1_n_n.rhsIdx_val_of_single rfl i q
theorem tabRhs_1 (i : S30x64.Idx) (q : dot_S30x64_S64x64_S30x64_1_0_0_1_n_n.contr.Idx) :
    (dot_S30x64_S64x64_S30x64_1_0_0_1_n_n.rhsIdx i q 1).val = (i 1).val := by
  unfold DotDims.rhsIdx
  rw [dif_neg (show ¬(1 : Fin S64x64.rank) ∈ dot_S30x64_S64x64_S30x64_1_0_0_1_n_n.rhsBatch by decide), dif_pos (show (1 : Fin S64x64.rank) ∈ dot_S30x64_S64x64_S30x64_1_0_0_1_n_n.rhsNonContracting by decide)]
  rfl

/-- The table at label `v`, column `d`: the sum over `k` of the embedding's entry (v, k) times the weights' (k, d). -/
theorem table_apply (x4 : FVec Ideal S30x64 .f32) (x5 : FVec Ideal S64x64 .f32) (v : Fin 30) (d : Fin 64) :
    Host.dotGeneral (F := Ideal) (φ₁ := .f32) (φ₂ := .f32) dot_S30x64_S64x64_S30x64_1_0_0_1_n_n none x4 x5 (ix2 v d)
      = ∑ k : Fin 64, x4 (ix2 v k) * x5 (ix2 k d) := by
  simp only [Host.dotGeneral]
  rw [Ideal.dotGeneral_apply, ← Equiv.sum_comp (ValueIdx.contrEquiv1 dot_S30x64_S64x64_S30x64_1_0_0_1_n_n 64 rfl rfl).symm]
  refine Finset.sum_congr rfl fun k _ => ?_
  have hk := ValueIdx.contrEquiv1_symm_val dot_S30x64_S64x64_S30x64_1_0_0_1_n_n 64 rfl rfl k
  have el : dot_S30x64_S64x64_S30x64_1_0_0_1_n_n.lhsIdx (ix2 v d) ((ValueIdx.contrEquiv1 dot_S30x64_S64x64_S30x64_1_0_0_1_n_n 64 rfl rfl).symm k) = ix2 v k := funext fun a => Fin.ext (by
    match a with
    | ⟨0, _⟩ => exact tabLhs_0 _ _
    | ⟨1, _⟩ => exact (tabLhs_1 _ _).trans hk)
  have er : dot_S30x64_S64x64_S30x64_1_0_0_1_n_n.rhsIdx (ix2 v d) ((ValueIdx.contrEquiv1 dot_S30x64_S64x64_S30x64_1_0_0_1_n_n 64 rfl rfl).symm k) = ix2 k d := funext fun a => Fin.ext (by
    match a with
    | ⟨0, _⟩ => exact (tabRhs_0 _ _).trans hk
    | ⟨1, _⟩ => exact tabRhs_1 _ _)
  rw [el, er]

/-! ## The reference at an index -/

/-- The reference's start index at a node whose label does not read negative is the label. -/
theorem refStart_lands (x0 : (⟨S50000, .i32⟩ : BufTy).Contents (Elt Ideal)) (n : Fin 50000) (l : Nat)
    (h0 : 0 ≤ (x0 (ix1 n)).toInt) (hl : (x0 (ix1 n)).toInt = (l : Int)) :
    lands (n := 50000) (w := 32) (val_main_v34 (F := Ideal) x0) n l := by
  unfold lands
  have e : idx_main_v34 (ixP n) = ix1 n := funext fun a => by match a with | ⟨0, _⟩ => rfl
  rw [val_main_v34_apply, val_main_v33_apply, val_main_v30_apply, val_main_v29_apply, val_main_c_6_apply, e,
    not_negative_bit _ h0, select_zero]
  exact hl

/-- The reference's gathered row at a node whose start index is label `L`: row `L` of the embedding table. -/
theorem refGather_apply (x0 : (⟨S50000, .i32⟩ : BufTy).Contents (Elt Ideal)) (x4 : (⟨S30x64, .f32⟩ : BufTy).Contents (Elt Ideal))
    (n : Fin 50000) (k : Fin 64) (L : Fin 30) (hL : lands (n := 50000) (w := 32) (val_main_v34 (F := Ideal) x0) n L.val) :
    val_main_v35 (F := Ideal) x0 x4 (ix2 n k) = x4 (ix2 L k) := by
  unfold val_main_v35
  rw [gather_rows Cert.ReferenceIdeal.gather_S30x64_S50000x1_S50000x64_1_0_n_n_0_1_164 rfl rfl rfl rfl rfl rfl x4 _ n k (by decide),
    clampRow_of_lands (by decide) _ n L hL]

/-- The reference's first projected features at node `n`, column `d`, for a node whose start index is label `L`. -/
theorem ref_apply (x0 : (⟨S50000, .i32⟩ : BufTy).Contents (Elt Ideal)) (x4 : (⟨S30x64, .f32⟩ : BufTy).Contents (Elt Ideal))
    (x5 : (⟨S64x64, .f32⟩ : BufTy).Contents (Elt Ideal)) (n : Fin 50000) (d : Fin 64) (L : Fin 30)
    (hL : lands (n := 50000) (w := 32) (val_main_v34 (F := Ideal) x0) n L.val) :
    val_main_v36 (F := Ideal) x0 x4 x5 (ix2 n d) = ∑ k : Fin 64, x4 (ix2 L k) * x5 (ix2 k d) := by
  rw [val_main_v36_apply]
  refine Finset.sum_congr rfl fun k _ => ?_
  have el : lidx_main_v36 (ix2 n d) k = ix2 n k := funext fun a => by match a with | ⟨0, _⟩ => rfl | ⟨1, _⟩ => rfl
  have er : ridx_main_v36 (ix2 n d) k = ix2 k d := funext fun a => by match a with | ⟨0, _⟩ => rfl | ⟨1, _⟩ => rfl
  rw [el, er, refGather_apply x0 x4 n k L hL]

/-! ## The one-hot array at an index, and the layer -/

/-- The one-hot array at node `n`, label `v`: one if the node's label word is `v`'s, else zero. -/
theorem onehot_apply (n : Fin 50000) (v : Fin 30) :
    onehotArr m c (ix2 n v)
      = if (ar m c main_arg0 : IVec S50000 32) (ix1 n) = BitVec.ofNat 32 v.val then 1 else 0 := by
  have h1 : broadcastInDim S50000x30 ![0, 1] bcast_S50000x1_S50000x30_0_1
        (broadcastInDim S50000x1 ![0] bcast_S50000_S50000x1_0 (ar m c main_arg0 : IVec S50000 32)) (ix2 n v)
      = (ar m c main_arg0 : IVec S50000 32) (ix1 n) :=
    (bcast_rows bcast_S50000_S50000x1_0 bcast_S50000x1_S50000x30_0_1 (ar m c main_arg0 : IVec S50000 32) n v).trans
      (congrArg _ (ofFin_eq_ix1 n))
  have h2 : broadcastInDim S50000x30 ![0, 1] bcast_S1x30_S50000x30_0_1
        (broadcastInDim S1x30 ![1] bcast_S30_S1x30_1 (iotaInDim S30 32 0)) (ix2 n v)
      = BitVec.ofNat 32 v.val :=
    (bcast_cols bcast_S30_S1x30_1 bcast_S1x30_S50000x30_0_1 (iotaInDim S30 32 0) n v).trans (iota_apply v)
  rw [onehotArr_eq]
  show FloatOps.uitofp (F := Ideal) .bf16 (IntOp.cmpi .eq
      (broadcastInDim S50000x30 ![0, 1] bcast_S50000x1_S50000x30_0_1
        (broadcastInDim S50000x1 ![0] bcast_S50000_S50000x1_0 (ar m c main_arg0 : IVec S50000 32)) (ix2 n v))
      (broadcastInDim S50000x30 ![0, 1] bcast_S1x30_S50000x30_0_1
        (broadcastInDim S1x30 ![1] bcast_S30_S1x30_1 (iotaInDim S30 32 0)) (ix2 n v))) = _
  rw [h1, h2, eqBit_value]

end Layer0

open Layer0 in
/-- What region 0 leaves in its output array is the reference's first projected features. -/
theorem layer0 (hx : LabelsInRange m c) :
    Ex2 m c main_v38 = val_main_v36 (F := Ideal) (ar m c main_arg0) (ar m c main_arg4) (ar m c main_arg5) := by
  rw [region0_product]
  funext i
  obtain ⟨n, d, rfl⟩ : ∃ (n : Fin 50000) (d : Fin 64), i = ix2 n d := ⟨i 0, i 1, eq_ix2 i⟩
  obtain ⟨hl, hint⟩ := word_in_range _ (hx (ix1 n)).1 (hx (ix1 n)).2
  have hL := refStart_lands (ar m c main_arg0) n _ (hx (ix1 n)).1 hint
  rw [ref_apply (ar m c main_arg0) (ar m c main_arg4) (ar m c main_arg5) n d ⟨_, hl⟩ hL]
  show ∑ v : Fin 30, onehotArr m c (ix2 n v) * tableArr m c (ix2 v d) = _
  rw [Finset.sum_eq_single (⟨_, hl⟩ : Fin 30)]
  · rw [onehot_apply, if_pos ((word_eq_label_iff _ _).2 rfl), one_mul, tableArr_eq, table_apply]
  · intro v _ hv
    rw [onehot_apply, if_neg (fun h => hv (Fin.ext ((word_eq_label_iff _ _).1 h).symm)), zero_mul]
  · intro h; exact absurd (Finset.mem_univ _) h

end Cert.KernelIdeal.Val

end
-- ==== Proof.Val.Agg.lean ====
/-
  The neighbour sums between two regions. Each of the three later stretches of host operations gathers the rows of the
  region before it at the edges' sources (a negative source wrapped once), widens them, weights each by the edge's
  normalisation and sums them at the edges' destinations. The reference does the same to its own features, without the
  widening, which changes nothing at the exact extended reals; the sources, the destinations and the normalisation are
  the ones the first stretch left, untouched since. So what the stretch leaves is the reference's neighbour-sum function
  of what the region before it left.
-/
import proofs.«414150_j66202625901264_3_alg».proof.Proof.Val.Base
import proofs.«414150_j66202625901264_3_alg».proof.Proof.LibGatherScatter
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Val

open Cert.KernelIdeal Cert.KernelIdeal.Gen Cert.KernelIdeal.Hand
open Cert.ReferenceIdeal.Read Cert.ReferenceIdeal.RefValue
open Idealize.ShloMosaic Idealize.ShloMosaic.TcCoe Idealize.ShloMosaic.ValueIdx
open Idealize.SL Idealize.SL.Sem

variable (m : (ℓ : Loc nD τ sig) → Buf (Elt Ideal) ℓ) (c : Dev nD)

/-- After the second stretch: the neighbour sums of what region 0 left. -/
theorem agg1 : En3 m c main_v52 = aggR (F := Ideal) (ar m c main_arg1) (ar m c main_arg2) (Ex2 m c main_v38) := by
  show StableHlo.after hostOps1 (Cn2 m c) (Proc.devRef .tc main_v52) = _
  after_results_simp
  have e1 : Cn2 m c (Proc.devRef .tc main_v1) = val_main_v1 (F := Ideal) (ar m c main_arg1) :=
    (Ex2_keep m c main_v1 (by decide)).trans (En1_v1 m c)
  have e3 : Cn2 m c (Proc.devRef .tc main_v3) = val_main_v3 (F := Ideal) (ar m c main_arg1) :=
    (Ex2_keep m c main_v3 (by decide)).trans (En1_v3 m c)
  have e26 : Cn2 m c (Proc.devRef .tc main_v26) = val_main_v26 (F := Ideal) (ar m c main_arg1) (ar m c main_arg2) :=
    (Ex2_keep m c main_v26 (by decide)).trans (En1_v26 m c)
  rw [e1, e3, e26]
  rfl

/-- After the third stretch: the neighbour sums of what region 1 left. -/
theorem agg2 : En5 m c main_v67 = aggR (F := Ideal) (ar m c main_arg1) (ar m c main_arg2) (Ex4 m c main_v53) := by
  show StableHlo.after hostOps2 (Cn4 m c) (Proc.devRef .tc main_v67) = _
  after_results_simp
  have e1 : Cn4 m c (Proc.devRef .tc main_v1) = val_main_v1 (F := Ideal) (ar m c main_arg1) :=
    (Ex4_keep m c main_v1 (by decide)).trans <| (En3_keep m c main_v1 (by decide)).trans <| (Ex2_keep m c main_v1 (by decide)).trans (En1_v1 m c)
  have e3 : Cn4 m c (Proc.devRef .tc main_v3) = val_main_v3 (F := Ideal) (ar m c main_arg1) :=
    (Ex4_keep m c main_v3 (by decide)).trans <| (En3_keep m c main_v3 (by decide)).trans <| (Ex2_keep m c main_v3 (by decide)).trans (En1_v3 m c)
  have e26 : Cn4 m c (Proc.devRef .tc main_v26) = val_main_v26 (F := Ideal) (ar m c main_arg1) (ar m c main_arg2) :=
    (Ex4_keep m c main_v26 (by decide)).trans <| (En3_keep m c main_v26 (by decide)).trans <| (Ex2_keep m c main_v26 (by decide)).trans (En1_v26 m c)
  rw [e1, e3, e26]
  rfl

/-- After the fourth stretch: the neighbour sums of what region 2 left. -/
theorem agg3 : En7 m c main_v82 = aggR (F := Ideal) (ar m c main_arg1) (ar m c main_arg2) (Ex6 m c main_v68) := by
  show StableHlo.after hostOps3 (Cn6 m c) (Proc.devRef .tc main_v82) = _
  after_results_simp
  have e1 : Cn6 m c (Proc.devRef .tc main_v1) = val_main_v1 (F := Ideal) (ar m c main_arg1) :=
    (Ex6_keep m c main_v1 (by decide)).trans <| (En5_keep m c main_v1 (by decide)).trans <| (Ex4_keep m c main_v1 (by decide)).trans <| (En3_keep m c main_v1 (by decide)).trans <| (Ex2_keep m c main_v1 (by decide)).trans (En1_v1 m c)
  have e3 : Cn6 m c (Proc.devRef .tc main_v3) = val_main_v3 (F := Ideal) (ar m c main_arg1) :=
    (Ex6_keep m c main_v3 (by decide)).trans <| (En5_keep m c main_v3 (by decide)).trans <| (Ex4_keep m c main_v3 (by decide)).trans <| (En3_keep m c main_v3 (by decide)).trans <| (Ex2_keep m c main_v3 (by decide)).trans (En1_v3 m c)
  have e26 : Cn6 m c (Proc.devRef .tc main_v26) = val_main_v26 (F := Ideal) (ar m c main_arg1) (ar m c main_arg2) :=
    (Ex6_keep m c main_v26 (by decide)).trans <| (En5_keep m c main_v26 (by decide)).trans <| (Ex4_keep m c main_v26 (by decide)).trans <| (En3_keep m c main_v26 (by decide)).trans <| (Ex2_keep m c main_v26 (by decide)).trans (En1_v26 m c)
  rw [e1, e3, e26]
  rfl

end Cert.KernelIdeal.Val

end
-- ==== Proof.Val.L1.lean ====
/-
  Layer 1. Between regions 0 and 1 the host gathers the projected features at the edges' sources, weights them and sums
  them at the destinations, exactly as the reference does; region 1 then computes, block of 5000 rows by block, the
  positive part of (neighbour sums + features · inverse degree + bias) times the next weights, which is the reference's
  layer function row by row: a matrix product into a zero accumulator is the host's dot product, a change of float
  format is the identity, and the blocks tile the rows.

  In order: the body's arithmetic at one entry of a block (a sum over the 64 contracted lanes); each window's block as
  rows of its array, and from there what every grid point writes back and the ten blocks' cover of the rows, so that the
  output array ends as one function `layerFn` of the five arrays the region reads; the reference's layer function at
  one entry, the same sum; and the five arrays identified with the reference's (the neighbour sums by the host stretch,
  the others unchanged since the first stretch or since the launch).
-/
import proofs.«414150_j66202625901264_3_alg».proof.Proof.Val.Base
import proofs.«414150_j66202625901264_3_alg».proof.Proof.Val.Agg
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Val.Layer1

open Cert.KernelIdeal Cert.KernelIdeal.Gen Cert.KernelIdeal.Hand
open Cert.ReferenceIdeal.Read Cert.ReferenceIdeal.RefValue
open Idealize.ShloMosaic Idealize.ShloMosaic.TcCoe Idealize.ShloMosaic.ValueIdx
open Idealize.SL Idealize.SL.Sem

/-! ## The body's arithmetic at an index -/

/-- A column spread over the 64 lanes reads the column's row. -/
theorem spreadCol_apply {α : Type} (v : S5000x1.Idx → α) (p : Fin 5000) (k : Fin 64) :
    broadcastTo S5000x64 v broadcasts_S5000x1_S5000x64 (ix2 p k) = v (ix2 p (0 : Fin 1)) :=
  broadcastTo_apply v broadcasts_S5000x1_S5000x64 (ix2 p k) (ix2 p (0 : Fin 1)) fun a => by
    match a with
    | ⟨0, _⟩ => show p.val = if (5000 : Nat) = 1 then 0 else p.val; rw [if_neg (by decide)]
    | ⟨1, _⟩ => show 0 = if (1 : Nat) = 1 then 0 else k.val; rw [if_pos rfl]

/-- A row spread over the 5000 rows reads the row's lane. -/
theorem spreadRow_apply {α : Type} (v : S1x64.Idx → α) (p : Fin 5000) (k : Fin 64) :
    broadcastTo S5000x64 v broadcasts_S1x64_S5000x64 (ix2 p k) = v (ix2 (0 : Fin 1) k) :=
  broadcastTo_apply v broadcasts_S1x64_S5000x64 (ix2 p k) (ix2 (0 : Fin 1) k) fun a => by
    match a with
    | ⟨0, _⟩ => show 0 = if (1 : Nat) = 1 then 0 else p.val; rw [if_pos rfl]
    | ⟨1, _⟩ => show k.val = if (64 : Nat) = 1 then 0 else k.val; rw [if_neg (by decide)]

/-- The bias as a row of one line reads the bias. -/
theorem biasRow_apply {α : Type} (b : S64.Idx → α) (k : Fin 64) :
    shapeCast S1x64 b shapeCasts_S64_S1x64 (ix2 (0 : Fin 1) k) = b (ix1 k) :=
  shapeCast_apply b shapeCasts_S64_S1x64 (ix2 (0 : Fin 1) k) (ix1 k)
    (by rw [Shape.rowMajor_val_one, Shape.rowMajor_val_two]; show k.val = 0 * 64 + k.val; omega)

theorem lhs_k1_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_k1_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_k1_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_k1_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's matrix product into a zero accumulator, at row `p` and lane `q`: the sum over the 64 contracted lanes. -/
theorem product_apply (L : FVec Ideal S5000x64 .bf16) (R : FVec Ideal S64x64 .bf16) (p : Fin 5000) (q : Fin 64) :
    matmul dot_S5000x64_S64x64_S5000x64_1_0_0_1_n_n none L R (constant (F := Ideal) S5000x64 .f32 0x00000000#32) (ix2 p q)
      = ∑ k : Fin 64, L (ix2 p k) * R (ix2 k q) := by
  refine (Ideal.matmul_constant_zero_apply dot_S5000x64_S64x64_S5000x64_1_0_0_1_n_n none L R (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_k1_0 _ _
    | ⟨1, _⟩ => exact (lhs_k1_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_k1_0 _ _).trans hk
    | ⟨1, _⟩ => exact rhs_k1_1 _ _)
  rw [el, er]

/-- One entry of a block's result: over the 64 lanes `k`, the positive part of (neighbour sum + feature · inverse
    degree + bias) at (`p`, `k`), times the weight at (`k`, `q`). -/
def blockAt (x1 : Vec Ideal S5000x64 .bf16) (x0 : Vec Ideal S5000x64 .f32) (x3 : Vec Ideal S5000x1 .f32) (x2 : Vec Ideal S64 .f32)
    (x4 : Vec Ideal S64x64 .f32) (p : Fin 5000) (q : Fin 64) : EReal :=
  ∑ k : Fin 64, max (x0 (ix2 p k) + x1 (ix2 p k) * x3 (ix2 p (0 : Fin 1)) + x2 (ix1 k)) 0 * x4 (ix2 k q)

/-- The body's payload at an entry. -/
theorem pay1_apply (x1 : Vec Ideal S5000x64 .bf16) (x0 : Vec Ideal S5000x64 .f32) (x3 : Vec Ideal S5000x1 .f32) (x2 : Vec Ideal S64 .f32)
    (x4 : Vec Ideal S64x64 .f32) (p : Fin 5000) (q : Fin 64) :
    k1_pay1 (F := Ideal) x1 x0 x3 x2 x4 (ix2 p q) = blockAt x1 x0 x3 x2 x4 p q := by
  unfold k1_pay1 blockAt
  refine (product_apply _ _ p q).trans ?_
  refine Finset.sum_congr rfl fun k _ => ?_
  show max (shapeCast S5000x64 x0 shapeCasts_S5000x64_S5000x64 (ix2 p k)
        + shapeCast S5000x64 x1 shapeCasts_S5000x64_S5000x64 (ix2 p k)
          * broadcastTo S5000x64 (shapeCast S5000x1 x3 shapeCasts_S5000x1_S5000x1) broadcasts_S5000x1_S5000x64 (ix2 p k)
        + broadcastTo S5000x64 (shapeCast S1x64 x2 shapeCasts_S64_S1x64) broadcasts_S1x64_S5000x64 (ix2 p k))
      (Ideal.ofBits .f32 0x00000000#32) * x4 (ix2 k q) = _
  rw [spreadCol_apply, spreadRow_apply, biasRow_apply, shapeCast_self, shapeCast_self, shapeCast_self, Ideal.ofBits_zero_f32]

/-! ## From the blocks to the array -/

/-- One entry of the layer's result over whole arrays: over the 64 lanes `k`, the positive part of (neighbour sum +
    feature · inverse degree + bias) at (`n`, `k`), times the weight at (`k`, `q`). -/
def layerAt (A : Vec Ideal S50000x64 .f32) (H : Vec Ideal S50000x64 .bf16) (D : Vec Ideal S50000x1 .f32) (B : Vec Ideal S64 .f32)
    (W : Vec Ideal S64x64 .f32) (n : Fin 50000) (q : Fin 64) : EReal :=
  ∑ k : Fin 64, max (A (ix2 n k) + H (ix2 n k) * D (ix2 n (0 : Fin 1)) + B (ix1 k)) 0 * W (ix2 k q)

/-- The layer's result as an array, of the neighbour sums `A`, the features `H`, the inverse degrees `D`, the bias `B`
    and the weights `W`. -/
def layerFn (A : Vec Ideal S50000x64 .f32) (H : Vec Ideal S50000x64 .bf16) (D : Vec Ideal S50000x1 .f32) (B : Vec Ideal S64 .f32)
    (W : Vec Ideal S64x64 .f32) : S50000x64.Idx → EReal := fun i =>
  layerAt A H D B W ⟨(i 0).val, (i 0).isLt⟩ ⟨(i 1).val, (i 1).isLt⟩

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the row-blocked windows sit at block `t` of the rows, the bias and the
    weights at their one block. -/
theorem idx_facts1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section Region
variable (V : (c : Dev nD) → (b : Ref sig .tc) → Buf (Elt Ideal) ((c : Thread nD τ).loc b)) (c : Dev nD)

/-- The neighbour sums' block at point `t` is rows `5000 t …` of the array. -/
theorem blk0_apply (t : Fin cfg1.N) (p : Fin 5000) (k : Fin 64) (n : Fin 50000) (hn : n.val = t.val * 5000 + p.val) :
    (iblk1 V c 0 t : Vec Ideal S5000x64 .f32) (ix2 p k) = (V c main_v52 : Vec Ideal S50000x64 .f32) (ix2 n k) := by
  obtain ⟨e0, e1, -⟩ := idx_facts1 t
  unfold iblk1
  rw [View.read_apply]
  show (V c main_v52 : Vec Ideal S50000x64 .f32) (((cfg1.win 0).blk t).view.emb (ix2 p k)) = _
  refine congrArg _ (funext fun a => Fin.ext ?_)
  match a with
  | ⟨0, _⟩ => show win1_0.index t (0 : Fin 2) * 5000 + 1 * p.val = n.val; rw [e0, hn]; omega
  | ⟨1, _⟩ => show win1_0.index t (1 : Fin 2) * 64 + 1 * k.val = k.val; rw [e1]; omega

/-- The features' block at point `t` is rows `5000 t …` of the array. -/
theorem blk1_apply (t : Fin cfg1.N) (p : Fin 5000) (k : Fin 64) (n : Fin 50000) (hn : n.val = t.val * 5000 + p.val) :
    (iblk1 V c 1 t : Vec Ideal S5000x64 .bf16) (ix2 p k) = (V c main_v38 : Vec Ideal S50000x64 .bf16) (ix2 n k) := by
  obtain ⟨-, -, e0, e1, -⟩ := idx_facts1 t
  unfold iblk1
  rw [View.read_apply]
  show (V c main_v38 : Vec Ideal S50000x64 .bf16) (((cfg1.win 1).blk t).view.emb (ix2 p k)) = _
  refine congrArg _ (funext fun a => Fin.ext ?_)
  match a with
  | ⟨0, _⟩ => show win1_1.index t (0 : Fin 2) * 5000 + 1 * p.val = n.val; rw [e0, hn]; omega
  | ⟨1, _⟩ => show win1_1.index t (1 : Fin 2) * 64 + 1 * k.val = k.val; rw [e1]; omega

/-- The bias's block at every point is the bias. -/
theorem blk2_apply (t : Fin cfg1.N) (k : Fin 64) :
    (iblk1 V c 2 t : Vec Ideal S64 .f32) (ix1 k) = (V c main_arg6 : Vec Ideal S64 .f32) (ix1 k) := by
  obtain ⟨-, -, -, -, e0, -⟩ := idx_facts1 t
  unfold iblk1
  rw [View.read_apply]
  show (V c main_arg6 : Vec Ideal S64 .f32) (((cfg1.win 2).blk t).view.emb (ix1 k)) = _
  refine congrArg _ (funext fun a => Fin.ext ?_)
  match a with
  | ⟨0, _⟩ => show win1_2.index t (0 : Fin 1) * 64 + 1 * k.val = k.val; rw [e0]; omega

/-- The inverse degrees' block at point `t` is rows `5000 t …` of the column. -/
theorem blk3_apply (t : Fin cfg1.N) (p : Fin 5000) (n : Fin 50000) (hn : n.val = t.val * 5000 + p.val) :
    (iblk1 V c 3 t : Vec Ideal S5000x1 .f32) (ix2 p (0 : Fin 1)) = (V c main_v29 : Vec Ideal S50000x1 .f32) (ix2 n (0 : Fin 1)) := by
  obtain ⟨-, -, -, -, -, e0, e1, -⟩ := idx_facts1 t
  unfold iblk1
  rw [View.read_apply]
  show (V c main_v29 : Vec Ideal S50000x1 .f32) (((cfg1.win 3).blk t).view.emb (ix2 p (0 : Fin 1))) = _
  refine congrArg _ (funext fun a => Fin.ext ?_)
  match a with
  | ⟨0, _⟩ => show win1_3.index t (0 : Fin 2) * 5000 + 1 * p.val = n.val; rw [e0, hn]; omega
  | ⟨1, _⟩ => show win1_3.index t (1 : Fin 2) * 1 + 1 * 0 = 0; rw [e1]

/-- The weights' block at every point is the weights. -/
theorem blk4_apply (t : Fin cfg1.N) (k q : Fin 64) :
    (iblk1 V c 4 t : Vec Ideal S64x64 .f32) (ix2 k q) = (V c main_arg7 : Vec Ideal S64x64 .f32) (ix2 k q) := by
  obtain ⟨-, -, -, -, -, -, -, e0, e1, -⟩ := idx_facts1 t
  unfold iblk1
  rw [View.read_apply]
  show (V c main_arg7 : Vec Ideal S64x64 .f32) (((cfg1.win 4).blk t).view.emb (ix2 k q)) = _
  refine congrArg _ (funext fun a => Fin.ext ?_)
  match a with
  | ⟨0, _⟩ => show win1_4.index t (0 : Fin 2) * 64 + 1 * k.val = k.val; rw [e0]; omega
  | ⟨1, _⟩ => show win1_4.index t (1 : Fin 2) * 64 + 1 * q.val = q.val; rw [e1]; omega

/-- An entry of the output's block at point `t` sits in the array at row `5000 t +` its row. -/
theorem emb5_eq (t : Fin cfg1.N) (p : Fin 5000) (q : Fin 64) (n : Fin 50000) (hn : n.val = t.val * 5000 + p.val) :
    (((cfg1.win 5).blk t).view.emb (ix2 p q) : S50000x64.Idx) = ix2 n q := by
  obtain ⟨-, -, -, -, -, -, -, -, -, e0, e1⟩ := idx_facts1 t
  refine funext fun a => Fin.ext ?_
  match a with
  | ⟨0, _⟩ => show win1_5.index t (0 : Fin 2) * 5000 + 1 * p.val = n.val; rw [e0, hn]; omega
  | ⟨1, _⟩ => show win1_5.index t (1 : Fin 2) * 64 + 1 * q.val = q.val; rw [e1]; omega

/-- A block's result entry, over the blocks at point `t`, is the layer's entry over the arrays at the block's row. -/
theorem blockAt_eq (t : Fin cfg1.N) (p : Fin 5000) (q : Fin 64) (n : Fin 50000) (hn : n.val = t.val * 5000 + p.val) :
    blockAt (iblk1 V c 1 t) (iblk1 V c 0 t) (iblk1 V c 3 t) (iblk1 V c 2 t) (iblk1 V c 4 t) p q
      = layerAt (V c main_v52) (V c main_v38) (V c main_v29) (V c main_arg6) (V c main_arg7) n q := by
  unfold blockAt layerAt
  refine Finset.sum_congr rfl fun k _ => ?_
  rw [blk0_apply V c t p k n hn, blk1_apply V c t p k n hn, blk2_apply V c t k, blk3_apply V c t p n hn, blk4_apply V c t k q]

/-- What point `t` writes back is block `t` of the layer's array. -/
theorem flushed1_eq (t : Fin cfg1.N) :
    (dat1 V c).flushed 5 t = ((cfg1.win 5).blk t).view.read (Elt Ideal) (layerFn (V c main_v52) (V c main_v38) (V c main_v29) (V c main_arg6) (V c main_arg7)) := by
  show (cfg1.win 5).cut (grid1.coords t) ((dat1 V c).after 5 t) = _
  rw [after1_5]
  unfold out1_5
  rw [View.canon_unit_zero hz2]
  simp only [View.ld_unit_zero (S := S5000x64) hz2, View.ld_unit_zero (S := S5000x1) hz2, View.ld_unit_zero (S := S64x64) hz2,
    View.ld_unit_zero (S := S64) hz1]
  show (k1_pay1 (F := Ideal) (iblk1 V c 1 t) (iblk1 V c 0 t) (iblk1 V c 3 t) (iblk1 V c 2 t) (iblk1 V c 4 t) : S5000x64.Idx → EReal)
      = fun j : S5000x64.Idx => layerFn (V c main_v52) (V c main_v38) (V c main_v29) (V c main_arg6) (V c main_arg7) (((cfg1.win 5).blk t).view.emb j)
  funext j
  obtain ⟨p, q, rfl⟩ : ∃ (p : Fin 5000) (q : Fin 64), j = ix2 p q := ⟨j 0, j 1, eq_ix2 j⟩
  have hN : cfg1.N = 10 := N_1
  have ht : t.val < 10 := hN ▸ t.isLt
  have hn : (⟨t.val * 5000 + p.val, by have := p.isLt; omega⟩ : Fin 50000).val = t.val * 5000 + p.val := rfl
  refine (pay1_apply _ _ _ _ _ p q).trans ?_
  rw [emb5_eq t p q _ hn]
  exact blockAt_eq V c t p q _ hn

/-- An index of the array is in point `t`'s block iff each coordinate is in the block's range on its axis. -/
theorem mem_blk1 (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v53).slice (win1_5.rect t)).set ↔ _
  rw [View.set_slice_whole, Rect.mem_set_unit]
  exact Iff.rfl

/-- The ten blocks tile the rows: row `r` is in block `r / 5000`. -/
theorem cover1 (i : S50000x64.Idx) : ∃ t : Fin cfg1.N, (cfg1.win 5).flush t = true ∧ i ∈ ((cfg1.win 5).blk t).view.set := by
  have hN : cfg1.N = 10 := N_1
  have hi0 : (i 0).val < 50000 := (i 0).isLt
  have hi1 : (i 1).val < 64 := (i 1).isLt
  let t : Fin cfg1.N := ⟨(i 0).val / 5000, by rw [hN]; omega⟩
  obtain ⟨-, -, -, -, -, -, -, -, -, e0, e1⟩ := idx_facts1 t
  have et : t.val = (i 0).val / 5000 := rfl
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; rw [e0, et]; omega
  | ⟨1, _⟩ => show win1_5.index t (1 : Fin 2) * 64 ≤ (i 1).val ∧ (i 1).val < win1_5.index t (1 : Fin 2) * 64 + 64; rw [e1]; omega

/-- So the output's array ends holding the layer's array. -/
theorem final1 : (dat1 V c).arrAt 5 cfg1.N = layerFn (V c main_v52) (V c main_v38) (V c main_v29) (V c main_arg6) (V c main_arg7) :=
  (dat1 V c).arrAt_eq_of_cover 5 (layerFn (V c main_v52) (V c main_v38) (V c main_v29) (V c main_arg6) (V c main_arg7)) (fun t _ => flushed1_eq V c t) cover1

end Region

/-! ## The reference's layer at an index -/

/-- The host's product of a [50000,64] array and the [64,64] weights, at row `n` and lane `q`: the sum over the 64
    contracted lanes. -/
theorem hostProduct_apply (y : FVec Ideal Cert.ReferenceIdeal.S50000x64 .f32)
    (W : FVec Ideal Cert.ReferenceIdeal.S64x64 .f32) (n : Fin 50000) (q : Fin 64) :
    Host.dotGeneral (F := Ideal) Cert.ReferenceIdeal.dot_S50000x64_S64x64_S50000x64_1_0_0_1_n_n none y W (ix2 n q)
      = ∑ k : Fin 64, y (ix2 n k) * W (ix2 k q) := by
  simp only [Host.dotGeneral]
  rw [Ideal.dotGeneral_apply, ← Equiv.sum_comp (ValueIdx.contrEquiv1 Cert.ReferenceIdeal.dot_S50000x64_S64x64_S50000x64_1_0_0_1_n_n 64 rfl rfl).symm]
  refine Finset.sum_congr rfl fun k _ => ?_
  have hk := ValueIdx.contrEquiv1_symm_val Cert.ReferenceIdeal.dot_S50000x64_S64x64_S50000x64_1_0_0_1_n_n 64 rfl rfl k
  have el : Cert.ReferenceIdeal.dot_S50000x64_S64x64_S50000x64_1_0_0_1_n_n.lhsIdx (ix2 n q) ((ValueIdx.contrEquiv1 Cert.ReferenceIdeal.dot_S50000x64_S64x64_S50000x64_1_0_0_1_n_n 64 rfl rfl).symm k) = ix2 n k := funext fun a => Fin.ext (by
    match a with
    | ⟨0, _⟩ => exact lhs_main_v58_0 _ _
    | ⟨1, _⟩ => exact (lhs_main_v58_1 _ _).trans hk)
  have er : Cert.ReferenceIdeal.dot_S50000x64_S64x64_S50000x64_1_0_0_1_n_n.rhsIdx (ix2 n q) ((ValueIdx.contrEquiv1 Cert.ReferenceIdeal.dot_S50000x64_S64x64_S50000x64_1_0_0_1_n_n 64 rfl rfl).symm k) = ix2 k q := funext fun a => Fin.ext (by
    match a with
    | ⟨0, _⟩ => exact (rhs_main_v58_0 _ _).trans hk
    | ⟨1, _⟩ => exact rhs_main_v58_1 _ _)
  rw [el, er]

/-- The reference's inverse degrees, spread over the lanes, read the node's inverse degree. -/
theorem invdegR_apply (x1 : (⟨Cert.ReferenceIdeal.S2x800000, .i32⟩ : BufTy).Contents (Elt Ideal)) (x2 : (⟨Cert.ReferenceIdeal.S800000, .f32⟩ : BufTy).Contents (Elt Ideal))
    (n : Fin 50000) (k : Fin 64) :
    val_main_v51 (F := Ideal) x1 x2 (ix2 n k) = val_main_v28 (F := Ideal) x1 x2 (ix1 n) := by
  rw [val_main_v51_apply, val_main_v50_apply]
  generalize val_main_v28 (F := Ideal) x1 x2 = d
  refine congrArg d (funext fun a => ?_)
  match a with
  | ⟨0, _⟩ => rfl

/-- The reference's bias, spread over the rows, reads the lane's bias. -/
theorem biasR_apply (b : (⟨Cert.ReferenceIdeal.S64, .f32⟩ : BufTy).Contents (Elt Ideal)) (n : Fin 50000) (k : Fin 64) :
    val_main_v55 (F := Ideal) b (ix2 n k) = b (ix1 k) := by
  rw [val_main_v55_apply, val_main_v54_apply]
  refine congrArg b (funext fun a => ?_)
  match a with
  | ⟨0, _⟩ => rfl

/-- The reference's zero array reads zero. -/
theorem zeroR_apply (i : Cert.ReferenceIdeal.S50000x64.Idx) : val_main_call0_v0 (F := Ideal) i = 0 := by
  rw [val_main_call0_v0_apply, val_main_call0_cst_apply]
  exact Ideal.ofBits_zero_f32

/-- The reference's combine and positive part at an index, over any five arrays. -/
theorem comb_at (A h D B Z : FVec Ideal Cert.ReferenceIdeal.S50000x64 .f32) (i : Cert.ReferenceIdeal.S50000x64.Idx) :
    maximumf (addf (addf A (mulf h D)) B) Z i = max (A i + h i * D i + B i) (Z i) := by
  rw [maximumf_apply, addf_apply, addf_apply, mulf_apply]

/-- The reference's layer at an entry: over the 64 lanes `k`, the positive part of (neighbour sum + feature · inverse
    degree + bias) at (`n`, `k`), times the weight at (`k`, `q`). -/
theorem layerR_apply (x1 : (⟨Cert.ReferenceIdeal.S2x800000, .i32⟩ : BufTy).Contents (Elt Ideal)) (x2 : (⟨Cert.ReferenceIdeal.S800000, .f32⟩ : BufTy).Contents (Elt Ideal))
    (h : (⟨Cert.ReferenceIdeal.S50000x64, .f32⟩ : BufTy).Contents (Elt Ideal)) (b : (⟨Cert.ReferenceIdeal.S64, .f32⟩ : BufTy).Contents (Elt Ideal))
    (W : (⟨Cert.ReferenceIdeal.S64x64, .f32⟩ : BufTy).Contents (Elt Ideal)) (n : Fin 50000) (q : Fin 64) :
    layerR (F := Ideal) x1 x2 h b W (ix2 n q)
      = ∑ k : Fin 64, max (aggR (F := Ideal) x1 x2 h (ix2 n k) + h (ix2 n k) * val_main_v28 (F := Ideal) x1 x2 (ix1 n) + b (ix1 k)) 0 * W (ix2 k q) := by
  have e51 : ∀ k : Fin 64, val_main_v51 (F := Ideal) x1 x2 (ix2 n k) = val_main_v28 (F := Ideal) x1 x2 (ix1 n) := invdegR_apply x1 x2 n
  have e55 : ∀ k : Fin 64, val_main_v55 (F := Ideal) b (ix2 n k) = b (ix1 k) := biasR_apply b n
  have e0 : ∀ i, val_main_call0_v0 (F := Ideal) i = 0 := zeroR_apply
  unfold layerR combR
  generalize aggR (F := Ideal) x1 x2 h = A
  generalize val_main_v51 (F := Ideal) x1 x2 = D at e51 ⊢
  generalize val_main_v28 (F := Ideal) x1 x2 = d at e51 ⊢
  generalize val_main_v55 (F := Ideal) b = B at e55 ⊢
  generalize val_main_call0_v0 (F := Ideal) = Z at e0 ⊢
  refine (hostProduct_apply (maximumf (addf (addf A (mulf h D)) B) Z) W n q).trans ?_
  refine Finset.sum_congr rfl fun k _ => ?_
  rw [comb_at A h D B Z (ix2 n k), e51, e55, e0]

/-- Over the reference's own arrays the layer's array is the reference's layer function. -/
theorem layerFn_eq_layerR (x1 : (⟨Cert.ReferenceIdeal.S2x800000, .i32⟩ : BufTy).Contents (Elt Ideal)) (x2 : (⟨Cert.ReferenceIdeal.S800000, .f32⟩ : BufTy).Contents (Elt Ideal))
    (h : (⟨Cert.ReferenceIdeal.S50000x64, .f32⟩ : BufTy).Contents (Elt Ideal)) (b : (⟨Cert.ReferenceIdeal.S64, .f32⟩ : BufTy).Contents (Elt Ideal))
    (W : (⟨Cert.ReferenceIdeal.S64x64, .f32⟩ : BufTy).Contents (Elt Ideal)) :
    layerFn (aggR (F := Ideal) x1 x2 h) h (shapeCast S50000x1 (val_main_v28 (F := Ideal) x1 x2) shapeCasts_S50000_S50000x1) b W
      = layerR (F := Ideal) x1 x2 h b W := by
  funext i
  obtain ⟨n, q, rfl⟩ : ∃ (n : Fin 50000) (q : Fin 64), i = ix2 n q := ⟨i 0, i 1, eq_ix2 i⟩
  rw [layerR_apply]
  generalize aggR (F := Ideal) x1 x2 h = A
  generalize val_main_v28 (F := Ideal) x1 x2 = d
  show layerAt A h (shapeCast S50000x1 d shapeCasts_S50000_S50000x1) b W n q = _
  unfold layerAt
  refine Finset.sum_congr rfl fun k _ => ?_
  rw [shapeCast_apply d shapeCasts_S50000_S50000x1 (ix2 n (0 : Fin 1)) (ix1 n)
    (by rw [Shape.rowMajor_val_one, Shape.rowMajor_val_two]; show n.val = n.val * 1 + 0; omega)]

end Cert.KernelIdeal.Val.Layer1

namespace Cert.KernelIdeal.Val

open Cert.KernelIdeal Cert.KernelIdeal.Gen Cert.KernelIdeal.Hand
open Cert.ReferenceIdeal.Read Cert.ReferenceIdeal.RefValue
open Idealize.ShloMosaic Idealize.ShloMosaic.TcCoe Idealize.ShloMosaic.ValueIdx
open Idealize.SL Idealize.SL.Sem

variable (m : (ℓ : Loc nD τ sig) → Buf (Elt Ideal) ℓ) (c : Dev nD)

/-- What region 1 leaves in its output array is the reference's layer function of what region 0 left. -/
theorem layer1 (h : (⟨Cert.ReferenceIdeal.S50000x64, .f32⟩ : BufTy).Contents (Elt Ideal)) (hprev : Ex2 m c main_v38 = h) :
    Ex4 m c main_v53 = layerR (F := Ideal) (ar m c main_arg1) (ar m c main_arg2) h (ar m c main_arg6) (ar m c main_arg7) := by
  subst hprev
  have hA : En3 m c main_v52 = aggR (F := Ideal) (ar m c main_arg1) (ar m c main_arg2) (Ex2 m c main_v38) := agg1 m c
  have hH : En3 m c main_v38 = Ex2 m c main_v38 := En3_keep m c main_v38 (by decide)
  have hD : En3 m c main_v29 = shapeCast S50000x1 (val_main_v28 (F := Ideal) (ar m c main_arg1) (ar m c main_arg2)) shapeCasts_S50000_S50000x1 :=
    (En3_keep m c main_v29 (by decide)).trans ((Ex2_keep m c main_v29 (by decide)).trans (En1_v29 m c))
  have hB : En3 m c main_arg6 = ar m c main_arg6 :=
    (En3_keep m c main_arg6 (by decide)).trans ((Ex2_keep m c main_arg6 (by decide)).trans (En1_keep m c main_arg6 (by decide)))
  have hW : En3 m c main_arg7 = ar m c main_arg7 :=
    (En3_keep m c main_arg7 (by decide)).trans ((Ex2_keep m c main_arg7 (by decide)).trans (En1_keep m c main_arg7 (by decide)))
  refine ((hF1 m c 5).symm.trans (Layer1.final1 (En3 m) c)).trans ?_
  rw [hA, hH, hD, hB, hW]
  exact Layer1.layerFn_eq_layerR _ _ _ _ _

end Cert.KernelIdeal.Val

end
-- ==== Proof.Val.L2.lean ====
/-
  Layer 2. As layer 1, one layer later: the host's neighbour sums of region 1's output, then region 2's combine and
  projection with the second bias and the third weights. The body's arithmetic at an entry of a block is the sum over the
  64 features of the positive part of (neighbour sum + feature times inverse degree + bias) times a weight; every point's
  block is the restriction of that one function of the five arrays, and the ten row blocks tile the output; the
  reference's layer at an entry is the same sum over the same arrays.
-/
import proofs.«414150_j66202625901264_3_alg».proof.Proof.Val.Base
import proofs.«414150_j66202625901264_3_alg».proof.Proof.Val.Agg
import proofs.«414150_j66202625901264_3_alg».proof.Proof.LibGatherScatter
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Val

open Cert.KernelIdeal Cert.KernelIdeal.Gen Cert.KernelIdeal.Hand
open Cert.ReferenceIdeal.Read Cert.ReferenceIdeal.RefValue
open Idealize.ShloMosaic Idealize.ShloMosaic.TcCoe Idealize.ShloMosaic.ValueIdx
open Idealize.SL Idealize.SL.Sem

variable (m : (ℓ : Loc nD τ sig) → Buf (Elt Ideal) ℓ) (c : Dev nD)

/-! The auxiliary facts of layer 2, in a namespace of their own. -/
namespace Layer2

/-! ## The body's arithmetic at an entry -/

/-- The kernel's contraction, axis by axis: the left operand's row is the output's, its column the summation index; the
    right operand's row is the summation index, its column the output's. -/
theorem lhs_k2_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_k2_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_k2_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_k2_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block product into the zero accumulator, at an entry: the sum over the 64 columns of the left block's row times
    the right block's column. -/
theorem matmul_k2_apply (l : FVec Ideal S5000x64 .bf16) (r : FVec Ideal S64x64 .bf16) (p : Fin 5000) (q : Fin 64) :
    matmul (F := Ideal) dot_S5000x64_S64x64_S5000x64_1_0_0_1_n_n none l r (constant (F := Ideal) S5000x64 .f32 0x00000000#32) (ix2 p q)
      = ∑ k : Fin 64, l (ix2 p k) * r (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_k2_0 _ _
    | ⟨1, _⟩ => exact (lhs_k2_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_k2_0 _ _).trans hk
    | ⟨1, _⟩ => exact rhs_k2_1 _ _)
  rw [el, er]

/-- A column broadcast along the rows: entry (p, c) of the result is the column's entry p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's arithmetic at an entry (p, q) of the block: the sum over the 64 features k of the positive part of
    (neighbour sum + feature times inverse degree + bias) at (p, k), times the weight at (k, q). -/
theorem pay2_apply (xh : Vec Ideal S5000x64 .bf16) (xa : Vec Ideal S5000x64 .f32) (xd : Vec Ideal S5000x1 .f32) (xb : Vec Ideal S64 .f32)
    (xw : Vec Ideal S64x64 .f32) (p : Fin 5000) (q : Fin 64) :
    k2_pay1 (F := Ideal) xh xa xd xb xw (ix2 p q)
      = ∑ k : Fin 64, max (xa (ix2 p k) + xh (ix2 p k) * xd (ix2 p (0 : Fin 1)) + xb (ix1 k)) (Ideal.ofBits .f32 0x00000000#32) * xw (ix2 k q) := by
  have e1 : ∀ k : Fin 64, broadcastTo S5000x64 (shapeCast S5000x1 xd shapeCasts_S5000x1_S5000x1) broadcasts_S5000x1_S5000x64 (ix2 p k) = xd (ix2 p (0 : Fin 1)) := fun k =>
    (broadcastTo_a1_ab_apply _ _ p k).trans (congrFun (shapeCast_self xd _) _)
  have e2 : ∀ k : Fin 64, broadcastTo S5000x64 (shapeCast S1x64 xb shapeCasts_S64_S1x64) broadcasts_S1x64_S5000x64 (ix2 p k) = xb (ix1 k) := fun k =>
    (broadcastTo_1b_ab_apply _ _ p k).trans (shapeCast_a_1a_apply xb _ 0 k)
  unfold k2_pay1
  refine (matmul_k2_apply _ _ p q).trans (Finset.sum_congr rfl fun k _ => ?_)
  show max (shapeCast S5000x64 xa shapeCasts_S5000x64_S5000x64 (ix2 p k) + shapeCast S5000x64 xh shapeCasts_S5000x64_S5000x64 (ix2 p k)
      * broadcastTo S5000x64 (shapeCast S5000x1 xd shapeCasts_S5000x1_S5000x1) broadcasts_S5000x1_S5000x64 (ix2 p k)
      + broadcastTo S5000x64 (shapeCast S1x64 xb shapeCasts_S64_S1x64) broadcasts_S1x64_S5000x64 (ix2 p k)) (Ideal.ofBits .f32 0x00000000#32) * xw (ix2 k q) = _
  rw [e1 k, e2 k, shapeCast_self, shapeCast_self]

/-! ## From the blocks to the array -/

theorem hz2 : (![0, 0] : Fin 2 → Nat) = fun _ => 0 := funext fun a => by fin_cases a <;> rfl
theorem hz1 : (![0] : Fin 1 → Nat) = fun _ => 0 := funext fun a => by fin_cases a <;> rfl

/-- The layer at an entry (n, d), as a function of the five arrays the region reads: the sum over the 64 features k of the
    positive part of (neighbour sum + feature times inverse degree + bias) at (n, k), times the weight at (k, d). -/
abbrev layerG (agg : Vec Ideal S50000x64 .f32) (h : Vec Ideal S50000x64 .bf16) (b : Vec Ideal S64 .f32) (dg : Vec Ideal S50000x1 .f32)
    (W : Vec Ideal S64x64 .f32) : Vec Ideal S50000x64 .bf16 :=
  fun i => ∑ k : Fin 64, max (agg (ix2 (i 0) k) + h (ix2 (i 0) k) * dg (ix2 (i 0) (0 : Fin 1)) + b (ix1 k)) (Ideal.ofBits .f32 0x00000000#32) * W (ix2 k (i 1))

/-- The body's result at entry (p, q) of a block is the layer at the array entry i, when row p of each row block is row
    i 0 of its array, the bias and the weights are read whole, and q is i's column. -/
theorem pay2_block (agg : Vec Ideal S50000x64 .f32) (h : Vec Ideal S50000x64 .bf16) (b : Vec Ideal S64 .f32) (dg : Vec Ideal S50000x1 .f32)
    (W : Vec Ideal S64x64 .f32) (xh : Vec Ideal S5000x64 .bf16) (xa : Vec Ideal S5000x64 .f32) (xd : Vec Ideal S5000x1 .f32) (xb : Vec Ideal S64 .f32)
    (xw : Vec Ideal S64x64 .f32) (p : Fin 5000) (q : Fin 64) (i : S50000x64.Idx)
    (ha : ∀ k : Fin 64, xa (ix2 p k) = agg (ix2 (i 0) k)) (hh : ∀ k : Fin 64, xh (ix2 p k) = h (ix2 (i 0) k))
    (hd : xd (ix2 p (0 : Fin 1)) = dg (ix2 (i 0) (0 : Fin 1))) (hb : ∀ k : Fin 64, xb (ix1 k) = b (ix1 k))
    (hw : ∀ k : Fin 64, xw (ix2 k q) = W (ix2 k (i 1))) :
    k2_pay1 (F := Ideal) xh xa xd xb xw (ix2 p q) = layerG agg h b dg W i := by
  rw [pay2_apply]
  exact Finset.sum_congr rfl fun k _ => by rw [ha k, hh k, hd, hb k, hw k]

/-- The printed index maps over the grid: every row-blocked window is at block row t and block column 0, the bias and the
    weights at block 0. -/
theorem idx_facts2 : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 1) = 0
    ∧ win2_3.index t (0 : Fin 2) = win2_5.index t (0 : Fin 2) ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- Row p of the neighbour sums' block at point t is the row of the array that row p of the output's block is. -/
theorem blk2_agg (t : Fin cfg2.N) (p : Fin 5000) (q k : Fin 64) :
    iblk2 V c 0 t (ix2 p k) = V c main_v67 (ix2 (((cfg2.win 5).blk t).view.emb (ix2 p q) 0) k) := by
  obtain ⟨e00, e01, e10, e11, e20, e30, e31, e40, e41, e50, e51⟩ := idx_facts2 t
  show V c main_v67 (((cfg2.win 0).blk t).view.emb (ix2 p k)) = _
  congr 1; funext a; apply Fin.ext
  match a with
  | ⟨0, _⟩ => show win2_0.index t (0 : Fin 2) * 5000 + 1 * p.val = win2_5.index t (0 : Fin 2) * 5000 + 1 * p.val; omega
  | ⟨1, _⟩ => show win2_0.index t (1 : Fin 2) * 64 + 1 * k.val = k.val; omega
/-- The same for the features' block. -/
theorem blk2_h (t : Fin cfg2.N) (p : Fin 5000) (q k : Fin 64) :
    iblk2 V c 1 t (ix2 p k) = V c main_v53 (ix2 (((cfg2.win 5).blk t).view.emb (ix2 p q) 0) k) := by
  obtain ⟨e00, e01, e10, e11, e20, e30, e31, e40, e41, e50, e51⟩ := idx_facts2 t
  show V c main_v53 (((cfg2.win 1).blk t).view.emb (ix2 p k)) = _
  congr 1; funext a; apply Fin.ext
  match a with
  | ⟨0, _⟩ => show win2_1.index t (0 : Fin 2) * 5000 + 1 * p.val = win2_5.index t (0 : Fin 2) * 5000 + 1 * p.val; omega
  | ⟨1, _⟩ => show win2_1.index t (1 : Fin 2) * 64 + 1 * k.val = k.val; omega
/-- The same for the inverse degrees' block, a column. -/
theorem blk2_deg (t : Fin cfg2.N) (p : Fin 5000) (q : Fin 64) :
    iblk2 V c 3 t (ix2 p (0 : Fin 1)) = V c main_v29 (ix2 (((cfg2.win 5).blk t).view.emb (ix2 p q) 0) (0 : Fin 1)) := by
  obtain ⟨e00, e01, e10, e11, e20, e30, e31, e40, e41, e50, e51⟩ := idx_facts2 t
  show V c main_v29 (((cfg2.win 3).blk t).view.emb (ix2 p (0 : Fin 1))) = _
  congr 1; funext a; apply Fin.ext
  match a with
  | ⟨0, _⟩ => show win2_3.index t (0 : Fin 2) * 5000 + 1 * p.val = win2_5.index t (0 : Fin 2) * 5000 + 1 * p.val; omega
  | ⟨1, _⟩ => show win2_3.index t (1 : Fin 2) * 1 + 1 * 0 = 0; omega
/-- The bias is read whole at every point. -/
theorem blk2_b (t : Fin cfg2.N) (k : Fin 64) : iblk2 V c 2 t (ix1 k) = V c main_arg8 (ix1 k) := by
  obtain ⟨e00, e01, e10, e11, e20, e30, e31, e40, e41, e50, e51⟩ := idx_facts2 t
  show V c main_arg8 (((cfg2.win 2).blk t).view.emb (ix1 k)) = _
  congr 1; funext a; apply Fin.ext
  match a with
  | ⟨0, _⟩ => show win2_2.index t (0 : Fin 1) * 64 + 1 * k.val = k.val; omega
/-- The weights are read whole at every point; the output's block is at block column 0. -/
theorem blk2_W (t : Fin cfg2.N) (p : Fin 5000) (q k : Fin 64) :
    iblk2 V c 4 t (ix2 k q) = V c main_arg9 (ix2 k (((cfg2.win 5).blk t).view.emb (ix2 p q) 1)) := by
  obtain ⟨e00, e01, e10, e11, e20, e30, e31, e40, e41, e50, e51⟩ := idx_facts2 t
  show V c main_arg9 (((cfg2.win 4).blk t).view.emb (ix2 k q)) = _
  congr 1; funext a; apply Fin.ext
  match a with
  | ⟨0, _⟩ => show win2_4.index t (0 : Fin 2) * 64 + 1 * k.val = k.val; omega
  | ⟨1, _⟩ => show win2_4.index t (1 : Fin 2) * 64 + 1 * q.val = win2_5.index t (1 : Fin 2) * 64 + 1 * q.val; omega

/-- What point t writes back is block t of the layer of the five arrays as the region finds them. -/
theorem flushed2 (t : Fin cfg2.N) :
    (dat2 V c).flushed 5 t = ((cfg2.win 5).blk t).view.read (Elt Ideal) (layerG (V c main_v67) (V c main_v53) (V c main_arg8) (V c main_v29) (V c main_arg9)) := by
  show (cfg2.win 5).cut (grid2.coords t) ((dat2 V c).after 5 t) = _
  rw [after2_5]
  unfold out2_5
  rw [View.canon_unit_zero hz2]
  simp only [View.ld_unit_zero (S := S5000x64) hz2, View.ld_unit_zero (S := S5000x1) hz2, View.ld_unit_zero (S := S64x64) hz2, View.ld_unit_zero (S := S64) hz1]
  funext j
  obtain ⟨p, q, rfl⟩ : ∃ (p : Fin 5000) (q : Fin 64), j = ix2 p q := ⟨j 0, j 1, eq_ix2 j⟩
  show k2_pay1 (F := Ideal) (iblk2 V c 1 t) (iblk2 V c 0 t) (iblk2 V c 3 t) (iblk2 V c 2 t) (iblk2 V c 4 t) (ix2 p q)
    = layerG (V c main_v67) (V c main_v53) (V c main_arg8) (V c main_v29) (V c main_arg9) (((cfg2.win 5).blk t).view.emb (ix2 p q))
  exact pay2_block (V c main_v67) (V c main_v53) (V c main_arg8) (V c main_v29) (V c main_arg9)
    (iblk2 V c 1 t) (iblk2 V c 0 t) (iblk2 V c 3 t) (iblk2 V c 2 t) (iblk2 V c 4 t) p q (((cfg2.win 5).blk t).view.emb (ix2 p q))
    (fun k => blk2_agg c V t p q k) (fun k => blk2_h c V t p q k) (blk2_deg c V t p q) (fun k => blk2_b c V t k) (fun k => blk2_W c V t p q k)

/-- An entry of the array is in point t's block iff each coordinate is in the block's range on its axis. -/
theorem mem_blk2 (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v68).slice (win2_5.rect t)).set ↔ _
  rw [View.set_slice_whole, Rect.mem_set_unit]
  exact Iff.rfl

/-- Row r of the array is in the block of point r / 5000, and every point writes its block back. -/
theorem cover2 (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  have hN : cfg2.N = 10 := N_2
  have hlt : (i 0).val / 5000 < cfg2.N := by rw [hN]; omega
  obtain ⟨_, _, _, _, _, _, _, _, _, e50, e51⟩ := idx_facts2 ⟨(i 0).val / 5000, hlt⟩
  have e50' : win2_5.index ⟨(i 0).val / 5000, hlt⟩ (0 : Fin 2) = (i 0).val / 5000 := e50
  refine ⟨⟨(i 0).val / 5000, hlt⟩, flush2_5 _, ?_⟩
  rw [mem_blk2]
  intro a
  match a with
  | ⟨0, _⟩ =>
    show win2_5.index ⟨(i 0).val / 5000, hlt⟩ (0 : Fin 2) * 5000 ≤ (i 0).val ∧ (i 0).val < win2_5.index ⟨(i 0).val / 5000, hlt⟩ (0 : Fin 2) * 5000 + 5000
    omega
  | ⟨1, _⟩ =>
    show win2_5.index ⟨(i 0).val / 5000, hlt⟩ (1 : Fin 2) * 64 ≤ (i 1).val ∧ (i 1).val < win2_5.index ⟨(i 0).val / 5000, hlt⟩ (1 : Fin 2) * 64 + 64
    omega

/-- The output array after region 2: the layer of the five arrays as the region finds them. -/
theorem final2 : (dat2 V c).arrAt 5 cfg2.N = layerG (V c main_v67) (V c main_v53) (V c main_arg8) (V c main_v29) (V c main_arg9) :=
  (dat2 V c).arrAt_eq_of_cover 5 (layerG (V c main_v67) (V c main_v53) (V c main_arg8) (V c main_v29) (V c main_arg9))
    (fun t _ => flushed2 c V t) cover2

/-! ## The reference's layer at an entry -/

/-- The positive part of a combine, entry by entry. -/
theorem relu_comb_apply {s : Shape} (A H D B Z : FVec Ideal s .f32) (j : s.Idx) :
    maximumf (addf (addf A (mulf H D)) B) Z j = max (A j + H j * D j + B j) (Z j) := rfl

/-- The reference's contraction over the features, at an entry (n, d): the sum over k of the left operand at (n, k) times
    the weight at (k, d). -/
theorem dotR_apply (Y : FVec Ideal Cert.ReferenceIdeal.S50000x64 .f32) (W : FVec Ideal Cert.ReferenceIdeal.S64x64 .f32) (n : Fin 50000) (d : Fin 64) :
    Host.dotGeneral (F := Ideal) Cert.ReferenceIdeal.dot_S50000x64_S64x64_S50000x64_1_0_0_1_n_n none Y W (ix2 n d) = ∑ k : Fin 64, Y (ix2 n k) * W (ix2 k d) := by
  simp only [Host.dotGeneral]
  rw [Ideal.dotGeneral_apply, ← Equiv.sum_comp (ValueIdx.contrEquiv1 Cert.ReferenceIdeal.dot_S50000x64_S64x64_S50000x64_1_0_0_1_n_n 64 rfl rfl).symm]
  refine Finset.sum_congr rfl fun k _ => ?_
  have hk := ValueIdx.contrEquiv1_symm_val Cert.ReferenceIdeal.dot_S50000x64_S64x64_S50000x64_1_0_0_1_n_n 64 rfl rfl k
  have el : Cert.ReferenceIdeal.dot_S50000x64_S64x64_S50000x64_1_0_0_1_n_n.lhsIdx (ix2 n d) ((ValueIdx.contrEquiv1 Cert.ReferenceIdeal.dot_S50000x64_S64x64_S50000x64_1_0_0_1_n_n 64 rfl rfl).symm k) = ix2 n k := funext fun a => Fin.ext (by
    match a with
    | ⟨0, _⟩ => exact lhs_main_v58_0 _ _
    | ⟨1, _⟩ => exact (lhs_main_v58_1 _ _).trans hk)
  have er : Cert.ReferenceIdeal.dot_S50000x64_S64x64_S50000x64_1_0_0_1_n_n.rhsIdx (ix2 n d) ((ValueIdx.contrEquiv1 Cert.ReferenceIdeal.dot_S50000x64_S64x64_S50000x64_1_0_0_1_n_n 64 rfl rfl).symm k) = ix2 k d := funext fun a => Fin.ext (by
    match a with
    | ⟨0, _⟩ => exact (rhs_main_v58_0 _ _).trans hk
    | ⟨1, _⟩ => exact rhs_main_v58_1 _ _)
  rw [el, er]

/-- The reference's layer at an entry (n, d): the same sum, over the reference's neighbour sums, with the inverse degree read
    at n and the bias at k. -/
theorem layerR_apply (x1 : (⟨Cert.ReferenceIdeal.S2x800000, .i32⟩ : BufTy).Contents (Elt Ideal)) (x2 : (⟨Cert.ReferenceIdeal.S800000, .f32⟩ : BufTy).Contents (Elt Ideal))
    (h : (⟨Cert.ReferenceIdeal.S50000x64, .f32⟩ : BufTy).Contents (Elt Ideal)) (b : (⟨Cert.ReferenceIdeal.S64, .f32⟩ : BufTy).Contents (Elt Ideal))
    (W : (⟨Cert.ReferenceIdeal.S64x64, .f32⟩ : BufTy).Contents (Elt Ideal)) (n : Fin 50000) (d : Fin 64) :
    layerR (F := Ideal) x1 x2 h b W (ix2 n d)
      = ∑ k : Fin 64, max (aggR (F := Ideal) x1 x2 h (ix2 n k) + h (ix2 n k) * val_main_v28 (F := Ideal) x1 x2 (ix1 n) + b (ix1 k)) (Ideal.ofBits .f32 0x00000000#32) * W (ix2 k d) := by
  unfold layerR combR
  generalize aggR (F := Ideal) x1 x2 h = A
  refine (dotR_apply _ W n d).trans (Finset.sum_congr rfl fun k _ => ?_)
  refine (congrArg (· * W (ix2 k d)) (relu_comb_apply (s := Cert.ReferenceIdeal.S50000x64) A h (val_main_v51 (F := Ideal) x1 x2) (val_main_v55 (F := Ideal) b) (val_main_call0_v0 (F := Ideal)) (ix2 n k))).trans ?_
  have i1 : idx_main_v50 (idx_main_v51 (ix2 n k)) = ix1 n := funext fun a => Fin.ext (by match a with | ⟨0, _⟩ => rfl)
  have i2 : idx_main_v54 (idx_main_v55 (ix2 n k)) = ix1 k := funext fun a => Fin.ext (by match a with | ⟨0, _⟩ => rfl)
  rw [val_main_v51_apply, val_main_v50_apply, val_main_v55_apply, val_main_v54_apply, val_main_call0_v0_apply, val_main_call0_cst_apply, i1, i2]
  rfl

/-! ## The inverse degrees' column -/

/-- A vector cast to a column reads, at (n, 0), the vector at n. -/
theorem col_apply (v : Vec Ideal S50000 .f32) (n : Fin 50000) :
    shapeCast S50000x1 v shapeCasts_S50000_S50000x1 (ix2 n (0 : Fin 1)) = v (ix1 n) :=
  shapeCast_apply v _ _ _ (by
    rw [Shape.rowMajor_val_two, Shape.rowMajor_val_one]
    show n.val = n.val * 1 + 0
    omega)

end Layer2

open Layer2

/-! ## The layer -/

/-- What region 2 leaves in its output array is the reference's layer function of what region 1 left. -/
theorem layer2 (h : (⟨Cert.ReferenceIdeal.S50000x64, .f32⟩ : BufTy).Contents (Elt Ideal)) (hprev : Ex4 m c main_v53 = h) :
    Ex6 m c main_v68 = layerR (F := Ideal) (ar m c main_arg1) (ar m c main_arg2) h (ar m c main_arg8) (ar m c main_arg9) := by
  have hagg : En5 m c main_v67 = aggR (F := Ideal) (ar m c main_arg1) (ar m c main_arg2) h := by rw [← hprev]; exact agg2 m c
  have hh : En5 m c main_v53 = h := (En5_keep m c main_v53 (by decide)).trans hprev
  have hb : En5 m c main_arg8 = ar m c main_arg8 :=
    (En5_keep m c main_arg8 (by decide)).trans ((Ex4_keep m c main_arg8 (by decide)).trans ((En3_keep m c main_arg8 (by decide)).trans
      ((Ex2_keep m c main_arg8 (by decide)).trans (En1_keep m c main_arg8 (by decide)))))
  have hW : En5 m c main_arg9 = ar m c main_arg9 :=
    (En5_keep m c main_arg9 (by decide)).trans ((Ex4_keep m c main_arg9 (by decide)).trans ((En3_keep m c main_arg9 (by decide)).trans
      ((Ex2_keep m c main_arg9 (by decide)).trans (En1_keep m c main_arg9 (by decide)))))
  have hd : En5 m c main_v29 = shapeCast S50000x1 (val_main_v28 (F := Ideal) (ar m c main_arg1) (ar m c main_arg2)) shapeCasts_S50000_S50000x1 :=
    (En5_keep m c main_v29 (by decide)).trans ((Ex4_keep m c main_v29 (by decide)).trans ((En3_keep m c main_v29 (by decide)).trans
      ((Ex2_keep m c main_v29 (by decide)).trans (En1_v29 m c))))
  refine ((hF2 m c 5).symm.trans (final2 c (En5 m))).trans ?_
  rw [hagg, hh, hb, hd, hW]
  funext i
  obtain ⟨n, d, rfl⟩ : ∃ (n : Fin 50000) (d : Fin 64), i = ix2 n d := ⟨i 0, i 1, eq_ix2 i⟩
  rw [layerR_apply]
  refine Finset.sum_congr rfl fun k _ => ?_
  rw [col_apply]

end Cert.KernelIdeal.Val

end
-- ==== Proof.Val.RefApply.lean ====
/-
  The reference's layer functions read at an index, at the exact extended reals. A layer's combine at row `n`, column
  `k` is the neighbour sum there, plus the feature there times the row's inverse degree, plus the column's bias: the two
  broadcasts read their operand at the row, at the column. A layer at row `n`, column `d` is the sum over `k` of the
  combine's positive part at (`n`, `k`) times the weight at (`k`, `d`): the host's dot product contracts the one
  shared axis.
-/
import proofs.«414150_j66202625901264_3_alg».proof.Proof.Val.Base
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Val

open Cert.KernelIdeal Cert.KernelIdeal.Gen Cert.KernelIdeal.Hand
open Cert.ReferenceIdeal.Read Cert.ReferenceIdeal.RefValue
open Idealize.ShloMosaic Idealize.ShloMosaic.TcCoe Idealize.ShloMosaic.ValueIdx
open Idealize.SL Idealize.SL.Sem

variable (m : (ℓ : Loc nD τ sig) → Buf (Elt Ideal) ℓ) (c : Dev nD)

section
variable (x1 : (⟨Cert.ReferenceIdeal.S2x800000, .i32⟩ : BufTy).Contents (Elt Ideal)) (x2 : (⟨Cert.ReferenceIdeal.S800000, .f32⟩ : BufTy).Contents (Elt Ideal))
  (h : (⟨Cert.ReferenceIdeal.S50000x64, .f32⟩ : BufTy).Contents (Elt Ideal)) (b : (⟨Cert.ReferenceIdeal.S64, .f32⟩ : BufTy).Contents (Elt Ideal))
  (W : (⟨Cert.ReferenceIdeal.S64x64, .f32⟩ : BufTy).Contents (Elt Ideal))

/-- The combine at a row and a column. -/
theorem combR_apply (n : Fin 50000) (k : Fin 64) :
    combR (F := Ideal) x1 x2 h b (ix2 n k)
      = aggR (F := Ideal) x1 x2 h (ix2 n k) + h (ix2 n k) * val_main_v28 (F := Ideal) x1 x2 (ix1 n) + b (ix1 k) := by
  unfold combR
  generalize aggR (F := Ideal) x1 x2 h = A
  rw [addf_apply, addf_apply, mulf_apply]
  rw [val_main_v51_apply, val_main_v50_apply, val_main_v55_apply, val_main_v54_apply]
  have e1 : idx_main_v50 (idx_main_v51 (ix2 n k)) = ix1 n := funext fun a => Fin.ext (by match a with | ⟨0, _⟩ => rfl)
  have e2 : idx_main_v54 (idx_main_v55 (ix2 n k)) = ix1 k := funext fun a => Fin.ext (by match a with | ⟨0, _⟩ => rfl)
  rw [e1, e2]

/-- The host's dot product of a 50000 × 64 array with 64 × 64 weights, at an index: the sum over the shared axis. -/
theorem dotR_apply (y0 : FVec Ideal Cert.ReferenceIdeal.S50000x64 .f32) (W' : FVec Ideal Cert.ReferenceIdeal.S64x64 .f32) (i : Cert.ReferenceIdeal.S50000x64.Idx) :
    Host.dotGeneral (F := Ideal) Cert.ReferenceIdeal.dot_S50000x64_S64x64_S50000x64_1_0_0_1_n_n none y0 W' i
      = ∑ k : Fin 64, y0 (lidx_main_v58 i k) * W' (ridx_main_v58 i k) := by
  simp only [Host.dotGeneral]
  rw [Ideal.dotGeneral_apply, ← Equiv.sum_comp (ValueIdx.contrEquiv1 Cert.ReferenceIdeal.dot_S50000x64_S64x64_S50000x64_1_0_0_1_n_n 64 rfl rfl).symm]
  refine Finset.sum_congr rfl fun k _ => ?_
  have hk := ValueIdx.contrEquiv1_symm_val Cert.ReferenceIdeal.dot_S50000x64_S64x64_S50000x64_1_0_0_1_n_n 64 rfl rfl k
  have el : Cert.ReferenceIdeal.dot_S50000x64_S64x64_S50000x64_1_0_0_1_n_n.lhsIdx i ((ValueIdx.contrEquiv1 Cert.ReferenceIdeal.dot_S50000x64_S64x64_S50000x64_1_0_0_1_n_n 64 rfl rfl).symm k) = lidx_main_v58 i k := funext fun a => Fin.ext (by
    match a with
    | ⟨0, _⟩ => exact lhs_main_v58_0 _ _
    | ⟨1, _⟩ => exact (lhs_main_v58_1 _ _).trans hk)
  have er : Cert.ReferenceIdeal.dot_S50000x64_S64x64_S50000x64_1_0_0_1_n_n.rhsIdx i ((ValueIdx.contrEquiv1 Cert.ReferenceIdeal.dot_S50000x64_S64x64_S50000x64_1_0_0_1_n_n 64 rfl rfl).symm k) = ridx_main_v58 i k := funext fun a => Fin.ext (by
    match a with
    | ⟨0, _⟩ => exact (rhs_main_v58_0 _ _).trans hk
    | ⟨1, _⟩ => exact rhs_main_v58_1 _ _)
  rw [el, er]

/-- A layer at a row and a column. -/
theorem layerR_apply (n : Fin 50000) (d : Fin 64) :
    layerR (F := Ideal) x1 x2 h b W (ix2 n d)
      = ∑ k : Fin 64, max (combR (F := Ideal) x1 x2 h b (ix2 n k)) 0 * W (ix2 k d) := by
  unfold layerR
  generalize combR (F := Ideal) x1 x2 h b = C
  refine (dotR_apply _ W (ix2 n d)).trans ?_
  refine Finset.sum_congr rfl fun k _ => ?_
  have el : lidx_main_v58 (ix2 n d) k = ix2 n k := funext fun a => Fin.ext (by
    match a with
    | ⟨0, _⟩ => rfl
    | ⟨1, _⟩ => rfl)
  have er : ridx_main_v58 (ix2 n d) k = ix2 k d := funext fun a => Fin.ext (by
    match a with
    | ⟨0, _⟩ => rfl
    | ⟨1, _⟩ => rfl)
  rw [el, er, maximumf_apply, val_main_call0_v0_apply, val_main_call0_cst_apply, Ideal.ofBits_def, Ideal.ofBits_zero_f32]

end

end Cert.KernelIdeal.Val

end
-- ==== Proof.Val.L3Aux.lean ====
/-
  The last step of the pooling kernel against the reference's last operations, entry by entry. Both take the sums `S` of
  the combined rows of each graph and the graphs' counts `N`, form the means `P(g, d) = S(g, d) / max(N(g), 1)`, and
  divide each row of means by its norm, `P(g, d) / max(sqrt(Σ_k P(g, k)²), 1e-12)`; the kernel reads the counts as a
  column and sums each row by a lane reduction, the reference broadcasts the counts in two steps and sums each row by a
  host reduction from zero. Read at an entry (g, d) both are the same expression in `S` and `N`, which stay opaque.
-/
import proofs.«414150_j66202625901264_3_alg».proof.Proof.Val.Base
import proofs.«414150_j66202625901264_3_alg».proof.Proof.LibGatherScatter
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Val

open Cert.KernelIdeal Cert.KernelIdeal.Gen Cert.KernelIdeal.Hand
open Cert.ReferenceIdeal.Read Cert.ReferenceIdeal.RefValue
open Idealize.ShloMosaic Idealize.ShloMosaic.TcCoe Idealize.ShloMosaic.ValueIdx
open Idealize.SL Idealize.SL.Sem

namespace Tail

/-! ## The layout operations of the tail, read at an index -/

section Layout
variable {α : Type}

/-- A vector of 64 entries cast to a column reads, at row `g`, the vector at `g`. -/
theorem colCast_apply (N : (⟨1, ![64]⟩ : Shape).Idx → α) (h : (⟨1, ![64]⟩ : Shape).ShapeCasts ⟨2, ![64, 1]⟩) (g : Fin 64) (z : Fin 1) :
    shapeCast ⟨2, ![64, 1]⟩ N h (ix2 g z) = N (ix1 g) := by
  refine shapeCast_apply N h (ix2 g z) (ix1 g) ?_
  rewrite [Shape.rowMajor_val_two, Shape.rowMajor_val_one]
  have hz : z.val = 0 := by have := z.isLt; omega
  show g.val = g.val * 1 + z.val
  omega

/-- A column laid along the rows of a square (the kernel's `vector.broadcast`) reads, at (g, d), the column at row `g`. -/
theorem colBroadcastTo_apply (v : (⟨2, ![64, 1]⟩ : Shape).Idx → α) (h : (⟨2, ![64, 1]⟩ : Shape).Broadcasts ⟨2, ![64, 64]⟩) (g d : Fin 64) :
    broadcastTo ⟨2, ![64, 64]⟩ v h (ix2 g d) = v (ix2 g (0 : Fin 1)) := by
  refine broadcastTo_apply v h (ix2 g d) (ix2 g (0 : Fin 1)) (fun a => match a with
    | ⟨0, _⟩ => by show g.val = if (64 : Nat) = 1 then 0 else g.val; rw [if_neg (by decide)]
    | ⟨1, _⟩ => by show 0 = if (1 : Nat) = 1 then 0 else d.val; rw [if_pos rfl])

/-- The same broadcast as the host writes it (`broadcast_in_dim`, dims = [0, 1]). -/
theorem colBroadcastInDim_apply (v : (⟨2, ![64, 1]⟩ : Shape).Idx → α)
    (h : (⟨2, ![64, 1]⟩ : Shape).BroadcastsInDim ⟨2, ![64, 64]⟩ (![0, 1] : Fin 2 → Fin 2)) (g d : Fin 64) :
    broadcastInDim ⟨2, ![64, 64]⟩ ![0, 1] h v (ix2 g d) = v (ix2 g (0 : Fin 1)) := by
  refine broadcastInDim_apply _ h v (ix2 g d) (ix2 g (0 : Fin 1)) (fun a => match a with
    | ⟨0, _⟩ => by show g.val = if (64 : Nat) = 1 then 0 else g.val; rw [if_neg (by decide)]
    | ⟨1, _⟩ => by show 0 = if (1 : Nat) = 1 then 0 else d.val; rw [if_pos rfl])

/-- A vector of 64 entries as a column, as the host writes it (`broadcast_in_dim`, dims = [0]). -/
theorem vecBroadcastInDim_apply (N : (⟨1, ![64]⟩ : Shape).Idx → α)
    (h : (⟨1, ![64]⟩ : Shape).BroadcastsInDim ⟨2, ![64, 1]⟩ (![0] : Fin 1 → Fin 2)) (g : Fin 64) (z : Fin 1) :
    broadcastInDim ⟨2, ![64, 1]⟩ ![0] h N (ix2 g z) = N (ix1 g) := by
  refine broadcastInDim_apply _ h N (ix2 g z) (ix1 g) (fun a => match a with
    | ⟨0, _⟩ => by show g.val = if (64 : Nat) = 1 then 0 else g.val; rw [if_neg (by decide)])

end Layout

/-! ## The two row sums -/

/-- The kernel's lane reduction of a square, at row `g`: the sum over the row. -/
theorem rowSum_kernel (src : FVec Ideal ⟨2, ![64, 64]⟩ .f32) (h : (⟨2, ![64, 64]⟩ : Shape).Reduces [1] ⟨1, ![64]⟩)
    (hφ : FKind.Formats .f32) (hacc : (0x00000000#32 : BitVec 32) = FKind.add.neutral .f32 hφ) (g : Fin 64) :
    multiReduction .add [1] ⟨1, ![64]⟩ src 0x00000000#32 h hφ hacc (ix1 g) = ∑ k : Fin 64, src (ix2 g k) := by
  refine (Ideal.multiReduction_add_single src _ h hφ hacc (ix1 g)).trans ?_
  refine Finset.sum_congr rfl fun k _ => congrArg src (funext fun a => Fin.ext ?_)
  match a with
  | ⟨0, _⟩ => rfl
  | ⟨1, _⟩ => rfl

/-- The host's reduction of a square along its second axis from zero, at row `g`: the sum over the row. -/
theorem rowSum_host (x : FVec Ideal ⟨2, ![64, 64]⟩ .f32) (init : FVec Ideal ⟨0, ![]⟩ .f32)
    (h : (⟨2, ![64, 64]⟩ : Shape).ReducesTo [1] ⟨1, ![64]⟩) (hu : 0 < (⟨0, ![]⟩ : Shape).numel) (g : Fin 64) :
    Host.reduceAdd (F := Ideal) x init h hu (ix1 g) = init (Shape.Idx.first hu) + ∑ k : Fin 64, x (ix2 g k) := by
  simp only [Host.reduceAdd, Ideal.hostReduceAdd_def]
  rw [Ideal.hostReduceAdd_single h (by decide)]
  refine congrArg (_ + ·) (Finset.sum_congr rfl fun k _ => ?_)
  exact congrArg x (funext fun a => Fin.ext (by match a with | ⟨0, _⟩ => rfl | ⟨1, _⟩ => rfl))

/-! ## The tail at an entry -/

/-- The mean of graph `g`'s rows at column `d`, from the sums `S` and the counts `N`: the sum over the count, or over one. -/
def meanAt (S : FVec Ideal ⟨2, ![64, 64]⟩ .f32) (N : FVec Ideal ⟨1, ![64]⟩ .f32) (g d : Fin 64) : Ideal .f32 :=
  Ideal.div (S (ix2 g d)) (max (N (ix1 g)) (Ideal.ofBits .f32 0x3F800000#32))

/-- The normalised mean: the mean over the root of the row's sum of squares, or over the floor. -/
def tailAt (S : FVec Ideal ⟨2, ![64, 64]⟩ .f32) (N : FVec Ideal ⟨1, ![64]⟩ .f32) (g d : Fin 64) : Ideal .f32 :=
  Ideal.div (meanAt S N g d)
    (max (Ideal.sqrt (∑ k : Fin 64, meanAt S N g k * meanAt S N g k)) (Ideal.ofBits .f32 0x2B8CBCCC#32))

/-- A root taken entry by entry. -/
theorem sqrt_at {s : Shape} (v : FVec Ideal s .f32) (i : s.Idx) : sqrt v i = Ideal.sqrt (v i) := rfl

/-- The kernel's last store at an entry: the normalised mean of the accumulated sums over the counts. -/
theorem k3_pay3_apply (S : FVec Ideal ⟨2, ![64, 64]⟩ .f32) (N : FVec Ideal ⟨1, ![64]⟩ .f32) (g d : Fin 64) :
    k3_pay3 (F := Ideal) S (shapeCast S64x1 N shapeCasts_S64_S64x1) (ix2 g d) = tailAt S N g d := by
  unfold k3_pay3
  simp only [divf_apply, mulf_apply, maximumf_apply, broadcast_apply, colBroadcastTo_apply, colCast_apply, shapeCast_self,
    sqrt_at]
  unfold tailAt
  refine congrArg (fun t => Ideal.div (meanAt S N g d) (max (Ideal.sqrt t) (Ideal.ofBits .f32 0x2B8CBCCC#32))) ?_
  refine (rowSum_kernel _ _ _ _ g).trans (Finset.sum_congr rfl fun k _ => ?_)
  simp only [divf_apply, mulf_apply, maximumf_apply, broadcast_apply, colBroadcastTo_apply, colCast_apply]
  rfl

/-- The reference's mean at an entry. -/
theorem pooledR_apply (x3 : (⟨Cert.ReferenceIdeal.S50000, .i32⟩ : BufTy).Contents (Elt Ideal))
    (h3 : (⟨Cert.ReferenceIdeal.S50000x64, .f32⟩ : BufTy).Contents (Elt Ideal)) (g d : Fin 64) :
    pooledR (F := Ideal) x3 h3 (ix2 g d)
      = meanAt (Host.scatterAdd (F := Ideal) Cert.ReferenceIdeal.scatter_S64x64_S50000x1_S50000x64_1_0_0_1 (val_main_v101 (F := Ideal)) (val_main_v102 (F := Ideal) x3) h3)
          (val_main_v107 (F := Ideal) x3) g d := by
  unfold pooledR val_main_v111 val_main_v110 val_main_v109
  generalize Host.scatterAdd (F := Ideal) Cert.ReferenceIdeal.scatter_S64x64_S50000x1_S50000x64_1_0_0_1 (val_main_v101 (F := Ideal)) (val_main_v102 (F := Ideal) x3) h3 = S
  generalize val_main_v107 (F := Ideal) x3 = N
  show Ideal.div (S (ix2 g d)) (broadcastInDim _ _ _ _ (ix2 g d)) = _
  rw [colBroadcastInDim_apply, vecBroadcastInDim_apply]
  show Ideal.div (S (ix2 g d)) (max (N (ix1 g)) (val_main_v108 (F := Ideal) (ix1 g))) = _
  rw [val_main_v108_apply]
  rfl

/-- The reference's result at an entry, from its means `P`. -/
theorem normalise_apply (P : FVec Ideal ⟨2, ![64, 64]⟩ .f32) (g d : Fin 64) :
    Host.divf (F := Ideal) P
      (broadcastInDim Cert.ReferenceIdeal.S64x64 ![0, 1] Cert.ReferenceIdeal.Gen.bcast_S64x1_S64x64_0_1
        (maximumf (Host.sqrt (F := Ideal) (broadcastInDim Cert.ReferenceIdeal.S64x1 ![0] Cert.ReferenceIdeal.Gen.bcast_S64_S64x1_0
            (Host.reduceAdd (F := Ideal) (mulf P P) (val_main_call2_cst (F := Ideal)) Cert.ReferenceIdeal.Gen.reducesTo_S64x64_S64_d1 Cert.ReferenceIdeal.Gen.h_S_)))
          (val_main_v114 (F := Ideal)))) (ix2 g d)
      = Ideal.div (P (ix2 g d)) (max (Ideal.sqrt (∑ k : Fin 64, P (ix2 g k) * P (ix2 g k))) (Ideal.ofBits .f32 0x2B8CBCCC#32)) := by
  show Ideal.div (P (ix2 g d)) (broadcastInDim _ _ _ _ (ix2 g d)) = _
  rw [colBroadcastInDim_apply]
  show Ideal.div (P (ix2 g d)) (max (Ideal.sqrt (broadcastInDim _ _ _ _ (ix2 g (0 : Fin 1)))) (val_main_v114 (F := Ideal) (ix2 g (0 : Fin 1)))) = _
  rw [vecBroadcastInDim_apply, rowSum_host, val_main_v114_apply, val_main_call2_cst_apply]
  show Ideal.div (P (ix2 g d)) (max (Ideal.sqrt (Ideal.ofBits .f32 0x00000000#32 + ∑ k : Fin 64, P (ix2 g k) * P (ix2 g k))) (Ideal.ofBits .f32 0x2B8CBCCC#32)) = _
  rw [Ideal.ofBits_zero_f32, zero_add]

/-- The reference's tail at an entry. -/
theorem tailR_apply (x3 : (⟨Cert.ReferenceIdeal.S50000, .i32⟩ : BufTy).Contents (Elt Ideal))
    (h3 : (⟨Cert.ReferenceIdeal.S50000x64, .f32⟩ : BufTy).Contents (Elt Ideal)) (g d : Fin 64) :
    tailR (F := Ideal) x3 h3 (ix2 g d)
      = tailAt (Host.scatterAdd (F := Ideal) Cert.ReferenceIdeal.scatter_S64x64_S50000x1_S50000x64_1_0_0_1 (val_main_v101 (F := Ideal)) (val_main_v102 (F := Ideal) x3) h3)
          (val_main_v107 (F := Ideal) x3) g d := by
  unfold tailR tailAt
  rw [normalise_apply]
  simp only [pooledR_apply]

end Tail

open Tail in
/-- The last point's store, of the accumulator `A` and the counts `cnt`, is the reference's tail when `A` is the reference's sum of rows by graph and `cnt` its counts as a column. -/
theorem tail_eq (x3 : (⟨Cert.ReferenceIdeal.S50000, .i32⟩ : BufTy).Contents (Elt Ideal))
    (h3 : (⟨Cert.ReferenceIdeal.S50000x64, .f32⟩ : BufTy).Contents (Elt Ideal))
    (A : FVec Ideal S64x64 .f32) (cnt : FVec Ideal S64x1 .f32)
    (hA : A = Host.scatterAdd (F := Ideal) Cert.ReferenceIdeal.scatter_S64x64_S50000x1_S50000x64_1_0_0_1 (val_main_v101 (F := Ideal)) (val_main_v102 (F := Ideal) x3) h3)
    (hcnt : cnt = shapeCast S64x1 (val_main_v107 (F := Ideal) x3) shapeCasts_S64_S64x1) :
    out3_6 (F := Ideal) A cnt = tailR (F := Ideal) x3 h3 := by
  subst hA hcnt
  funext j
  obtain ⟨g, d, rfl⟩ : ∃ (g : Fin 64) (d : Fin 64), j = ix2 g d := ⟨j 0, j 1, eq_ix2 j⟩
  unfold out3_6
  exact (k3_pay3_apply _ _ g d).trans (tailR_apply x3 h3 g d).symm

end Cert.KernelIdeal.Val

end
-- ==== Proof.Val.L3.lean ====
/-
  Layer 3. After the host's neighbour sums of region 2's output, region 3 accumulates over the ten blocks of rows the
  product of the transposed one-hot graph ids with the combined rows, which is the sum of the combined rows of each
  graph — what the reference's scatter-add by graph id computes (an id outside the sixty-four graphs lands nowhere on
  either side) —, then divides by the counts and normalises each row exactly as the reference's last operations do.
-/
import proofs.«414150_j66202625901264_3_alg».proof.Proof.Val.Base
import proofs.«414150_j66202625901264_3_alg».proof.Proof.Val.Agg
import proofs.«414150_j66202625901264_3_alg».proof.Proof.Val.RefApply
import proofs.«414150_j66202625901264_3_alg».proof.Proof.Val.L3Aux
import proofs.«414150_j66202625901264_3_alg».proof.Proof.LibGatherScatter
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Val

open Cert.KernelIdeal Cert.KernelIdeal.Gen Cert.KernelIdeal.Hand
open Cert.ReferenceIdeal.Read Cert.ReferenceIdeal.RefValue
open Idealize.ShloMosaic Idealize.ShloMosaic.TcCoe Idealize.ShloMosaic.ValueIdx
open Idealize.SL Idealize.SL.Sem
open scoped BigOperators

namespace Pool

section Region

variable (V : (c : Dev nD) → (b : Ref sig .tc) → Buf (Elt Ideal) ((c : Thread nD τ).loc b)) (c : Dev nD)

theorem N3 : cfg3.N = 10 := N_3

/-- The counts' window and the output's window sit at block 0 on both axes at every point. -/
theorem idx3_56 : ∀ t : Fin cfg3.N, win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- The counts' window is the whole column at every point. -/
theorem iblk3_5_eq (t : Fin cfg3.N) : iblk3 V c 5 t = (V c main_v94 : S64x1.Idx → EReal) := by
  obtain ⟨e0, e1, -, -⟩ := idx3_56 t
  funext y
  show V c main_v94 (((cfg3.win 5).blk t).view.emb y) = V c main_v94 y
  congr 1
  funext a; apply Fin.ext
  match a with
  | ⟨0, _⟩ => show win3_5.index t (0 : Fin 2) * 64 + 1 * (y 0).val = (y 0).val; omega
  | ⟨1, _⟩ => show win3_5.index t (1 : Fin 2) * 1 + 1 * (y 1).val = (y 1).val; omega

/-- The output's one block is the whole array. -/
theorem emb3_6 (t : Fin cfg3.N) (j : S64x64.Idx) : ((cfg3.win 6).blk t).view.emb j = j := by
  obtain ⟨-, -, e0, e1⟩ := idx3_56 t
  funext a; apply Fin.ext
  match a with
  | ⟨0, _⟩ => show win3_6.index t (0 : Fin 2) * 64 + 1 * (j 0).val = (j 0).val; omega
  | ⟨1, _⟩ => show win3_6.index t (1 : Fin 2) * 64 + 1 * (j 1).val = (j 1).val; omega

theorem mem_blk3_6 (t : Fin cfg3.N) (i : S64x64.Idx) :
    i ∈ ((cfg3.win 6).blk t).view.set ↔ ∀ a : Fin 2, win3_6.index t a * S64x64.size a ≤ (i a).val ∧ (i a).val < win3_6.index t a * S64x64.size a + S64x64.size a := by
  show i ∈ ((View.whole main_v95).slice (win3_6.rect t)).set ↔ _
  rw [View.set_slice_whole, Rect.mem_set_unit]
  exact Iff.rfl

/-- The output array after the region: the last point's store, the one write-back, covers it whole. -/
theorem arr3_6 (h9 : 9 < cfg3.N) :
    (dat3 V c).arrAt 6 cfg3.N = out3_6 (acc3 V c 9 h9) (V c main_v94) := by
  refine (dat3 V c).arrAt_eq_of_cover 6 _ (fun t hf => ?_) (fun i => ?_)
  · have ht : t.val = 9 := by
      have h1 := (flush3_6 t).mp hf
      have h2 : t.val < 10 := N3 ▸ t.isLt
      omega
    show (cfg3.win 6).cut (grid3.coords t) ((dat3 V c).after 6 t) = _
    rw [after3_6, iblk3_5_eq]
    obtain ⟨tv, htv⟩ := t
    subst ht
    funext j
    show out3_6 (acc3 V c 9 htv) (V c main_v94) j = out3_6 (acc3 V c 9 h9) (V c main_v94) (((cfg3.win 6).blk ⟨9, htv⟩).view.emb j)
    rw [emb3_6]
  · refine ⟨⟨9, h9⟩, (flush3_6 ⟨9, h9⟩).mpr (show 9 % 10 = 9 from rfl), ?_⟩
    rw [mem_blk3_6]
    obtain ⟨-, -, e0, e1⟩ := idx3_56 ⟨9, h9⟩
    intro a
    match a with
    | ⟨0, _⟩ => show win3_6.index ⟨9, h9⟩ (0 : Fin 2) * 64 ≤ (i 0).val ∧ (i 0).val < win3_6.index ⟨9, h9⟩ (0 : Fin 2) * 64 + 64; have := (i 0).isLt; have : (i 0).val < 64 := this; omega
    | ⟨1, _⟩ => show win3_6.index ⟨9, h9⟩ (1 : Fin 2) * 64 ≤ (i 1).val ∧ (i 1).val < win3_6.index ⟨9, h9⟩ (1 : Fin 2) * 64 + 64; have := (i 1).isLt; have : (i 1).val < 64 := this; omega

/-! ## One point's update of the accumulator, at an index -/

theorem lhs_pool_0 (j : S64x64.Idx) (q : dot_S5000x64_S5000x64_S64x64_0_0_1_1_n_n.contr.Idx) :
    (dot_S5000x64_S5000x64_S64x64_0_0_1_1_n_n.lhsIdx j q 0).val = (q ⟨0, by decide⟩).val :=
  dot_S5000x64_S5000x64_S64x64_0_0_1_1_n_n.lhsIdx_val_of_single rfl j q
theorem lhs_pool_1 (j : S64x64.Idx) (q : dot_S5000x64_S5000x64_S64x64_0_0_1_1_n_n.contr.Idx) :
    (dot_S5000x64_S5000x64_S64x64_0_0_1_1_n_n.lhsIdx j q 1).val = (j 0).val := by
  unfold DotDims.lhsIdx
  rw [dif_neg (show ¬(1 : Fin S5000x64.rank) ∈ dot_S5000x64_S5000x64_S64x64_0_0_1_1_n_n.lhsBatch by decide), dif_pos (show (1 : Fin S5000x64.rank) ∈ dot_S5000x64_S5000x64_S64x64_0_0_1_1_n_n.lhsNonContracting by decide)]
  rfl
theorem rhs_pool_0 (j : S64x64.Idx) (q : dot_S5000x64_S5000x64_S64x64_0_0_1_1_n_n.contr.Idx) :
    (dot_S5000x64_S5000x64_S64x64_0_0_1_1_n_n.rhsIdx j q 0).val = (q ⟨0, by decide⟩).val :=
  dot_S5000x64_S5000x64_S64x64_0_0_1_1_n_n.rhsIdx_val_of_single rfl j q
theorem rhs_pool_1 (j : S64x64.Idx) (q : dot_S5000x64_S5000x64_S64x64_0_0_1_1_n_n.contr.Idx) :
    (dot_S5000x64_S5000x64_S64x64_0_0_1_1_n_n.rhsIdx j q 1).val = (j 1).val := by
  unfold DotDims.rhsIdx
  rw [dif_neg (show ¬(1 : Fin S5000x64.rank) ∈ dot_S5000x64_S5000x64_S64x64_0_0_1_1_n_n.rhsBatch by decide), dif_pos (show (1 : Fin S5000x64.rank) ∈ dot_S5000x64_S5000x64_S64x64_0_0_1_1_n_n.rhsNonContracting by decide)]
  rfl

/-- The product of the transposed one-hot block with a block of rows, at graph `g` and feature `d`. -/
theorem pool_matmul_apply (l r : FVec Ideal S5000x64 .f32) (g d : Fin 64) :
    matmul (F := Ideal) dot_S5000x64_S5000x64_S64x64_0_0_1_1_n_n (some .fp32) l r (constant (F := Ideal) S64x64 .f32 0x00000000#32) (ix2 g d)
      = ∑ i : Fin 5000, l (ix2 i g) * r (ix2 i d) := by
  refine (Ideal.matmul_constant_zero_apply dot_S5000x64_S5000x64_S64x64_0_0_1_1_n_n (some .fp32) l r (ix2 g d)).trans ?_
  rw [← Equiv.sum_comp (ValueIdx.contrEquiv1 dot_S5000x64_S5000x64_S64x64_0_0_1_1_n_n 5000 rfl rfl).symm]
  refine Finset.sum_congr rfl fun k _ => ?_
  have hk := ValueIdx.contrEquiv1_symm_val dot_S5000x64_S5000x64_S64x64_0_0_1_1_n_n 5000 rfl rfl k
  have el : dot_S5000x64_S5000x64_S64x64_0_0_1_1_n_n.lhsIdx (ix2 g d) ((ValueIdx.contrEquiv1 dot_S5000x64_S5000x64_S64x64_0_0_1_1_n_n 5000 rfl rfl).symm k) = ix2 k g := funext fun a => Fin.ext (by
    match a with
    | ⟨0, _⟩ => exact (lhs_pool_0 _ _).trans hk
    | ⟨1, _⟩ => exact lhs_pool_1 _ _)
  have er : dot_S5000x64_S5000x64_S64x64_0_0_1_1_n_n.rhsIdx (ix2 g d) ((ValueIdx.contrEquiv1 dot_S5000x64_S5000x64_S64x64_0_0_1_1_n_n 5000 rfl rfl).symm k) = ix2 k d := funext fun a => Fin.ext (by
    match a with
    | ⟨0, _⟩ => exact (rhs_pool_0 _ _).trans hk
    | ⟨1, _⟩ => exact rhs_pool_1 _ _)
  rw [el, er]

/-- A block of combined rows at a row and a feature: neighbour sum + feature times inverse degree + bias. -/
theorem comb_blk_apply (x0 : FVec Ideal S5000x64 .f32) (x1 : FVec Ideal S5000x64 .bf16) (x2 : FVec Ideal S64 .f32) (x3 : FVec Ideal S5000x1 .f32)
    (i : Fin 5000) (d : Fin 64) :
    addf (addf x0 (mulf (extf .f32 x1 bitsLt_bf16_f32) (broadcastTo S5000x64 x3 broadcasts_S5000x1_S5000x64)))
        (broadcastTo S5000x64 (shapeCast S1x64 x2 shapeCasts_S64_S1x64) broadcasts_S1x64_S5000x64) (ix2 i d)
      = x0 (ix2 i d) + x1 (ix2 i d) * x3 (ix2 i 0) + x2 (ix1 d) := by
  have e1 : broadcastTo S5000x64 x3 broadcasts_S5000x1_S5000x64 (ix2 i d) = x3 (ix2 i 0) :=
    broadcastTo_apply x3 broadcasts_S5000x1_S5000x64 (ix2 i d) (ix2 i 0) (fun a => by
      match a with
      | ⟨0, _⟩ => show i.val = if (5000 : Nat) = 1 then 0 else i.val; rw [if_neg (by decide)]
      | ⟨1, _⟩ => show 0 = if (1 : Nat) = 1 then 0 else d.val; rw [if_pos rfl])
  have e2 : broadcastTo S5000x64 (shapeCast S1x64 x2 shapeCasts_S64_S1x64) broadcasts_S1x64_S5000x64 (ix2 i d) = x2 (ix1 d) := by
    refine (broadcastTo_apply (shapeCast S1x64 x2 shapeCasts_S64_S1x64) broadcasts_S1x64_S5000x64 (ix2 i d) (ix2 (0 : Fin 1) d) (fun a => by
      match a with
      | ⟨0, _⟩ => show 0 = if (1 : Nat) = 1 then 0 else i.val; rw [if_pos rfl]
      | ⟨1, _⟩ => show d.val = if (64 : Nat) = 1 then 0 else d.val; rw [if_neg (by decide)])).trans ?_
    refine shapeCast_apply x2 shapeCasts_S64_S1x64 (ix2 (0 : Fin 1) d) (ix1 d) ?_
    rw [Shape.rowMajor_val_one, Shape.rowMajor_val_two]
    show d.val = 0 * 64 + d.val
    omega
  show x0 (ix2 i d) + x1 (ix2 i d) * broadcastTo S5000x64 x3 broadcasts_S5000x1_S5000x64 (ix2 i d)
      + broadcastTo S5000x64 (shapeCast S1x64 x2 shapeCasts_S64_S1x64) broadcasts_S1x64_S5000x64 (ix2 i d) = _
  rw [e1, e2]

/-- One point's update at graph `g` and feature `d`: the accumulator plus, over the block's rows, the one-hot entry
    times the combined row. -/
theorem step3_apply (x0 : FVec Ideal S5000x64 .f32) (x1 : FVec Ideal S5000x64 .bf16) (x2 : FVec Ideal S64 .f32) (x3 : FVec Ideal S5000x1 .f32)
    (x4 : FVec Ideal S5000x64 .bf16) (a : FVec Ideal S64x64 .f32) (g d : Fin 64) :
    step3 (F := Ideal) x0 x1 x2 x3 x4 a (ix2 g d)
      = a (ix2 g d) + ∑ i : Fin 5000, x4 (ix2 i g) * (x0 (ix2 i d) + x1 (ix2 i d) * x3 (ix2 i 0) + x2 (ix1 d)) := by
  unfold step3 k3_pay2
  simp only [shapeCast_self]
  show a (ix2 g d) + matmul (F := Ideal) dot_S5000x64_S5000x64_S64x64_0_0_1_1_n_n (some .fp32) (extf .f32 x4 bitsLt_bf16_f32) _ (constant (F := Ideal) S64x64 .f32 0x00000000#32) (ix2 g d) = _
  refine congrArg (a (ix2 g d) + ·) ?_
  refine (pool_matmul_apply _ _ g d).trans ?_
  refine Finset.sum_congr rfl fun i _ => ?_
  refine congrArg (x4 (ix2 i g) * ·) ?_
  exact comb_blk_apply x0 x1 x2 x3 i d

/-! ## The accumulator after every point: the sum over the rows met so far -/

/-- The arrays the region reads, at their literal types. -/
abbrev aggArr : FVec Ideal S50000x64 .f32 := V c main_v82
abbrev featArr : FVec Ideal S50000x64 .bf16 := V c main_v68
abbrev biasArr : FVec Ideal S64 .f32 := V c main_arg10
abbrev invArr : FVec Ideal S50000x1 .f32 := V c main_v29
abbrev hotArr : FVec Ideal S50000x64 .bf16 := V c main_v89
/-- and their blocks at a point. -/
abbrev aggBlk (t : Fin cfg3.N) : FVec Ideal S5000x64 .f32 := iblk3 V c 0 t
abbrev featBlk (t : Fin cfg3.N) : FVec Ideal S5000x64 .bf16 := iblk3 V c 1 t
abbrev biasBlk (t : Fin cfg3.N) : FVec Ideal S64 .f32 := iblk3 V c 2 t
abbrev invBlk (t : Fin cfg3.N) : FVec Ideal S5000x1 .f32 := iblk3 V c 3 t
abbrev hotBlk (t : Fin cfg3.N) : FVec Ideal S5000x64 .bf16 := iblk3 V c 4 t

/-- The row blocks sit at block `t` on the row axis and block 0 on the other; the bias is whole at every point. -/
theorem idx3_in : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 1) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

theorem row_lt (t : Fin cfg3.N) (i : Fin 5000) : 5000 * t.val + i.val < 50000 := by
  have h2 : t.val < 10 := N3 ▸ t.isLt
  have := i.isLt
  omega

theorem aggBlk_apply (t : Fin cfg3.N) (i : Fin 5000) (d : Fin 64) :
    aggBlk V c t (ix2 i d) = aggArr V c (ix2 ⟨5000 * t.val + i.val, row_lt t i⟩ d) := by
  obtain ⟨e0, e1, -⟩ := idx3_in t
  show V c main_v82 (((cfg3.win 0).blk t).view.emb (ix2 i d)) = V c main_v82 (ix2 ⟨5000 * t.val + i.val, row_lt t i⟩ d)
  congr 1
  funext a; apply Fin.ext
  match a with
  | ⟨0, _⟩ => show win3_0.index t (0 : Fin 2) * 5000 + 1 * i.val = 5000 * t.val + i.val; omega
  | ⟨1, _⟩ => show win3_0.index t (1 : Fin 2) * 64 + 1 * d.val = d.val; omega

theorem featBlk_apply (t : Fin cfg3.N) (i : Fin 5000) (d : Fin 64) :
    featBlk V c t (ix2 i d) = featArr V c (ix2 ⟨5000 * t.val + i.val, row_lt t i⟩ d) := by
  obtain ⟨-, -, e0, e1, -⟩ := idx3_in t
  show V c main_v68 (((cfg3.win 1).blk t).view.emb (ix2 i d)) = V c main_v68 (ix2 ⟨5000 * t.val + i.val, row_lt t i⟩ d)
  congr 1
  funext a; apply Fin.ext
  match a with
  | ⟨0, _⟩ => show win3_1.index t (0 : Fin 2) * 5000 + 1 * i.val = 5000 * t.val + i.val; omega
  | ⟨1, _⟩ => show win3_1.index t (1 : Fin 2) * 64 + 1 * d.val = d.val; omega

theorem biasBlk_apply (t : Fin cfg3.N) (d : Fin 64) :
    biasBlk V c t (ix1 d) = biasArr V c (ix1 d) := by
  obtain ⟨-, -, -, -, e0, -⟩ := idx3_in t
  show V c main_arg10 (((cfg3.win 2).blk t).view.emb (ix1 d)) = V c main_arg10 (ix1 d)
  congr 1
  funext a; apply Fin.ext
  match a with
  | ⟨0, _⟩ => show win3_2.index t (0 : Fin 1) * 64 + 1 * d.val = d.val; omega

theorem invBlk_apply (t : Fin cfg3.N) (i : Fin 5000) :
    invBlk V c t (ix2 i 0) = invArr V c (ix2 ⟨5000 * t.val + i.val, row_lt t i⟩ 0) := by
  obtain ⟨-, -, -, -, -, e0, e1, -⟩ := idx3_in t
  show V c main_v29 (((cfg3.win 3).blk t).view.emb (ix2 i 0)) = V c main_v29 (ix2 ⟨5000 * t.val + i.val, row_lt t i⟩ 0)
  congr 1
  funext a; apply Fin.ext
  match a with
  | ⟨0, _⟩ => show win3_3.index t (0 : Fin 2) * 5000 + 1 * i.val = 5000 * t.val + i.val; omega
  | ⟨1, _⟩ => show win3_3.index t (1 : Fin 2) * 1 + 1 * 0 = 0; omega

theorem hotBlk_apply (t : Fin cfg3.N) (i : Fin 5000) (g : Fin 64) :
    hotBlk V c t (ix2 i g) = hotArr V c (ix2 ⟨5000 * t.val + i.val, row_lt t i⟩ g) := by
  obtain ⟨-, -, -, -, -, -, -, e0, e1⟩ := idx3_in t
  show V c main_v89 (((cfg3.win 4).blk t).view.emb (ix2 i g)) = V c main_v89 (ix2 ⟨5000 * t.val + i.val, row_lt t i⟩ g)
  congr 1
  funext a; apply Fin.ext
  match a with
  | ⟨0, _⟩ => show win3_4.index t (0 : Fin 2) * 5000 + 1 * i.val = 5000 * t.val + i.val; omega
  | ⟨1, _⟩ => show win3_4.index t (1 : Fin 2) * 64 + 1 * g.val = g.val; omega

/-- The combined row `r` at feature `d`, off the arrays the region finds. -/
def combK (r : Fin 50000) (d : Fin 64) : EReal :=
  aggArr V c (ix2 r d) + featArr V c (ix2 r d) * invArr V c (ix2 r 0) + biasArr V c (ix1 d)

/-- Row `k`'s share of graph `g`'s sum at feature `d` (nothing past the last row). -/
def termK (g d : Fin 64) (k : ℕ) : EReal :=
  if h : k < 50000 then hotArr V c (ix2 ⟨k, h⟩ g) * combK V c ⟨k, h⟩ d else 0

/-- What point `t` adds at graph `g` and feature `d`: the shares of its block's rows. -/
theorem block_sum (t : Fin cfg3.N) (g d : Fin 64) :
    ∑ i : Fin 5000, hotBlk V c t (ix2 i g) * (aggBlk V c t (ix2 i d) + featBlk V c t (ix2 i d) * invBlk V c t (ix2 i 0) + biasBlk V c t (ix1 d))
      = ∑ x ∈ Finset.range 5000, termK V c g d (5000 * t.val + x) := by
  rw [Finset.sum_range]
  refine Finset.sum_congr rfl fun i _ => ?_
  unfold termK
  rw [dif_pos (row_lt t i), aggBlk_apply, featBlk_apply, biasBlk_apply, invBlk_apply, hotBlk_apply]
  rfl

/-- THE ACCUMULATOR after point `n`: the shares of the rows below `5000 · (n + 1)`. -/
theorem acc3_sum : ∀ (n : ℕ) (hn : n < cfg3.N) (g d : Fin 64),
    (acc3 V c n hn : FVec Ideal S64x64 .f32) (ix2 g d) = ∑ k ∈ Finset.range (5000 * (n + 1)), termK V c g d k
  | 0, hn, g, d => by
    rw [acc3_zero]
    refine (step3_apply (aggBlk V c ⟨0, hn⟩) (featBlk V c ⟨0, hn⟩) (biasBlk V c ⟨0, hn⟩) (invBlk V c ⟨0, hn⟩) (hotBlk V c ⟨0, hn⟩) (k3_pay1 (F := Ideal)) g d).trans ?_
    rw [block_sum V c ⟨0, hn⟩ g d]
    have hz : (k3_pay1 (F := Ideal)) (ix2 g d) = 0 := by
      unfold k3_pay1
      simp only [shapeCast_self]
      exact Ideal.ofBits_zero_f32
    rw [hz, zero_add]
    refine Finset.sum_congr rfl fun x _ => ?_
    show termK V c g d (5000 * 0 + x) = termK V c g d x
    rw [Nat.mul_zero, Nat.zero_add]
  | k + 1, hn, g, d => by
    rw [acc3_succ]
    refine (step3_apply (aggBlk V c ⟨k + 1, hn⟩) (featBlk V c ⟨k + 1, hn⟩) (biasBlk V c ⟨k + 1, hn⟩) (invBlk V c ⟨k + 1, hn⟩) (hotBlk V c ⟨k + 1, hn⟩) (acc3 V c k (Nat.lt_of_succ_lt hn)) g d).trans ?_
    rw [acc3_sum k (Nat.lt_of_succ_lt hn) g d, block_sum V c ⟨k + 1, hn⟩ g d]
    rw [show 5000 * (k + 1 + 1) = 5000 * (k + 1) + 5000 by ring, Finset.sum_range_add]

/-- After the last point: the sum over all the rows of the one-hot entry times the combined row. -/
theorem acc3_last (h9 : 9 < cfg3.N) (g d : Fin 64) :
    (acc3 V c 9 h9 : FVec Ideal S64x64 .f32) (ix2 g d) = ∑ r : Fin 50000, hotArr V c (ix2 r g) * combK V c r d := by
  rw [acc3_sum V c 9 h9 g d, show 5000 * (9 + 1) = 50000 from rfl, Finset.sum_range]
  refine Finset.sum_congr rfl fun r _ => ?_
  unfold termK
  rw [dif_pos r.isLt]

end Region

/-! ## What the last stretch of host operations leaves in the buffers the region reads -/

section Host
variable (m : (ℓ : Loc nD τ sig) → Buf (Elt Ideal) ℓ) (c : Dev nD)

/-- The graph ids reach the last stretch as launched. -/
theorem Cn6_arg3 : Cn6 m c (Proc.devRef .tc main_arg3) = ar m c main_arg3 :=
  (Ex6_keep m c main_arg3 (by decide)).trans ((En5_keep m c main_arg3 (by decide)).trans ((Ex4_keep m c main_arg3 (by decide)).trans
    ((En3_keep m c main_arg3 (by decide)).trans ((Ex2_keep m c main_arg3 (by decide)).trans (En1_keep m c main_arg3 (by decide))))))

/-- The last bias reaches the region as launched. -/
theorem En7_arg10 : En7 m c main_arg10 = ar m c main_arg10 :=
  (En7_keep m c main_arg10 (by decide)).trans ((Ex6_keep m c main_arg10 (by decide)).trans ((En5_keep m c main_arg10 (by decide)).trans ((Ex4_keep m c main_arg10 (by decide)).trans
    ((En3_keep m c main_arg10 (by decide)).trans ((Ex2_keep m c main_arg10 (by decide)).trans (En1_keep m c main_arg10 (by decide)))))))

/-- The inverse degrees reach the region as the first stretch left them. -/
theorem En7_v29 : En7 m c main_v29 = shapeCast S50000x1 (val_main_v28 (F := Ideal) (ar m c main_arg1) (ar m c main_arg2)) shapeCasts_S50000_S50000x1 :=
  (En7_keep m c main_v29 (by decide)).trans ((Ex6_keep m c main_v29 (by decide)).trans ((En5_keep m c main_v29 (by decide)).trans ((Ex4_keep m c main_v29 (by decide)).trans
    ((En3_keep m c main_v29 (by decide)).trans ((Ex2_keep m c main_v29 (by decide)).trans (En1_v29 m c))))))

/-- The last layer's projected features reach the region as region 2 left them. -/
theorem En7_v68 : En7 m c main_v68 = Ex6 m c main_v68 := En7_keep m c main_v68 (by decide)

/-- The one-hot graph ids: the comparison of every row's id with every graph number, as a float. -/
theorem En7_v89 : En7 m c main_v89
    = (uitofp .bf16 (cmpi .eq (broadcastInDim S50000x64 ![0, 1] bcast_S50000x1_S50000x64_0_1 (broadcastInDim S50000x1 ![0] bcast_S50000_S50000x1_0 (ar m c main_arg3)))
        (broadcastInDim S50000x64 ![0, 1] bcast_S1x64_S50000x64_0_1 (broadcastInDim S1x64 ![1] bcast_S64_S1x64_1 (iotaInDim S64 32 0)))) : FVec Ideal S50000x64 .bf16) := by
  show StableHlo.after hostOps3 (Cn6 m c) (Proc.devRef .tc main_v89) = _
  after_results
  rw [Cn6_arg3]

set_option maxHeartbeats 1000000 in
/-- The counts, as a column: the reference's own count of rows by graph id. -/
theorem En7_v94 : En7 m c main_v94
    = (shapeCast S64x1 (val_main_v107 (F := Ideal) (ar m c main_arg3)) shapeCasts_S64_S64x1 : FVec Ideal S64x1 .f32) := by
  show StableHlo.after hostOps3 (Cn6 m c) (Proc.devRef .tc main_v94) = _
  after_results_simp
  rw [Cn6_arg3]
  rfl

end Host

/-! ## The region's arrays at an index, against the reference's stages -/

section Values
open Idealize.ShloMosaic.StableHlo.Predicate Idealize.ShloMosaic.RowOps
variable (m : (ℓ : Loc nD τ sig) → Buf (Elt Ideal) ℓ) (c : Dev nD)

/-- A 32-bit word is a graph number's word exactly when it reads signed as that number. -/
theorem word_eq_iff (a : BitVec 32) (g : Fin 64) : a = BitVec.ofNat 32 g.val ↔ a.toInt = (g.val : Int) := by
  have hg : g.val < 2 ^ 31 := by have := g.isLt; omega
  constructor
  · intro h; rw [h]; exact toInt_ofNat_small g.val hg
  · intro h; apply BitVec.eq_of_toInt_eq; rw [h, toInt_ofNat_small g.val hg]

/-- The one-hot entry of row `r` and graph `g`: one when the row's id reads as `g`, else zero. -/
theorem hot_apply (r : Fin 50000) (g : Fin 64) :
    hotArr (En7 m) c (ix2 r g)
      = if lands (val_main_v102 (F := Ideal) (ar m c main_arg3)) r g.val then (1 : EReal) else 0 := by
  refine (congrFun (En7_v89 m c) (ix2 r g)).trans ?_
  have e1 : broadcastInDim S50000x64 ![0, 1] bcast_S50000x1_S50000x64_0_1 (broadcastInDim S50000x1 ![0] bcast_S50000_S50000x1_0 (ar m c main_arg3 : IVec S50000 32)) (ix2 r g)
      = (ar m c main_arg3 : IVec S50000 32) (Shape.Idx.ofFin r) := bcast_rows _ _ _ r g
  have e2 : broadcastInDim S50000x64 ![0, 1] bcast_S1x64_S50000x64_0_1 (broadcastInDim S1x64 ![1] bcast_S64_S1x64_1 (iotaInDim S64 32 0)) (ix2 r g)
      = BitVec.ofNat 32 g.val := (bcast_cols _ _ _ r g).trans (iota_apply g)
  have hl : lands (val_main_v102 (F := Ideal) (ar m c main_arg3)) r g.val ↔ (ar m c main_arg3 : IVec S50000 32) (Shape.Idx.ofFin r) = BitVec.ofNat 32 g.val := by
    unfold lands val_main_v102
    rw [bcast_col1, word_eq_iff]
  refine (congrArg (fun b : BitVec 1 => FloatOps.uitofp (F := Ideal) .bf16 b) (congrArg₂ (IntOp.cmpi .eq) e1 e2)).trans ?_
  by_cases h : (ar m c main_arg3 : IVec S50000 32) (Shape.Idx.ofFin r) = BitVec.ofNat 32 g.val
  · rw [if_pos (hl.mpr h)]
    show FloatOps.uitofp (F := Ideal) .bf16 (IntOp.cmpi .eq ((ar m c main_arg3 : IVec S50000 32) (Shape.Idx.ofFin r)) (BitVec.ofNat 32 g.val)) = 1
    rw [cmpi_eq_iff.mpr h]
    show (((1 : ℕ) : ℝ) : EReal) = 1
    rw [Nat.cast_one, EReal.coe_one]
  · rw [if_neg (fun hh => h (hl.mp hh))]
    show FloatOps.uitofp (F := Ideal) .bf16 (IntOp.cmpi .eq ((ar m c main_arg3 : IVec S50000 32) (Shape.Idx.ofFin r)) (BitVec.ofNat 32 g.val)) = 0
    rw [eq_zero_of_ne_one (fun hh => h (cmpi_eq_iff.mp hh))]
    show (((0 : ℕ) : ℝ) : EReal) = 0
    rw [Nat.cast_zero, EReal.coe_zero]

/-- The region's combined row is the reference's combine of what region 2 left, at the row and the feature. -/
theorem combK_eq (r : Fin 50000) (d : Fin 64) :
    combK (En7 m) c r d = combR (F := Ideal) (ar m c main_arg1) (ar m c main_arg2) (Ex6 m c main_v68) (ar m c main_arg10) (ix2 r d) := by
  refine Eq.trans ?_ (combR_apply (ar m c main_arg1) (ar m c main_arg2) (Ex6 m c main_v68) (ar m c main_arg10) r d).symm
  have a1 : aggArr (En7 m) c = aggR (F := Ideal) (ar m c main_arg1) (ar m c main_arg2) (Ex6 m c main_v68) := agg3 m c
  have a2 : featArr (En7 m) c = Ex6 m c main_v68 := En7_v68 m c
  have a3 : invArr (En7 m) c = shapeCast S50000x1 (val_main_v28 (F := Ideal) (ar m c main_arg1) (ar m c main_arg2)) shapeCasts_S50000_S50000x1 := En7_v29 m c
  have a4 : biasArr (En7 m) c = ar m c main_arg10 := En7_arg10 m c
  have e1 : shapeCast S50000x1 (val_main_v28 (F := Ideal) (ar m c main_arg1) (ar m c main_arg2)) shapeCasts_S50000_S50000x1 (ix2 r 0)
      = val_main_v28 (F := Ideal) (ar m c main_arg1) (ar m c main_arg2) (ix1 r) := by
    refine shapeCast_apply _ shapeCasts_S50000_S50000x1 (ix2 r (0 : Fin 1)) (ix1 r) ?_
    rw [Shape.rowMajor_val_one, Shape.rowMajor_val_two]
    show r.val = r.val * 1 + 0
    omega
  unfold combK
  rw [a1, a2, a3, a4, e1]
end Values

/-! ## The assembly -/

section Assembly
open Idealize.ShloMosaic.RowOps
variable (m : (ℓ : Loc nD τ sig) → Buf (Elt Ideal) ℓ) (c : Dev nD)

/-- The accumulator after the last point is the reference's sum of the combined rows by graph id: a row whose id reads as
    `g` has the one-hot entry one at `g` and is summed into graph `g` on both sides; every other row has the entry zero and
    lands elsewhere or nowhere. -/
theorem acc_eq_scatter (h9 : 9 < cfg3.N) :
    (acc3 (En7 m) c 9 h9 : FVec Ideal S64x64 .f32)
      = Host.scatterAdd (F := Ideal) (φ := .f32) Cert.ReferenceIdeal.scatter_S64x64_S50000x1_S50000x64_1_0_0_1 (val_main_v101 (F := Ideal)) (val_main_v102 (F := Ideal) (ar m c main_arg3))
          (combR (F := Ideal) (ar m c main_arg1) (ar m c main_arg2) (Ex6 m c main_v68) (ar m c main_arg10)) := by
  funext j
  obtain ⟨g, d, rfl⟩ : ∃ (g : Fin 64) (d : Fin 64), j = ix2 g d := ⟨j 0, j 1, eq_ix2 j⟩
  rw [acc3_last (En7 m) c h9 g d]
  have hc : ∀ r : Fin 50000, combK (En7 m) c r d = combR (F := Ideal) (ar m c main_arg1) (ar m c main_arg2) (Ex6 m c main_v68) (ar m c main_arg10) (ix2 r d) :=
    fun r => combK_eq m c r d
  have hh : ∀ r : Fin 50000, hotArr (En7 m) c (ix2 r g) = if lands (val_main_v102 (F := Ideal) (ar m c main_arg3)) r g.val then (1 : EReal) else 0 :=
    fun r => hot_apply m c r g
  have hx : val_main_v101 (F := Ideal) (ix2 g d) = (0 : EReal) := by
    rw [val_main_v101_apply, val_main_cst_17_apply]
    exact Ideal.ofBits_zero_f32
  generalize combR (F := Ideal) (ar m c main_arg1) (ar m c main_arg2) (Ex6 m c main_v68) (ar m c main_arg10) = H3 at hc ⊢
  generalize val_main_v102 (F := Ideal) (ar m c main_arg3) = idx at hh ⊢
  generalize val_main_v101 (F := Ideal) = X at hx ⊢
  refine Eq.trans ?_ (scatterAdd_rows Cert.ReferenceIdeal.scatter_S64x64_S50000x1_S50000x64_1_0_0_1 rfl rfl rfl rfl X idx H3 g d).symm
  rw [hx, zero_add, Finset.sum_filter]
  refine Finset.sum_congr rfl fun r _ => ?_
  rw [hh r, hc r]
  by_cases hl : lands idx r g.val
  · rw [if_pos hl, if_pos hl, one_mul]
  · rw [if_neg hl, if_neg hl, zero_mul]

end Assembly

end Pool

variable (m : (ℓ : Loc nD τ sig) → Buf (Elt Ideal) ℓ) (c : Dev nD)

/-- What region 3 leaves in its output array is the reference's tail of the last layer's combine of what region 2 left. -/
theorem layer3 (h : (⟨Cert.ReferenceIdeal.S50000x64, .f32⟩ : BufTy).Contents (Elt Ideal)) (hprev : Ex6 m c main_v68 = h) :
    Ex8 m c main_v95 = tailR (F := Ideal) (ar m c main_arg3) (combR (F := Ideal) (ar m c main_arg1) (ar m c main_arg2) h (ar m c main_arg10)) := by
  subst hprev
  have h9 : 9 < cfg3.N := by rw [Pool.N3]; decide
  have e1 : Ex8 m c main_v95 = (dat3 (En7 m) c).arrAt 6 cfg3.N := (hF3 m c 6).symm
  rw [e1, Pool.arr3_6 (En7 m) c h9]
  exact tail_eq (ar m c main_arg3) (combR (F := Ideal) (ar m c main_arg1) (ar m c main_arg2) (Ex6 m c main_v68) (ar m c main_arg10))
    (acc3 (En7 m) c 9 h9) (En7 m c main_v94) (Pool.acc_eq_scatter m c h9) (Pool.En7_v94 m c)

end Cert.KernelIdeal.Val

end
-- ==== Proof.Val.Result.lean ====
/-
  The kernel program's result is the reference's: the four layers chained.
-/
import proofs.«414150_j66202625901264_3_alg».proof.Proof.Val.L0
import proofs.«414150_j66202625901264_3_alg».proof.Proof.Val.L1
import proofs.«414150_j66202625901264_3_alg».proof.Proof.Val.L2
import proofs.«414150_j66202625901264_3_alg».proof.Proof.Val.L3
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Val

open Cert.KernelIdeal Cert.KernelIdeal.Gen Cert.KernelIdeal.Hand
open Cert.ReferenceIdeal.Read Cert.ReferenceIdeal.RefValue
open Idealize.ShloMosaic Idealize.ShloMosaic.TcCoe Idealize.ShloMosaic.ValueIdx
open Idealize.SL Idealize.SL.Sem

variable (m : (ℓ : Loc nD τ sig) → Buf (Elt Ideal) ℓ) (c : Dev nD)

/-- For labels in range the program's result array, after its last region, is the reference's result as a function of
    the same arguments. -/
theorem result_eq (hx : LabelsInRange m c) :
    Ex8 m c main_v95 = val_main_v117 (F := Ideal) (ar m c main_arg0) (ar m c main_arg1) (ar m c main_arg2) (ar m c main_arg3)
      (ar m c main_arg4) (ar m c main_arg5) (ar m c main_arg6) (ar m c main_arg7) (ar m c main_arg8) (ar m c main_arg9) (ar m c main_arg10) := by
  rw [v117_eq, v80_eq, v58_eq]
  exact layer3 m c _ (layer2 m c _ (layer1 m c _ (layer0 m c hx)))

end Cert.KernelIdeal.Val

end
-- ==== Proof.Val.Pre.lean ====
/-
  The precondition read back. The printed predicate is a conjunction of nine bits: eight say that a float argument has no
  infinite or undefined entry, and the last is the reduction by "and", over all fifty thousand nodes, of the bit
  "0 ≤ x and x < 30" of the node's label x, both comparisons signed. The whole conjunction being one, its last bit is
  one; a reduction by "and" that is one met a one at every node; and at a node the bit being one says of the label, read
  as a signed integer, that it is at least zero and below thirty.
-/
import proofs.«414150_j66202625901264_3_alg».proof.Proof.Val.Base
import proofs.«414150_j66202625901264_3_alg».proof.Defs
import Idealize.ShloMosaic.Lib.StableHlo.Predicate
import Idealize.ShloMosaic.Lib.ReduceAll

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem

/-- The last conjunct of the printed predicate, at a node: its label is at least zero and below thirty. -/
theorem label_in_range_of_bits (x : BitVec 32) (h0 : IntOp.cmpi .sge x 0#32 = 1#1) (h30 : IntOp.cmpi .slt x 30#32 = 1#1) :
    0 ≤ x.toInt ∧ x.toInt < 30 := by
  have a : (0#32 : BitVec 32).toInt ≤ x.toInt := IntOp.cmpi_sge.1 h0
  have b : x.toInt < (30#32 : BitVec 32).toInt := IntOp.cmpi_slt.1 h30
  have z : (0#32 : BitVec 32).toInt = 0 := by decide
  have t : (30#32 : BitVec 32).toInt = 30 := by decide
  exact ⟨z ▸ a, t ▸ b⟩

/-- Under the precondition every node label is one of the thirty rows of the embedding table. -/
theorem labels_of_pre [Cert.Pre_finite_inputs.Facts] (m : (ℓ : Loc nD τ sig) → Buf (Elt Ideal) ℓ)
    (h : Cert.Pre_KernelIdeal m) (c : Dev nD) : LabelsInRange m c := by
  -- a scalar has one index
  haveI : Subsingleton Cert.Pre_finite_inputs.S_.Idx := ⟨fun a b => funext fun d => d.elim0⟩
  have e := congrFun (h c) ValueIdx.ix0
  unfold Cert.Pre_finite_inputs.fn Cert.Pre_finite_inputs.fn_part1 Cert.Pre_finite_inputs.fn_part2 at e
  dsimp only at e
  have e2 := (IntOp.andi_eq_one.1 e).2
  intro i
  have e3 := Host.reduce_andi_all _ _ _ _ _ e2 i
  obtain ⟨h0, h30⟩ := IntOp.andi_eq_one.1 e3
  exact label_in_range_of_bits _ h0 h30

end Cert.KernelIdeal.Val

end
-- ==== Proof.lean ====
/-
  The certificate's claim. Both programs compute, for a graph with node labels x, edges (src, dst) with weights, and a
  graph id per node: three rounds of h ↦ (neighbour sums of h·W, normalised by the degrees) + (h·W)/deg + b, with a
  positive part after the first two, starting from the embedding rows emb[x]; then the mean of the rows of each graph and
  each mean divided by its norm. The kernel program computes emb[x]·W1 as onehot(x)·(emb·W1), each round's combine fused
  with the next round's product block by block, and the sum by graph as a product with the one-hot graph ids accumulated
  over the blocks; the gathers, the scatter-adds and the degree normalisation are the same host operations in both.
  Over the extended reals the two results are equal whenever every label is one of the thirty rows of the table: a one-hot
  row selects one term of a sum (0 · y = 0 and 1 · y = y for every y), a sum may be taken in any order and grouping, and a
  change of float format is the identity. The three frames: each program runs to the end through its host operations
  and its four kernel regions, every region's blocks fetched and written back by the pipeline and its body leaving the
  inputs' staging buffers as found; the arguments are written by no operation and by no region.
-/
import proofs.«414150_j66202625901264_3_alg».proof.Defs
import proofs.«414150_j66202625901264_3_alg».proof.Proof.Gen.Kernel
import proofs.«414150_j66202625901264_3_alg».proof.Proof.Gen.KernelIdeal
import proofs.«414150_j66202625901264_3_alg».proof.Proof.Gen.ReferenceIdeal
import proofs.«414150_j66202625901264_3_alg».proof.Proof.Gen.Pre_finite_inputs
import proofs.«414150_j66202625901264_3_alg».proof.Proof.KB.Run
import proofs.«414150_j66202625901264_3_alg».proof.Proof.KI.Run
import proofs.«414150_j66202625901264_3_alg».proof.Proof.RefSide
import proofs.«414150_j66202625901264_3_alg».proof.Proof.Val.Result
import proofs.«414150_j66202625901264_3_alg».proof.Proof.Val.Pre
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Hand.frame m ρ

/-- So does the program read over the extended reals. -/
theorem frame_ki : Cert.frame_KernelIdeal := fun m ρ _ => Cert.KernelIdeal.Hand.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Run from memories agreeing on the arguments, with every label in range, the two programs end with one result: the
    kernel program's output array after its last region is the reference's result as a function of the arguments. -/
theorem algebraic : Cert.algebraic_KernelIdeal_ReferenceIdeal := by
  intro m ρ m' ρ' hpre hagree
  refine ⟨fun c => Cert.KernelIdeal.Hand.Ex8 m c Cert.KernelIdeal.main_v95, Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v117_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
  exact (Cert.KernelIdeal.Val.result_eq m c (Cert.KernelIdeal.Val.labels_of_pre m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
